-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S136x128 : Shape := ⟨2, ![136, 128]⟩
abbrev S_ : Shape := ⟨0, ![]⟩

class Facts : Prop where
  bcast_S_S136x128 : S_.BroadcastsInDim S136x128 (![] : Fin 0 → Fin S136x128.rank)
  reducesTo_S136x128_S_d0_1 : S136x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S136x128 .f32) : IVec S_ 1 :=
  let main_v0 : FVec F S136x128 .f32 := Host.absf main_arg5
  let main_cst : FVec F S_ .f32 := constant S_ .f32 0x7F800000#32
  let main_v1 : FVec F S136x128 .f32 := broadcastInDim S136x128 ![] bcast_S_S136x128 main_cst
  let main_v2 : IVec S136x128 1 := cmpf .olt main_v0 main_v1
  let main_c : IVec S_ 1 := constantI S_ 1 1#1
  let main_v3 : IVec S_ 1 := (fun x v => Host.reduce IntOp.andi x v reducesTo_S136x128_S_d0_1 h_S_) main_v2 main_c
  main_v3
-- ==== Kernel.lean ====
abbrev S1x1024 : Shape := ⟨2, ![1, 1024]⟩
abbrev S136x128 : Shape := ⟨2, ![136, 128]⟩
abbrev S_ : Shape := ⟨0, ![]⟩
abbrev S1024 : Shape := ⟨1, ![1024]⟩
abbrev S1024x1 : Shape := ⟨2, ![1024, 1]⟩
abbrev S1024x8 : Shape := ⟨2, ![1024, 8]⟩
abbrev S8x1024 : Shape := ⟨2, ![8, 1024]⟩
abbrev S1024x1024x128 : Shape := ⟨3, ![1024, 1024, 128]⟩
abbrev S128x8 : Shape := ⟨2, ![128, 8]⟩
abbrev S8x128 : Shape := ⟨2, ![8, 128]⟩
abbrev S128x128x128 : Shape := ⟨3, ![128, 128, 128]⟩
abbrev S1x128 : Shape := ⟨2, ![1, 128]⟩
abbrev S32x8 : Shape := ⟨2, ![32, 8]⟩
abbrev S32x1 : Shape := ⟨2, ![32, 1]⟩
abbrev S32x128 : Shape := ⟨2, ![32, 128]⟩
abbrev S32x128x136 : Shape := ⟨3, ![32, 128, 136]⟩
abbrev S32x128x1 : Shape := ⟨3, ![32, 128, 1]⟩
abbrev S4096x136 : Shape := ⟨2, ![4096, 136]⟩
abbrev S4096x128 : Shape := ⟨2, ![4096, 128]⟩
abbrev S32x128x128 : Shape := ⟨3, ![32, 128, 128]⟩
abbrev S1x1024x1024x128 : Shape := ⟨4, ![1, 1024, 1024, 128]⟩

abbrev nBuf : Space → Nat
  | .hbm => 39
  | .vmem => 7
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S136x128, .f32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S1024x1, .i32⟩
  | .hbm, ⟨17, _⟩ => ⟨S1024x1, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S1024x8, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1x1024, .i32⟩
  | .hbm, ⟨28, _⟩ => ⟨S1x1024, .i32⟩
  | .hbm, ⟨29, _⟩ => ⟨S1x1024, .i32⟩
  | .hbm, ⟨30, _⟩ => ⟨S1x1024, .i32⟩
  | .hbm, ⟨31, _⟩ => ⟨S1x1024, .i32⟩
  | .hbm, ⟨32, _⟩ => ⟨S1x1024, .i32⟩
  | .hbm, ⟨33, _⟩ => ⟨S1x1024, .i32⟩
  | .hbm, ⟨34, _⟩ => ⟨S1x1024, .i32⟩
  | .hbm, ⟨35, _⟩ => ⟨S8x1024, .i32⟩
  | .hbm, ⟨36, _⟩ => ⟨S136x128, .bf16⟩
  | .hbm, ⟨37, _⟩ => ⟨S1024x1024x128, .f32⟩
  | .hbm, ⟨38, _⟩ => ⟨S1x1024x1024x128, .f32⟩
  | .local _ .vmem, ⟨0, _⟩ => ⟨S128x8, .i32⟩
  | .local _ .vmem, ⟨1, _⟩ => ⟨S128x8, .i32⟩
  | .local _ .vmem, ⟨2, _⟩ => ⟨S8x128, .i32⟩
  | .local _ .vmem, ⟨3, _⟩ => ⟨S8x128, .i32⟩
  | .local _ .vmem, ⟨4, _⟩ => ⟨S136x128, .bf16⟩
  | .local _ .vmem, ⟨5, _⟩ => ⟨S128x128x128, .f32⟩
  | .local _ .vmem, ⟨6, _⟩ => ⟨S128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S136x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S1024 : S_.BroadcastsInDim S1024 (![] : Fin 0 → Fin S1024.rank)
  shapeCasts_S1x1024_S1024 : S1x1024.ShapeCasts S1024
  bcast_S1024_S1024x1_0 : S1024.BroadcastsInDim S1024x1 (![0] : Fin 1 → Fin S1024x1.rank)
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  bcast_S1024_S1x1024_1 : S1024.BroadcastsInDim S1x1024 (![1] : Fin 1 → Fin S1x1024.rank)
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  bitsLt_bf16_f32 : FTy.bits .bf16 < FTy.bits .f32
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S136x128_S136x128_0_0 : ∀ a, (![0, 0] : Fin 2 → Nat) a + S136x128.size a ≤ S136x128.size a
  h_S136x128 : 0 < S136x128.numel
  shapeCasts_S136x128_S136x128 : S136x128.ShapeCasts S136x128
  slices_S8x128_o0_0_S1x128 : S8x128.Slices ![0, 0] S1x128
  slices_S8x128_o1_0_S1x128 : S8x128.Slices ![1, 0] S1x128
  slices_S8x128_o2_0_S1x128 : S8x128.Slices ![2, 0] S1x128
  slices_S8x128_o3_0_S1x128 : S8x128.Slices ![3, 0] S1x128
  slices_S8x128_o4_0_S1x128 : S8x128.Slices ![4, 0] S1x128
  slices_S128x8_o0_0_S32x8 : S128x8.Slices ![0, 0] S32x8
  slices_S32x8_o0_0_S32x1 : S32x8.Slices ![0, 0] S32x1
  slices_S32x8_o0_1_S32x1 : S32x8.Slices ![0, 1] S32x1
  slices_S32x8_o0_2_S32x1 : S32x8.Slices ![0, 2] S32x1
  slices_S32x8_o0_3_S32x1 : S32x8.Slices ![0, 3] S32x1
  slices_S32x8_o0_4_S32x1 : S32x8.Slices ![0, 4] S32x1
  broadcasts_S1x128_S32x128 : S1x128.Broadcasts S32x128
  broadcasts_S32x1_S32x128 : S32x1.Broadcasts S32x128
  iota_S32x128x136_d2_w32 : S32x128x136.Iotas .tc 32 [2]
  shapeCasts_S32x128_S32x128x1 : S32x128.ShapeCasts S32x128x1
  broadcasts_S32x128x1_S32x128x136 : S32x128x1.Broadcasts S32x128x136
  natLt_1_32 : 1 < 32
  shapeCasts_S32x128x136_S4096x136 : S32x128x136.ShapeCasts S4096x136
  shapeCasts_S4096x128_S32x128x128 : S4096x128.ShapeCasts S32x128x128
  inb_S128x128x128_S32x128x128_0_0_0 : ∀ a, (![0, 0, 0] : Fin 3 → Nat) a + S32x128x128.size a ≤ S128x128x128.size a
  h_S32x128x128 : 0 < S32x128x128.numel
  slices_S128x8_o32_0_S32x8 : S128x8.Slices ![32, 0] S32x8
  inb_S128x128x128_S32x128x128_32_0_0 : ∀ a, (![32, 0, 0] : Fin 3 → Nat) a + S32x128x128.size a ≤ S128x128x128.size a
  slices_S128x8_o64_0_S32x8 : S128x8.Slices ![64, 0] S32x8
  inb_S128x128x128_S32x128x128_64_0_0 : ∀ a, (![64, 0, 0] : Fin 3 → Nat) a + S32x128x128.size a ≤ S128x128x128.size a
  slices_S128x8_o96_0_S32x8 : S128x8.Slices ![96, 0] S32x8
  inb_S128x128x128_S32x128x128_96_0_0 : ∀ a, (![96, 0, 0] : Fin 3 → Nat) a + S32x128x128.size a ≤ S128x128x128.size a
  shapeCasts_S1024x1024x128_S1x1024x1024x128 : S1024x1024x128.ShapeCasts S1x1024x1024x128
  dot_S4096x136_S136x128_S4096x128_1_0_0_1_n_n_wf : DotDims.WF S4096x136 S136x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8.size a ≤ S1024x8.size a
  hwx0_0 : ∀ i : grid0.Coords, EltTy.bits .i32 = 32 ∨ (Rect.block (s := S1024x8) S128x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x1024.size a
  hwx0_1 : ∀ i : grid0.Coords, EltTy.bits .i32 = 32 ∨ (Rect.block (s := S8x1024) S8x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S136x128.size a ≤ S136x128.size a
  hwx0_2 : ∀ i : grid0.Coords, EltTy.bits .bf16 = 32 ∨ (Rect.block (s := S136x128) S136x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S1024x1024x128.size a
  hwx0_3 : ∀ i : grid0.Coords, EltTy.bits .f32 = 32 ∨ (Rect.block (s := S1024x1024x128) S128x128x128.size (cc0_transform_3 i) (hinb0_3 i)).WholeWords (EltTy.packing .f32)

variable [Facts₀]

def dot_S4096x136_S136x128_S4096x128_1_0_0_1_n_n : DotDims S4096x136 S136x128 S4096x128 where
  lhsContracting := [1]
  rhsContracting := [0]
  lhsNonContracting := [0]
  rhsNonContracting := [1]
  lhsBatch := []
  rhsBatch := []
  wf := dot_S4096x136_S136x128_S4096x128_1_0_0_1_n_n_wf

abbrev win0_0 : Pipeline.Window sig grid0 :=
  Pipeline.Window.ofSpec (Memref.whole main_v14) S128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S136x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1024 : Shape := ⟨2, ![1, 1024]⟩
abbrev S136x128 : Shape := ⟨2, ![136, 128]⟩
abbrev S1x1x1024 : Shape := ⟨3, ![1, 1, 1024]⟩
abbrev S1x1024x1 : Shape := ⟨3, ![1, 1024, 1]⟩
abbrev S1x1024x1024 : Shape := ⟨3, ![1, 1024, 1024]⟩
abbrev S_ : Shape := ⟨0, ![]⟩
abbrev S1x1024x1024x1 : Shape := ⟨4, ![1, 1024, 1024, 1]⟩
abbrev S1 : Shape := ⟨1, ![1]⟩
abbrev S1x1x1x1 : Shape := ⟨4, ![1, 1, 1, 1]⟩
abbrev S1x1024x1024x128 : Shape := ⟨4, ![1, 1024, 1024, 128]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 166
  | .vmem => 0
  | .smem => 0
  | _ => 0

abbrev hbmTy0_0 (i : Nat) : BufTy := match i % 128 with
  | 0 => ⟨S1x1024, .i32⟩
  | 1 => ⟨S1x1024, .i32⟩
  | 2 => ⟨S1x1024, .i32⟩
  | 3 => ⟨S1x1024, .i32⟩
  | 4 => ⟨S1x1024, .i32⟩
  | 5 => ⟨S136x128, .f32⟩
  | 6 => ⟨S1x1x1024, .i32⟩
  | 7 => ⟨S1x1024x1, .i32⟩
  | 8 => ⟨S1x1024x1024, .i32⟩
  | 9 => ⟨S1x1024x1024, .i32⟩
  | 10 => ⟨S1x1024x1024, .i1⟩
  | 11 => ⟨S1x1x1024, .i32⟩
  | 12 => ⟨S1x1024x1, .i32⟩
  | 13 => ⟨S1x1024x1024, .i32⟩
  | 14 => ⟨S1x1024x1024, .i32⟩
  | 15 => ⟨S1x1024x1024, .i1⟩
  | 16 => ⟨S1x1x1024, .i32⟩
  | 17 => ⟨S1x1024x1, .i32⟩
  | 18 => ⟨S1x1024x1024, .i32⟩
  | 19 => ⟨S1x1024x1024, .i32⟩
  | 20 => ⟨S1x1024x1024, .i1⟩
  | 21 => ⟨S1x1x1024, .i32⟩
  | 22 => ⟨S1x1024x1, .i32⟩
  | 23 => ⟨S1x1024x1024, .i32⟩
  | 24 => ⟨S1x1024x1024, .i32⟩
  | 25 => ⟨S1x1024x1024, .i32⟩
  | 26 => ⟨S_, .i32⟩
  | 27 => ⟨S1x1024x1024, .i32⟩
  | 28 => ⟨S1x1024x1024, .i32⟩
  | 29 => ⟨S1x1024x1024, .i1⟩
  | 30 => ⟨S_, .i32⟩
  | 31 => ⟨S_, .i32⟩
  | 32 => ⟨S_, .i32⟩
  | 33 => ⟨S1x1024x1024, .i32⟩
  | 34 => ⟨S1x1024x1024, .i32⟩
  | 35 => ⟨S1x1024x1024, .i32⟩
  | 36 => ⟨S1x1024x1024, .i32⟩
  | 37 => ⟨S_, .i32⟩
  | 38 => ⟨S1x1024x1024, .i32⟩
  | 39 => ⟨S1x1024x1024, .i32⟩
  | 40 => ⟨S1x1x1024, .i32⟩
  | 41 => ⟨S1x1024x1, .i32⟩
  | 42 => ⟨S1x1024x1024, .i32⟩
  | 43 => ⟨S1x1024x1024, .i32⟩
  | 44 => ⟨S1x1024x1024, .i32⟩
  | 45 => ⟨S_, .i32⟩
  | 46 => ⟨S1x1024x1024, .i32⟩
  | 47 => ⟨S1x1024x1024, .i32⟩
  | 48 => ⟨S1x1024x1024, .i1⟩
  | 49 => ⟨S1x1024x1024, .i1⟩
  | 50 => ⟨S1x1024x1024, .i1⟩
  | 51 => ⟨S_, .i32⟩
  | 52 => ⟨S_, .i32⟩
  | 53 => ⟨S_, .i32⟩
  | 54 => ⟨S1x1024x1024, .i32⟩
  | 55 => ⟨S1x1024x1024, .i32⟩
  | 56 => ⟨S1x1024x1024, .i32⟩
  | 57 => ⟨S1x1024x1024, .i32⟩
  | 58 => ⟨S_, .i32⟩
  | 59 => ⟨S1x1024x1024, .i32⟩
  | 60 => ⟨S1x1024x1024, .i32⟩
  | 61 => ⟨S1x1x1024, .i32⟩
  | 62 => ⟨S1x1024x1, .i32⟩
  | 63 => ⟨S1x1024x1024, .i32⟩
  | 64 => ⟨S1x1024x1024, .i32⟩
  | 65 => ⟨S1x1024x1024, .i32⟩
  | 66 => ⟨S_, .i32⟩
  | 67 => ⟨S1x1024x1024, .i32⟩
  | 68 => ⟨S1x1024x1024, .i32⟩
  | 69 => ⟨S1x1024x1024, .i1⟩
  | 70 => ⟨S_, .i32⟩
  | 71 => ⟨S_, .i32⟩
  | 72 => ⟨S_, .i32⟩
  | 73 => ⟨S1x1024x1024, .i32⟩
  | 74 => ⟨S1x1024x1024, .i32⟩
  | 75 => ⟨S1x1024x1024, .i32⟩
  | 76 => ⟨S1x1024x1024, .i32⟩
  | 77 => ⟨S_, .i32⟩
  | 78 => ⟨S1x1024x1024, .i32⟩
  | 79 => ⟨S1x1024x1024, .i32⟩
  | 80 => ⟨S_, .i32⟩
  | 81 => ⟨S1x1024x1024, .i32⟩
  | 82 => ⟨S1x1024x1024, .i1⟩
  | 83 => ⟨S_, .i32⟩
  | 84 => ⟨S1x1024x1024, .i32⟩
  | 85 => ⟨S1x1024x1024, .i32⟩
  | 86 => ⟨S1x1024x1024, .i32⟩
  | 87 => ⟨S1x1024x1024x1, .i32⟩
  | 88 => ⟨S1, .i32⟩
  | 89 => ⟨S_, .i32⟩
  | 90 => ⟨S1x1024x1024x1, .i32⟩
  | 91 => ⟨S1x1024x1024x1, .i1⟩
  | 92 => ⟨S1x1x1x1, .i32⟩
  | 93 => ⟨S1x1024x1024x1, .i32⟩
  | 94 => ⟨S1x1024x1024x1, .i1⟩
  | 95 => ⟨S1x1024x1024x1, .i1⟩
  | 96 => ⟨S_, .i1⟩
  | 97 => ⟨S1x1024x1024, .i1⟩
  | 98 => ⟨S1x1024x1024x128, .f32⟩
  | 99 => ⟨S1x1024x1024x128, .i1⟩
  | 100 => ⟨S_, .f32⟩
  | 101 => ⟨S1x1024x1024x128, .f32⟩
  | 102 => ⟨S1x1024x1024x128, .f32⟩
  | 103 => ⟨S_, .i32⟩
  | 104 => ⟨S1x1024x1024, .i32⟩
  | 105 => ⟨S1x1024x1024, .i32⟩
  | 106 => ⟨S_, .i32⟩
  | 107 => ⟨S1x1024x1024, .i32⟩
  | 108 => ⟨S1x1024x1024, .i1⟩
  | 109 => ⟨S_, .i32⟩
  | 110 => ⟨S1x1024x1024, .i32⟩
  | 111 => ⟨S1x1024x1024, .i32⟩
  | 112 => ⟨S1x1024x1024, .i32⟩
  | 113 => ⟨S1x1024x1024x1, .i32⟩
  | 114 => ⟨S1, .i32⟩
  | 115 => ⟨S_, .i32⟩
  | 116 => ⟨S1x1024x1024x1, .i32⟩
  | 117 => ⟨S1x1024x1024x1, .i1⟩
  | 118 => ⟨S1x1x1x1, .i32⟩
  | 119 => ⟨S1x1024x1024x1, .i32⟩
  | 120 => ⟨S1x1024x1024x1, .i1⟩
  | 121 => ⟨S1x1024x1024x1, .i1⟩
  | 122 => ⟨S_, .i1⟩
  | 123 => ⟨S1x1024x1024, .i1⟩
  | 124 => ⟨S1x1024x1024x128, .f32⟩
  | 125 => ⟨S1x1024x1024x128, .i1⟩
  | 126 => ⟨S_, .f32⟩
  | 127 => ⟨S1x1024x1024x128, .f32⟩
  | _ => ⟨S1x1024, .i32⟩

abbrev hbmTy0_1 (i : Nat) : BufTy := match i % 128 with
  | 0 => ⟨S1x1024x1024x128, .f32⟩
  | 1 => ⟨S1x1024x1024x128, .f32⟩
  | 2 => ⟨S1x1024x1024x1, .i1⟩
  | 3 => ⟨S1x1024x1024x1, .f32⟩
  | 4 => ⟨S1x128, .f32⟩
  | 5 => ⟨S128, .f32⟩
  | 6 => ⟨S1x1x1x128, .f32⟩
  | 7 => ⟨S1x1024x1024x128, .f32⟩
  | 8 => ⟨S1x1024x1024x128, .f32⟩
  | 9 => ⟨S1x1024x1024x128, .f32⟩
  | 10 => ⟨S1x1024x1024x128, .f32⟩
  | 11 => ⟨S_, .i32⟩
  | 12 => ⟨S1x1024x1024, .i32⟩
  | 13 => ⟨S1x1024x1024, .i32⟩
  | 14 => ⟨S_, .i32⟩
  | 15 => ⟨S1x1024x1024, .i32⟩
  | 16 => ⟨S1x1024x1024, .i1⟩
  | 17 => ⟨S_, .i32⟩
  | 18 => ⟨S1x1024x1024, .i32⟩
  | 19 => ⟨S1x1024x1024, .i32⟩
  | 20 => ⟨S1x1024x1024, .i32⟩
  | 21 => ⟨S1x1024x1024x1, .i32⟩
  | 22 => ⟨S1, .i32⟩
  | 23 => ⟨S_, .i32⟩
  | 24 => ⟨S1x1024x1024x1, .i32⟩
  | 25 => ⟨S1x1024x1024x1, .i1⟩
  | 26 => ⟨S1x1x1x1, .i32⟩
  | 27 => ⟨S1x1024x1024x1, .i32⟩
  | 28 => ⟨S1x1024x1024x1, .i1⟩
  | 29 => ⟨S1x1024x1024x1, .i1⟩
  | 30 => ⟨S_, .i1⟩
  | 31 => ⟨S1x1024x1024, .i1⟩
  | 32 => ⟨S1x1024x1024x128, .f32⟩
  | 33 => ⟨S1x1024x1024x128, .i1⟩
  | 34 => ⟨S_, .f32⟩
  | 35 => ⟨S1x1024x1024x128, .f32⟩
  | 36 => ⟨S1x1024x1024x128, .f32⟩
  | 37 => ⟨S1x1024x1024x128, .f32⟩
  | _ => ⟨S1x1024, .i32⟩

abbrev hbmTy (i : Nat) : BufTy := match i / 128 with
  | 0 => hbmTy0_0 i
  | 1 => hbmTy0_1 i
  | _ => ⟨S1x1024, .i32⟩

abbrev bufTy : (tb : Table) → Fin (tcTables nBuf tb) → BufTy
  | .hbm, ⟨i, _⟩ => hbmTy i
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_c_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v23 : Ref sig .tc := ⟨.hbm, 36, rfl⟩
abbrev main_c_2 : Ref sig .tc := ⟨.hbm, 37, rfl⟩
abbrev main_call1_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_4 : Ref sig .tc := ⟨.hbm, 51, rfl⟩
abbrev main_c_5 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_v35 : Ref sig .tc := ⟨.hbm, 57, rfl⟩
abbrev main_c_6 : Ref sig .tc := ⟨.hbm, 58, rfl⟩
abbrev main_call3_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_c_9 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_v45 : Ref sig .tc := ⟨.hbm, 76, rfl⟩
abbrev main_c_10 : Ref sig .tc := ⟨.hbm, 77, rfl⟩
abbrev main_call5_v0 : Ref sig .tc := ⟨.hbm, 78, rfl⟩
abbrev main_v46 : Ref sig .tc := ⟨.hbm, 79, rfl⟩
abbrev main_call6_c : Ref sig .tc := ⟨.hbm, 80, rfl⟩
abbrev main_call6_v0 : Ref sig .tc := ⟨.hbm, 81, rfl⟩
abbrev main_call6_v1 : Ref sig .tc := ⟨.hbm, 82, rfl⟩
abbrev main_call6_c_0 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_c_1 : Ref sig .tc := ⟨.hbm, 88, rfl⟩
abbrev main_call6_c_2 : Ref sig .tc := ⟨.hbm, 89, rfl⟩
abbrev main_call6_v6 : Ref sig .tc := ⟨.hbm, 90, rfl⟩
abbrev main_call6_v7 : Ref sig .tc := ⟨.hbm, 91, rfl⟩
abbrev main_call6_v8 : Ref sig .tc := ⟨.hbm, 92, rfl⟩
abbrev main_call6_v9 : Ref sig .tc := ⟨.hbm, 93, rfl⟩
abbrev main_call6_v10 : Ref sig .tc := ⟨.hbm, 94, rfl⟩
abbrev main_call6_v11 : Ref sig .tc := ⟨.hbm, 95, rfl⟩
abbrev main_call6_c_3 : Ref sig .tc := ⟨.hbm, 96, rfl⟩
abbrev main_call6_v12 : Ref sig .tc := ⟨.hbm, 97, rfl⟩
abbrev main_call6_v13 : Ref sig .tc := ⟨.hbm, 98, rfl⟩
abbrev main_call6_v14 : Ref sig .tc := ⟨.hbm, 99, rfl⟩
abbrev main_call6_cst : Ref sig .tc := ⟨.hbm, 100, rfl⟩
abbrev main_call6_v15 : Ref sig .tc := ⟨.hbm, 101, rfl⟩
abbrev main_v47 : Ref sig .tc := ⟨.hbm, 102, rfl⟩
abbrev main_c_11 : Ref sig .tc := ⟨.hbm, 103, rfl⟩
abbrev main_v48 : Ref sig .tc := ⟨.hbm, 104, rfl⟩
abbrev main_v49 : Ref sig .tc := ⟨.hbm, 105, rfl⟩
abbrev main_call7_c : Ref sig .tc := ⟨.hbm, 106, rfl⟩
abbrev main_call7_v0 : Ref sig .tc := ⟨.hbm, 107, rfl⟩
abbrev main_call7_v1 : Ref sig .tc := ⟨.hbm, 108, rfl⟩
abbrev main_call7_c_0 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_call7_v5 : Ref sig .tc := ⟨.hbm, 113, rfl⟩
abbrev main_call7_c_1 : Ref sig .tc := ⟨.hbm, 114, rfl⟩
abbrev main_call7_c_2 : Ref sig .tc := ⟨.hbm, 115, rfl⟩
abbrev main_call7_v6 : Ref sig .tc := ⟨.hbm, 116, rfl⟩
abbrev main_call7_v7 : Ref sig .tc := ⟨.hbm, 117, rfl⟩
abbrev main_call7_v8 : Ref sig .tc := ⟨.hbm, 118, rfl⟩
abbrev main_call7_v9 : Ref sig .tc := ⟨.hbm, 119, rfl⟩
abbrev main_call7_v10 : Ref sig .tc := ⟨.hbm, 120, rfl⟩
abbrev main_call7_v11 : Ref sig .tc := ⟨.hbm, 121, rfl⟩
abbrev main_call7_c_3 : Ref sig .tc := ⟨.hbm, 122, rfl⟩
abbrev main_call7_v12 : Ref sig .tc := ⟨.hbm, 123, rfl⟩
abbrev main_call7_v13 : Ref sig .tc := ⟨.hbm, 124, rfl⟩
abbrev main_call7_v14 : Ref sig .tc := ⟨.hbm, 125, rfl⟩
abbrev main_call7_cst : Ref sig .tc := ⟨.hbm, 126, rfl⟩
abbrev main_call7_v15 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_c_12 : Ref sig .tc := ⟨.hbm, 139, rfl⟩
abbrev main_v61 : Ref sig .tc := ⟨.hbm, 140, rfl⟩
abbrev main_v62 : Ref sig .tc := ⟨.hbm, 141, rfl⟩
abbrev main_call8_c : Ref sig .tc := ⟨.hbm, 142, rfl⟩
abbrev main_call8_v0 : Ref sig .tc := ⟨.hbm, 143, rfl⟩
abbrev main_call8_v1 : Ref sig .tc := ⟨.hbm, 144, rfl⟩
abbrev main_call8_c_0 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_call8_v5 : Ref sig .tc := ⟨.hbm, 149, rfl⟩
abbrev main_call8_c_1 : Ref sig .tc := ⟨.hbm, 150, rfl⟩
abbrev main_call8_c_2 : Ref sig .tc := ⟨.hbm, 151, rfl⟩
abbrev main_call8_v6 : Ref sig .tc := ⟨.hbm, 152, rfl⟩
abbrev main_call8_v7 : Ref sig .tc := ⟨.hbm, 153, rfl⟩
abbrev main_call8_v8 : Ref sig .tc := ⟨.hbm, 154, rfl⟩
abbrev main_call8_v9 : Ref sig .tc := ⟨.hbm, 155, rfl⟩
abbrev main_call8_v10 : Ref sig .tc := ⟨.hbm, 156, rfl⟩
abbrev main_call8_v11 : Ref sig .tc := ⟨.hbm, 157, rfl⟩
abbrev main_call8_c_3 : Ref sig .tc := ⟨.hbm, 158, rfl⟩
abbrev main_call8_v12 : Ref sig .tc := ⟨.hbm, 159, rfl⟩
abbrev main_call8_v13 : Ref sig .tc := ⟨.hbm, 160, rfl⟩
abbrev main_call8_v14 : Ref sig .tc := ⟨.hbm, 161, rfl⟩
abbrev main_call8_cst : Ref sig .tc := ⟨.hbm, 162, rfl⟩
abbrev main_call8_v15 : Ref sig .tc := ⟨.hbm, 163, rfl⟩
abbrev main_v63 : Ref sig .tc := ⟨.hbm, 164, rfl⟩
abbrev main_v64 : Ref sig .tc := ⟨.hbm, 165, rfl⟩

abbrev nD : Nat := 1
abbrev τ : Topo := Topo.v7x

variable {F : FTy → Type} [FloatOps F]

class Facts₀ : Prop where
  bcast_S1x1024_S1x1x1024_0_2 : S1x1024.BroadcastsInDim S1x1x1024 (![0, 2] : Fin 2 → Fin S1x1x1024.rank)
  bcast_S1x1024_S1x1024x1_0_1 : S1x1024.BroadcastsInDim S1x1024x1 (![0, 1] : Fin 2 → Fin S1x1024x1.rank)
  bcast_S1x1x1024_S1x1024x1024_0_1_2 : S1x1x1024.BroadcastsInDim S1x1024x1024 (![0, 1, 2] : Fin 3 → Fin S1x1024x1024.rank)
  bcast_S1x1024x1_S1x1024x1024_0_1_2 : S1x1024x1.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S_S1x1024x1024x1 : S_.BroadcastsInDim S1x1024x1024x1 (![] : Fin 0 → Fin S1x1024x1024x1.rank)
  bcast_S1_S1x1x1x1_3 : S1.BroadcastsInDim S1x1x1x1 (![3] : Fin 1 → Fin S1x1x1x1.rank)
  bcast_S1x1x1x1_S1x1024x1024x1_0_1_2_3 : S1x1x1x1.BroadcastsInDim S1x1024x1024x1 (![0, 1, 2, 3] : Fin 4 → Fin S1x1024x1024x1.rank)
  reducesTo_S1x1024x1024x1_S1x1024x1024_d3 : S1x1024x1024x1.ReducesTo [3] S1x1024x1024
  h_S_ : 0 < S_.numel
  bcast_S1x1024x1024_S1x1024x1024x128_0_1_2 : S1x1024x1024.BroadcastsInDim S1x1024x1024x128 (![0, 1, 2] : Fin 3 → Fin S1x1024x1024x128.rank)
  bcast_S_S1x1024x1024x128 : S_.BroadcastsInDim S1x1024x1024x128 (![] : Fin 0 → Fin S1x1024x1024x128.rank)
  slices_S136x128_S1x128_130_0 : S136x128.Slices ![130, 0] S1x128
  shapeCasts_S1x128_S128 : S1x128.ShapeCasts S128
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S136x128_S1x1024x1024x1_S1x1024x1024x128_3_0_n_n_0_3_1128_wf : GatherDims.WF S136x128 S1x1024x1024x1 S1x1024x1024x128 [3] [0] [] [0] [] 3 ![1, 128]

variable [Facts₀]

def gather_S136x128_S1x1024x1024x1_S1x1024x1024x128_3_0_n_n_0_3_1128 : GatherDims S136x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S136x128_S1x1024x1024x1_S1x1024x1024x128_3_0_n_n_0_3_1128_wf

class Facts : Prop extends Facts₀ where

variable [Facts]
-- ==== Proof.WordTileBody.lean ====
/-
  One grid point of the pairwise kernel: a tile of 128 row tokens by 128 column tokens.

  The body reads the tile's packed row block (128 × 8 words), its packed column block (8 × 128 words) and the
  weight table, and writes the 128 × 128 × 128 output tile in four bands of 32 rows, each band one matrix product of a
  0/1 matrix (4096 × 136) with the table. This module runs the body once on whole staging buffers and records what the
  four stores leave: the bands as pieces of the output buffer, which tile it, so the buffer ends as their union
  whatever it held before.
-/
import proofs.«430765_j18373870092380_3_alg».proof.Proof.Gen.Kernel.Launch
import proofs.«430765_j18373870092380_3_alg».proof.Proof.Gen.Kernel.Skeleton
import proofs.«430765_j18373870092380_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The four bands the body's stores leave in the output tile's buffer (last store first), found by running the body,
    together with the run itself: on whole buffers holding the row block `x0`, the column block `x1` and the table `x2`,
    and an output buffer holding anything, the body ends with the inputs as they were and the output buffer overwritten
    by the bands. -/
noncomputable def bandRun (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) :
    { L : List (View.Piece (Elt F) S128x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The four bands tile the output buffer: every index of the tile lies in one of them. -/
theorem band_cover (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) (y : S128x128x128.Idx) :
    ∃ pc ∈ (bandRun c i arg2 harg2 arg3 harg3 arg4 harg4 arg5 harg5 x0 x1 x2).1, y ∈ pc.1.set :=
  View.cover_of_tiledL (bandRun c i arg2 harg2 arg3 harg3 arg4 harg4 arg5 harg5 x0 x1 x2).1 S32x128x128.size (by sl_kernel_rfl) y

/-- The output tile after the body: the union of its four bands. -/
def tileOut (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) : Vec F S128x128x128 .f32 :=
  View.canon (bandRun c i arg2 harg2 arg3 harg3 arg4 harg4 arg5 harg5 x0 x1 x2).1

/-- The body's triple over the tile: inputs kept, the output buffer at `tileOut` of the input blocks. -/
theorem sound_tile (c : Dev nD) (E : Set ℕ) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut c i arg2 harg2 arg3 harg3 arg4 harg4 arg5 harg5 x0 x1 x2)) -∗ K ⟨⟩))
      ⊢ wp frame (wpE (defs₀ (F := F)) Variants.none c none) E (cc0__kernel i arg2 harg2 arg3 harg3 arg4 harg4 arg5 harg5) K := by
  iintro ⟨H0, H1, H2, H3, Hk⟩
  iapply ((bandRun c i arg2 harg2 arg3 harg3 arg4 harg4 arg5 harg5 x0 x1 x2).2 E K)
  isplitl [H0]; · iexact H0
  isplitl [H1]; · iexact H1
  isplitl [H2]; · iexact H2
  isplitl [H3]; · iexact H3
  iintro ⟨H0, H1, H2, ⟨%f, H3⟩⟩
  iapply Hk
  isplitl [H0]; · iexact H0
  isplitl [H1]; · iexact H1
  isplitl [H2]; · iexact H2
  unfold owns
  iexists _; isplitr
  swap; · iexact H3
  ipureintro
  exact View.read_writes_eq_canon _ _ _ (band_cover c i arg2 harg2 arg3 harg3 arg4 harg4 arg5 harg5 x0 x1 x2)

end Cert.Kernel.Tile

end
-- ==== Proof.WordTileFrame.lean ====
/-
  The whole run of the pairwise program around its one grid of 8 × 8 tiles.

  Before the grid the host packs the five per-token integer arrays into a 1024 × 8 row array and an 8 × 1024 column
  array and narrows the weight table; after it, it reshapes the 1024 × 1024 × 128 result. None of these lines writes
  an argument array, so the arguments end as launched. At grid point `t` the body finds each input window's buffer at
  that window's block of its array and leaves the output window's buffer at the tile computed from those blocks; the
  pipeline then writes each tile back into the result array.
-/
import proofs.«430765_j18373870092380_3_alg».proof.Proof.Gen.Kernel.Launch
import proofs.«430765_j18373870092380_3_alg».proof.Proof.Gen.Kernel.Skeleton
import proofs.«430765_j18373870092380_3_alg».proof.Proof.Gen.Kernel.Points
import proofs.«430765_j18373870092380_3_alg».proof.Proof.WordTileBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the grid -/

/-- Core `c`'s buffer contents when the grid is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the grid, the grid, the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the grid touches the grid's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the grid's arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the pipeline's post, for any proof data whose arrays are the entry contents: no argument array is one
    of the grid's arrays, so each ends at what the host line after the grid leaves, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The pipeline's proof data -/

/-- After the body at point `t` each input window's buffer holds its block and the output window's buffer the tile of
    those blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (tileOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- The output window's buffer after point `t`: the tile of the point's three input blocks. -/
theorem after0_3 (c : Dev nD) (t : Fin cfg0.N) : (dats m 0 c).after 3 t = (tileOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the tile's triple applies; what is kept between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_tile c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with each of the grid's arrays at what the pipeline computes
    from the proof data and every other buffer as the host line after the grid leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Tile

end
-- ==== Proof.TileBody.lean ====
/-
  One grid point of the pairwise kernel: a tile of 128 row tokens by 128 column tokens.

  The body reads the tile's packed row block (128 × 8 words), its packed column block (8 × 128 words) and the
  weight table, and writes the 128 × 128 × 128 output tile in four bands of 32 rows, each band one matrix product of a
  0/1 matrix (4096 × 136) with the table. This module runs the body once on whole staging buffers and records what the
  four stores leave: the bands as pieces of the output buffer, which tile it, so the buffer ends as their union
  whatever it held before.
-/
import proofs.«430765_j18373870092380_3_alg».proof.Proof.Gen.KernelIdeal.Launch
import proofs.«430765_j18373870092380_3_alg».proof.Proof.Gen.KernelIdeal.Skeleton
import proofs.«430765_j18373870092380_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The four bands the body's stores leave in the output tile's buffer (last store first), found by running the body,
    together with the run itself: on whole buffers holding the row block `x0`, the column block `x1` and the table `x2`,
    and an output buffer holding anything, the body ends with the inputs as they were and the output buffer overwritten
    by the bands. -/
noncomputable def bandRun (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) :
    { L : List (View.Piece (Elt F) S128x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

/-- The four bands tile the output buffer: every index of the tile lies in one of them. -/
theorem band_cover (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) (y : S128x128x128.Idx) :
    ∃ pc ∈ (bandRun c i arg2 harg2 arg3 harg3 arg4 harg4 arg5 harg5 x0 x1 x2).1, y ∈ pc.1.set :=
  View.cover_of_tiledL (bandRun c i arg2 harg2 arg3 harg3 arg4 harg4 arg5 harg5 x0 x1 x2).1 S32x128x128.size (by sl_kernel_rfl) y

/-- The output tile after the body: the union of its four bands. -/
def tileOut (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) : Vec F S128x128x128 .f32 :=
  View.canon (bandRun c i arg2 harg2 arg3 harg3 arg4 harg4 arg5 harg5 x0 x1 x2).1

/-- The body's triple over the tile: inputs kept, the output buffer at `tileOut` of the input blocks. -/
theorem sound_tile (c : Dev nD) (E : Set ℕ) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec F S128x8 .i32) (x1 : Vec F S8x128 .i32) (x2 : Vec F S136x128 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tileOut c i arg2 harg2 arg3 harg3 arg4 harg4 arg5 harg5 x0 x1 x2)) -∗ K ⟨⟩))
      ⊢ wp frame (wpE (defs₀ (F := F)) Variants.none c none) E (cc0__kernel i arg2 harg2 arg3 harg3 arg4 harg4 arg5 harg5) K := by
  iintro ⟨H0, H1, H2, H3, Hk⟩
  iapply ((bandRun c i arg2 harg2 arg3 harg3 arg4 harg4 arg5 harg5 x0 x1 x2).2 E K)
  isplitl [H0]; · iexact H0
  isplitl [H1]; · iexact H1
  isplitl [H2]; · iexact H2
  isplitl [H3]; · iexact H3
  iintro ⟨H0, H1, H2, ⟨%f, H3⟩⟩
  iapply Hk
  isplitl [H0]; · iexact H0
  isplitl [H1]; · iexact H1
  isplitl [H2]; · iexact H2
  unfold owns
  iexists _; isplitr
  swap; · iexact H3
  ipureintro
  exact View.read_writes_eq_canon _ _ _ (band_cover c i arg2 harg2 arg3 harg3 arg4 harg4 arg5 harg5 x0 x1 x2)

end Cert.KernelIdeal.Tile

end
-- ==== Proof.TileFrame.lean ====
/-
  The whole run of the pairwise program around its one grid of 8 × 8 tiles.

  Before the grid the host packs the five per-token integer arrays into a 1024 × 8 row array and an 8 × 1024 column
  array and narrows the weight table; after it, it reshapes the 1024 × 1024 × 128 result. None of these lines writes
  an argument array, so the arguments end as launched. At grid point `t` the body finds each input window's buffer at
  that window's block of its array and leaves the output window's buffer at the tile computed from those blocks; the
  pipeline then writes each tile back into the result array.
-/
import proofs.«430765_j18373870092380_3_alg».proof.Proof.Gen.KernelIdeal.Launch
import proofs.«430765_j18373870092380_3_alg».proof.Proof.Gen.KernelIdeal.Skeleton
import proofs.«430765_j18373870092380_3_alg».proof.Proof.Gen.KernelIdeal.Points
import proofs.«430765_j18373870092380_3_alg».proof.Proof.TileBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the grid -/

/-- Core `c`'s buffer contents when the grid is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the grid, the grid, the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the grid touches the grid's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the grid's arrays (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after it: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a run to the pipeline's post, for any proof data whose arrays are the entry contents: no argument array is one
    of the grid's arrays, so each ends at what the host line after the grid leaves, which is what was launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c)⟩) h

/-! ## The pipeline's proof data -/

/-- After the body at point `t` each input window's buffer holds its block and the output window's buffer the tile of
    those blocks; nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (tileOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
/-- The output window's buffer after point `t`: the tile of the point's three input blocks. -/
theorem after0_3 (c : Dev nD) (t : Fin cfg0.N) : (dats m 0 c).after 3 t = (tileOut c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the tile's triple applies; what is kept between
    points passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_tile c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with each of the grid's arrays at what the pipeline computes
    from the proof data and every other buffer as the host line after the grid leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its six argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Tile

end
-- ==== Proof.PairSpec.lean ====
/-
  Relative position encoding of token pairs, as one function of the six argument arrays.

  For a pair (i, j) of tokens the result row is a sum of rows of the weight table `W` (136 rows of 128 channels):
  one row for the clipped residue offset, one for the clipped token offset, the row 130 when the two tokens have
  the same entity, and one row for the clipped chain offset:

      out[0, i, j, ·] = W[res] + W[65 + tok] + [e_j = e_i] · W[130] + W[131 + ch]

  where, with `off = ¬(asym_j = asym_i)`,
      res = if off then clip(r_j − r_i + 32, 0, 64) else 64,
      tok = if (¬(r_j = r_i) ∧ off) then clip(t_j − t_i + 32, 0, 64) else 64,
      ch  = if off then clip(s_j − s_i + 2, 0, 4) else 4,
  all in wrapping 32-bit arithmetic, the clip by the signed order. Whatever the integers are, the clip puts
  `res` in [0, 64], `65 + tok` in [65, 129] and `131 + ch` in [131, 135]: four distinct rows of the table, which is
  why selecting them by a 0/1 vector of length 136 contracted against `W` is the same sum.
-/
import Idealize.ShloMosaic.PureOps.Ideal
import Idealize.ShloMosaic.Lib.ValueIdx

noncomputable section

open scoped BigOperators

namespace Cert.RelPos

open Idealize.ShloMosaic Idealize.ShloMosaic.ValueIdx

/-- A per-token integer array, the weight table, the result. -/
abbrev STok : Shape := ⟨2, ![1, 1024]⟩
abbrev STab : Shape := ⟨2, ![136, 128]⟩
abbrev SOut : Shape := ⟨4, ![1, 1024, 1024, 128]⟩

/-- Token `n`'s entry of a per-token array. -/
def tokAt (a : IVec STok 32) (n : Fin 1024) : BitVec 32 := a (ix2 (0 : Fin 1) n)

/-- The one-bit test "equal". -/
def sameBit (x y : BitVec 32) : BitVec 1 := IntOp.cmpi .eq x y

/-- The one-bit negation the kernel spells as an exclusive or with `true`. -/
def flipBit (b : BitVec 1) : BitVec 1 := IntOp.xori b 1#1

/-- `clip (x − y + shift, 0, hi)` in wrapping arithmetic, by the signed order. -/
def clipBin (hi shift x y : BitVec 32) : BitVec 32 :=
  IntOp.minsi hi (IntOp.maxsi 0#32 (IntOp.addi (IntOp.subi x y) shift))

/-- The clipped offset where the gate is set, the top bin `hi` elsewhere. -/
def gated (g : BitVec 1) (hi shift x y : BitVec 32) : BitVec 32 := Scalar.select g (clipBin hi shift x y) hi

/-- The residue bin of the pair (second token's entries first, as both programs subtract). -/
def resBin (aj ai rj ri : BitVec 32) : BitVec 32 := gated (flipBit (sameBit aj ai)) 64#32 32#32 rj ri
/-- The token bin. -/
def tokBin (aj ai rj ri tj ti : BitVec 32) : BitVec 32 :=
  gated (IntOp.andi (flipBit (sameBit rj ri)) (flipBit (sameBit aj ai))) 64#32 32#32 tj ti
/-- The chain bin. -/
def chBin (aj ai sj si : BitVec 32) : BitVec 32 := gated (flipBit (sameBit aj ai)) 4#32 2#32 sj si

/-- The table row a 32-bit index selects: read signed and clamped to the table, as a gather reads it. -/
def row (b : BitVec 32) : Fin 136 := ⟨min b.toInt.toNat 135, by omega⟩

/-- The three rows of a pair. -/
def resRow (aj ai rj ri : BitVec 32) : BitVec 32 := resBin aj ai rj ri
def tokRow (aj ai rj ri tj ti : BitVec 32) : BitVec 32 := IntOp.addi 65#32 (tokBin aj ai rj ri tj ti)
def chRow (aj ai sj si : BitVec 32) : BitVec 32 := IntOp.addi 131#32 (chBin aj ai sj si)

/-- One channel of a pair's row: the four table rows added in the reference's order. -/
def pairVal (W : FVec Ideal STab .f32) (aj ai rj ri ej ei tj ti sj si : BitVec 32) (ch : Fin 128) : EReal :=
  ((W (ix2 (row (resRow aj ai rj ri)) ch) + W (ix2 (row (tokRow aj ai rj ri tj ti)) ch))
    + (FloatOps.uitofp (F := Ideal) .f32 (sameBit ej ei) : EReal) * W (ix2 (130 : Fin 136) ch))
    + W (ix2 (row (chRow aj ai sj si)) ch)

/-- THE RESULT as one function of the argument arrays. -/
def pairSum (a r e t s : IVec STok 32) (W : FVec Ideal STab .f32) : FVec Ideal SOut .f32 := fun y =>
  pairVal W (tokAt a (y 2)) (tokAt a (y 1)) (tokAt r (y 2)) (tokAt r (y 1)) (tokAt e (y 2)) (tokAt e (y 1))
    (tokAt t (y 2)) (tokAt t (y 1)) (tokAt s (y 2)) (tokAt s (y 1)) (y 3)

/-! ## Where the bins lie -/

/-- A word whose signed reading is not negative reads the same unsigned. -/
private theorem toInt_nonneg_eq (b : BitVec 32) (h0 : 0 ≤ b.toInt) : b.toInt = (b.toNat : Int) := by
  have hb := b.isLt
  rw [BitVec.toInt_eq_toNat_cond] at h0 ⊢
  split_ifs at h0 ⊢ with h
  · rfl
  · omega

/-- Adding a small constant `c` to a word in `[0, hi]` does not wrap: the sum lies in `[c, c + hi]`. -/
private theorem add_range (a v : BitVec 32) (c hi : Nat) (ha : a.toNat = c) (hc : c + hi < 2147483648)
    (h0 : 0 ≤ v.toInt) (h1 : v.toInt ≤ hi) :
    (c : Int) ≤ (a + v).toInt ∧ (a + v).toInt ≤ (c : Int) + hi := by
  have hI := toInt_nonneg_eq v h0
  have hs : (a + v).toNat = c + v.toNat := by
    rw [BitVec.toNat_add, ha]
    omega
  rw [BitVec.toInt_eq_toNat_cond, hs]
  split_ifs <;> omega

/-- A clip into `[0, hi]` lands there, whatever is clipped. -/
theorem clipBin_range (hi shift x y : BitVec 32) (hhi : 0 ≤ hi.toInt) :
    0 ≤ (clipBin hi shift x y).toInt ∧ (clipBin hi shift x y).toInt ≤ hi.toInt := by
  unfold clipBin IntOp.minsi IntOp.maxsi IntOp.addi IntOp.subi
  generalize x - y + shift = v
  simp only [BitVec.slt, decide_eq_true_eq]
  split_ifs with h1 h2 h3
  · simp
    omega
  · simp
    omega
  · simp
    omega
  · simp at *
    omega

theorem gated_range (g : BitVec 1) (hi shift x y : BitVec 32) (hhi : 0 ≤ hi.toInt) :
    0 ≤ (gated g hi shift x y).toInt ∧ (gated g hi shift x y).toInt ≤ hi.toInt := by
  unfold gated Scalar.select
  split_ifs
  · exact clipBin_range hi shift x y hhi
  · exact ⟨hhi, le_refl _⟩

/-- The residue row is one of the rows 0 … 64. -/
theorem resRow_range (aj ai rj ri : BitVec 32) :
    0 ≤ (resRow aj ai rj ri).toInt ∧ (resRow aj ai rj ri).toInt ≤ 64 := by
  unfold resRow resBin
  have h64 : (64#32 : BitVec 32).toInt = 64 := by decide
  have h := gated_range (flipBit (sameBit aj ai)) 64#32 32#32 rj ri (by rw [h64]; decide)
  rw [h64] at h
  exact h
/-- The token row is one of the rows 65 … 129. -/
theorem tokRow_range (aj ai rj ri tj ti : BitVec 32) :
    65 ≤ (tokRow aj ai rj ri tj ti).toInt ∧ (tokRow aj ai rj ri tj ti).toInt ≤ 129 := by
  unfold tokRow tokBin IntOp.addi
  have h64 : (64#32 : BitVec 32).toInt = 64 := by decide
  have h := gated_range (IntOp.andi (flipBit (sameBit rj ri)) (flipBit (sameBit aj ai))) 64#32 32#32 tj ti
    (by rw [h64]; decide)
  rw [h64] at h
  have := add_range 65#32 _ 65 64 (by decide) (by decide) h.1 h.2
  omega
/-- The chain row is one of the rows 131 … 135. -/
theorem chRow_range (aj ai sj si : BitVec 32) :
    131 ≤ (chRow aj ai sj si).toInt ∧ (chRow aj ai sj si).toInt ≤ 135 := by
  unfold chRow chBin IntOp.addi
  have h4 : (4#32 : BitVec 32).toInt = 4 := by decide
  have h := gated_range (flipBit (sameBit aj ai)) 4#32 2#32 sj si (by rw [h4]; decide)
  rw [h4] at h
  have := add_range 131#32 _ 131 4 (by decide) (by decide) h.1 h.2
  omega

/-- The one-bit word of a truth value is `1` exactly when the value is true. -/
private theorem ofBool_eq_one_iff (c : Bool) : BitVec.ofBool c = 1#1 ↔ c = true := by
  cases c <;> decide

/-- A number below 136, as a 32-bit word, is the word `b` exactly when it is the unsigned reading of `b`. -/
private theorem ofNat_eq_iff (k : Nat) (hk : k < 136) (b : BitVec 32) :
    BitVec.ofNat 32 k = b ↔ k = b.toNat := by
  constructor
  · intro h
    rw [← h, BitVec.toNat_ofNat]
    omega
  · intro h
    apply BitVec.eq_of_toNat_eq
    rw [BitVec.toNat_ofNat]
    omega

/-- A column number is the word `b` exactly when it is the row `b` selects, for `b` inside the table. -/
theorem cmpi_eq_ofNat_iff (k : Fin 136) (b : BitVec 32) (h0 : 0 ≤ b.toInt) (h1 : b.toInt ≤ 135) :
    IntOp.cmpi .eq (BitVec.ofNat 32 k.val) b = 1#1 ↔ k = row b := by
  have hI := toInt_nonneg_eq b h0
  unfold IntOp.cmpi row
  rw [ofBool_eq_one_iff, Fin.ext_iff]
  simp only [beq_iff_eq]
  rw [ofNat_eq_iff k.val k.isLt b]
  omega

/-- No column number is the word `−1`. -/
theorem cmpi_eq_ofNat_neg_one (k : Fin 136) : IntOp.cmpi .eq (BitVec.ofNat 32 k.val) 4294967295#32 ≠ 1#1 := by
  unfold IntOp.cmpi
  rw [Ne, ofBool_eq_one_iff]
  simp only [beq_iff_eq]
  rw [ofNat_eq_iff k.val k.isLt]
  have := k.isLt
  simp
  omega

/-- The word 130 selects row 130. -/
theorem row_130 : row 130#32 = (130 : Fin 136) := by
  decide

/-! ## Selecting four distinct rows by a 0/1 vector -/

/-- A 0/1 vector with ones exactly at the rows `p`, `q`, `u` and (when `g` holds) 130, contracted against a column of
    the table, is the sum of those rows: the rows lie in the disjoint ranges [0, 64], [65, 129], {130}, [131, 135]. -/
theorem sum_select_rows (w : Fin 136 → EReal) (p q u : Fin 136) (g : Prop) [Decidable g]
    (hp : p.val ≤ 64) (hq : 65 ≤ q.val ∧ q.val ≤ 129) (hu : 131 ≤ u.val)
    (f : Fin 136 → EReal)
    (hf : ∀ k, f k = if (k = p ∨ k = q) ∨ ((g ∧ k = (130 : Fin 136)) ∨ k = u) then (1 : EReal) else 0) :
    ∑ k : Fin 136, f k * w k = ((w p + w q) + (if g then (1 : EReal) else 0) * w 130) + w u := by
  -- the four rows are pairwise distinct, lying in disjoint ranges
  have h130 : ((130 : Fin 136) : Nat) = 130 := rfl
  have hpq : p ≠ q := fun h => by have := congrArg Fin.val h; omega
  have hpc : p ≠ (130 : Fin 136) := fun h => by have := congrArg Fin.val h; omega
  have hpu : p ≠ u := fun h => by have := congrArg Fin.val h; omega
  have hqc : q ≠ (130 : Fin 136) := fun h => by have := congrArg Fin.val h; omega
  have hqu : q ≠ u := fun h => by have := congrArg Fin.val h; omega
  have hcu : (130 : Fin 136) ≠ u := fun h => by have := congrArg Fin.val h; omega
  by_cases hg : g
  · -- the indicator of the four rows is the sum of the four single-row indicators
    have hpt : ∀ k, f k * w k =
        (((if k = p then w k else 0) + (if k = q then w k else 0))
          + (if k = (130 : Fin 136) then w k else 0)) + (if k = u then w k else 0) := by
      intro k
      rw [hf k]
      by_cases h1 : k = p
      · subst h1
        simp [hpq, hpc, hpu]
      · by_cases h2 : k = q
        · subst h2
          simp [h1, hqc, hqu]
        · by_cases h3 : k = (130 : Fin 136)
          · subst h3
            simp [h1, h2, hcu, hg]
          · by_cases h4 : k = u
            · subst h4
              simp [h1, h2, h3]
            · simp [h1, h2, h3, h4]
    simp only [hpt, Finset.sum_add_distrib, Finset.sum_ite_eq', Finset.mem_univ, if_true, if_pos hg, one_mul]
  · -- without the entity row: the indicator of three rows, and the middle term of the right side is zero
    have hpt : ∀ k, f k * w k =
        ((if k = p then w k else 0) + (if k = q then w k else 0)) + (if k = u then w k else 0) := by
      intro k
      rw [hf k]
      by_cases h1 : k = p
      · subst h1
        simp [hpq, hpu]
      · by_cases h2 : k = q
        · subst h2
          simp [h1, hqu]
        · by_cases h4 : k = u
          · subst h4
            simp [h1, h2]
          · simp [h1, h2, h4, hg]
    simp only [hpt, Finset.sum_add_distrib, Finset.sum_ite_eq', Finset.mem_univ, if_true, if_neg hg, zero_mul,
      add_zero]

end Cert.RelPos

end
-- ==== Proof.TileValue.lean ====
/-
  The output tile read at one entry.

  Entry (p, q, ·) of the tile belongs to row token p and column token q. The body builds, for that pair, a vector of
  136 zeros and ones with ones exactly at the pair's residue row, its token row shifted by 65, row 130 when the
  entities agree, and its chain row shifted by 131, and multiplies it into the weight table: channel `ch` of the entry
  is the sum over the 136 rows of that 0/1 entry times the table's entry, which is the sum of the selected rows.
-/
import proofs.«430765_j18373870092380_3_alg».proof.Proof.Gen.KernelIdeal.Launch
import proofs.«430765_j18373870092380_3_alg».proof.Proof.Gen.KernelIdeal.Skeleton
import proofs.«430765_j18373870092380_3_alg».proof.Proof.Gen.KernelIdeal.Points
import proofs.«430765_j18373870092380_3_alg».proof.Proof.TileBody
import proofs.«430765_j18373870092380_3_alg».proof.Proof.PairSpec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## Layout operations of the body read at one index -/

/-- Field `f` of the column block, spread over the 32 rows of a band, read at (r, q): the column block at (f, q). -/
private theorem col_read (X1 : IVec S8x128 32) (f : Nat) (hf : f < 8) (hs : S8x128.Slices ![f, 0] S1x128)
    (hb : S1x128.Broadcasts S32x128) (r : Fin 32) (q : Fin 128) :
    broadcastTo S32x128 (extractStridedSlice S1x128 ![f, 0] X1 hs) hb (ix2 r q) = X1 (ix2 ⟨f, hf⟩ q) := by
  refine (broadcastTo_apply _ hb (ix2 r q) (ix2 (0 : Fin 1) q) (fun a => match a with
    | ⟨0, _⟩ => by show (0 : Nat) = if (1 : Nat) = 1 then 0 else r.val; rfl
    | ⟨1, _⟩ => by show q.val = if (128 : Nat) = 1 then 0 else q.val; rfl)).trans ?_
  exact extractStridedSlice_apply _ X1 hs (ix2 (0 : Fin 1) q) (ix2 ⟨f, hf⟩ q) (fun a => match a with
    | ⟨0, _⟩ => by show f = f + 0; omega
    | ⟨1, _⟩ => by show q.val = 0 + q.val; omega)

/-- Field `f` of rows o … o+31 of the row block, spread over the 128 lanes, read at (r, q): the row block at (o + r, f). -/
private theorem row_read (X0 : IVec S128x8 32) (o f : Nat) (hf : f < 8) (h1 : S128x8.Slices ![o, 0] S32x8)
    (h2 : S32x8.Slices ![0, f] S32x1) (hb : S32x1.Broadcasts S32x128) (r : Fin 32) (q : Fin 128)
    (P : Fin 128) (hP : P.val = o + r.val) :
    broadcastTo S32x128 (extractStridedSlice S32x1 ![0, f] (extractStridedSlice S32x8 ![o, 0] X0 h1) h2) hb (ix2 r q)
      = X0 (ix2 P ⟨f, hf⟩) := by
  refine (broadcastTo_apply _ hb (ix2 r q) (ix2 r (0 : Fin 1)) (fun a => match a with
    | ⟨0, _⟩ => by show r.val = if (32 : Nat) = 1 then 0 else r.val; rfl
    | ⟨1, _⟩ => by show (0 : Nat) = if (1 : Nat) = 1 then 0 else q.val; rfl)).trans ?_
  refine (extractStridedSlice_apply _ _ h2 (ix2 r (0 : Fin 1)) (ix2 r ⟨f, hf⟩) (fun a => match a with
    | ⟨0, _⟩ => by show r.val = 0 + r.val; omega
    | ⟨1, _⟩ => by show f = f + 0; omega)).trans ?_
  exact extractStridedSlice_apply _ X0 h1 (ix2 r ⟨f, hf⟩) (ix2 P ⟨f, hf⟩) (fun a => match a with
    | ⟨0, _⟩ => by show P.val = o + r.val; exact hP
    | ⟨1, _⟩ => by show f = 0 + f; omega)

/-- A per-pair value spread along the 136 bins, read at (r, q, c): the value at (r, q). -/
private theorem lift_read {α : Type} (v : S32x128.Idx → α) (hc : S32x128.ShapeCasts S32x128x1)
    (hb : S32x128x1.Broadcasts S32x128x136) (r : Fin 32) (q : Fin 128) (c : Fin 136) :
    broadcastTo S32x128x136 (shapeCast S32x128x1 v hc) hb (ix3 r q c) = v (ix2 r q) := by
  refine (broadcastTo_apply _ hb (ix3 r q c) (ix3 r q (0 : Fin 1)) (fun a => match a with
    | ⟨0, _⟩ => by show r.val = if (32 : Nat) = 1 then 0 else r.val; rfl
    | ⟨1, _⟩ => by show q.val = if (128 : Nat) = 1 then 0 else q.val; rfl
    | ⟨2, _⟩ => by show (0 : Nat) = if (1 : Nat) = 1 then 0 else c.val; rfl)).trans ?_
  exact shapeCast_apply v hc (ix3 r q (0 : Fin 1)) (ix2 r q)
    (by rw [Shape.rowMajor_val_two, Shape.rowMajor_val_three]
        show r.val * 128 + q.val = (r.val * 128 + q.val) * 1 + 0
        omega)

/-- The bin number along the last axis, read at (r, q, c): the word of c. -/
private theorem iota_read (h : S32x128x136.Iotas .tc 32 [2]) (r : Fin 32) (q : Fin 128) (c : Fin 136) :
    iota .tc S32x128x136 32 [2] h (ix3 r q c) = BitVec.ofNat 32 c.val := by
  rw [iota_single_apply]

/-- Row 128 r + q of the flattened band. -/
private def flatRow (r : Fin 32) (q : Fin 128) : Fin 4096 := ⟨128 * r.val + q.val, by have := r.isLt; have := q.isLt; omega⟩

/-- The band's result folded back to three axes, read at (r, q, ch): the flat result at (128 r + q, ch). -/
private theorem unflat_read {α : Type} (M : S4096x128.Idx → α) (hc : S4096x128.ShapeCasts S32x128x128)
    (r : Fin 32) (q ch : Fin 128) :
    shapeCast S32x128x128 M hc (ix3 r q ch) = M (ix2 (flatRow r q) ch) :=
  shapeCast_apply M hc (ix3 r q ch) (ix2 (flatRow r q) ch)
    (by rw [Shape.rowMajor_val_two, Shape.rowMajor_val_three]
        show (128 * r.val + q.val) * 128 + ch.val = (r.val * 128 + q.val) * 128 + ch.val
        omega)

/-- The 0/1 matrix flattened to two axes, read at (128 r + q, c): the three-axis one at (r, q, c). -/
private theorem flat_read {α : Type} (V : S32x128x136.Idx → α) (hc : S32x128x136.ShapeCasts S4096x136)
    (r : Fin 32) (q : Fin 128) (c : Fin 136) :
    shapeCast S4096x136 V hc (ix2 (flatRow r q) c) = V (ix3 r q c) :=
  shapeCast_apply V hc (ix2 (flatRow r q) c) (ix3 r q c)
    (by rw [Shape.rowMajor_val_two, Shape.rowMajor_val_three]
        show (r.val * 128 + q.val) * 136 + c.val = (128 * r.val + q.val) * 136 + c.val
        omega)

/-! ## The band's matrix product read at one entry -/

/-- Entry (a, b) of the product into a zero accumulator is the sum over the 136 rows of the table. -/
private theorem matmul_read (Lm : FVec Ideal S4096x136 .bf16) (X2 : FVec Ideal S136x128 .bf16) (a : Fin 4096) (b : Fin 128) :
    matmul dot_S4096x136_S136x128_S4096x128_1_0_0_1_n_n none Lm X2 (constant S4096x128 .f32 0x00000000#32) (ix2 a b)
      = ∑ c : Fin 136, Lm (ix2 a c) * X2 (ix2 c b) := by
  show FloatOps.matmul dot_S4096x136_S136x128_S4096x128_1_0_0_1_n_n none Lm X2 (constant S4096x128 .f32 0x00000000#32) (ix2 a b) = _
  rw [Ideal.matmul_constant_zero_apply, ← Equiv.sum_comp (contrEquiv1 dot_S4096x136_S136x128_S4096x128_1_0_0_1_n_n 136 rfl rfl).symm]
  refine Finset.sum_congr rfl fun c _ => ?_
  have c2 := contrEquiv1_symm_val dot_S4096x136_S136x128_S4096x128_1_0_0_1_n_n 136 rfl rfl c
  have l2 : (dot_S4096x136_S136x128_S4096x128_1_0_0_1_n_n).lhsIdx (ix2 a b) ((contrEquiv1 dot_S4096x136_S136x128_S4096x128_1_0_0_1_n_n 136 rfl rfl).symm c) = ix2 a c := by
    funext ax; apply Fin.ext
    match ax with
    | ⟨0, _⟩ => simp [DotDims.lhsIdx, dot_S4096x136_S136x128_S4096x128_1_0_0_1_n_n]; rfl
    | ⟨1, _⟩ => simp [DotDims.lhsIdx, dot_S4096x136_S136x128_S4096x128_1_0_0_1_n_n]; exact c2
  have r2 : (dot_S4096x136_S136x128_S4096x128_1_0_0_1_n_n).rhsIdx (ix2 a b) ((contrEquiv1 dot_S4096x136_S136x128_S4096x128_1_0_0_1_n_n 136 rfl rfl).symm c) = ix2 c b := by
    funext ax; apply Fin.ext
    match ax with
    | ⟨0, _⟩ => simp [DotDims.rhsIdx, dot_S4096x136_S136x128_S4096x128_1_0_0_1_n_n]; exact c2
    | ⟨1, _⟩ => simp [DotDims.rhsIdx, dot_S4096x136_S136x128_S4096x128_1_0_0_1_n_n]; rfl
  rw [l2, r2]

/-! ## One pair's arithmetic -/

/-- The 0/1 entry of bin `K`: one when `K` is one of the four selected words. -/
private def hot (res tokR ent chR K : BitVec 32) : BitVec 1 :=
  IntOp.ori (IntOp.ori (IntOp.cmpi .eq K res) (IntOp.cmpi .eq K tokR))
    (IntOp.ori (IntOp.cmpi .eq K ent) (IntOp.cmpi .eq K chR))

/-- An inclusive or of two bits is set exactly when one of them is. -/
private theorem ori_eq_one (a b : BitVec 1) : IntOp.ori a b = 1#1 ↔ a = 1#1 ∨ b = 1#1 := by
  rcases BitVec.eq_zero_or_eq_one a with rfl | rfl <;> rcases BitVec.eq_zero_or_eq_one b with rfl | rfl <;> decide

/-- A bit widened to a word and converted, read signed, is the number 1 or 0. -/
private theorem sitofp_bit (b : BitVec 1) :
    (FloatOps.sitofp (F := Ideal) .f32 (b.setWidth 32) : EReal) = if b = 1#1 then 1 else 0 := by
  rcases BitVec.eq_zero_or_eq_one b with rfl | rfl
  · show (((((0#1 : BitVec 1).setWidth 32).toInt : ℤ) : ℝ) : EReal) = _
    rw [show ((0#1 : BitVec 1).setWidth 32).toInt = 0 from by decide]
    simp
  · show (((((1#1 : BitVec 1).setWidth 32).toInt : ℤ) : ℝ) : EReal) = _
    rw [show ((1#1 : BitVec 1).setWidth 32).toInt = 1 from by decide]
    simp

/-- A bit converted, read unsigned, is the number 1 or 0. -/
private theorem uitofp_bit (b : BitVec 1) :
    (FloatOps.uitofp (F := Ideal) .f32 b : EReal) = if b = 1#1 then 1 else 0 := by
  rcases BitVec.eq_zero_or_eq_one b with rfl | rfl
  · show ((((0#1 : BitVec 1).toNat : ℕ) : ℝ) : EReal) = _
    rw [show (0#1 : BitVec 1).toNat = 0 from by decide]
    simp
  · show ((((1#1 : BitVec 1).toNat : ℕ) : ℝ) : EReal) = _
    rw [show (1#1 : BitVec 1).toNat = 1 from by decide]
    simp

/-- The 136 zeros and ones of a pair against a column of the table sum to the pair's four rows. -/
private theorem pair_sum (W : FVec Ideal S136x128 .bf16) (aj ai rj ri ej ei tj ti sj si : BitVec 32) (ch : Fin 128) :
    ∑ k : Fin 136, (FloatOps.sitofp (F := Ideal) .f32
        ((hot (Cert.RelPos.resRow aj ai rj ri) (Cert.RelPos.tokRow aj ai rj ri tj ti)
          (Scalar.select (IntOp.cmpi .eq ej ei) 130#32 4294967295#32) (Cert.RelPos.chRow aj ai sj si)
          (BitVec.ofNat 32 k.val)).setWidth 32) : EReal) * W (ix2 k ch)
      = Cert.RelPos.pairVal W aj ai rj ri ej ei tj ti sj si ch := by
  obtain ⟨hr0, hr1⟩ := Cert.RelPos.resRow_range aj ai rj ri
  obtain ⟨ht0, ht1⟩ := Cert.RelPos.tokRow_range aj ai rj ri tj ti
  obtain ⟨hc0, hc1⟩ := Cert.RelPos.chRow_range aj ai sj si
  have hp : (Cert.RelPos.row (Cert.RelPos.resRow aj ai rj ri)).val ≤ 64 := by
    show min (Cert.RelPos.resRow aj ai rj ri).toInt.toNat 135 ≤ 64
    omega
  have hq : 65 ≤ (Cert.RelPos.row (Cert.RelPos.tokRow aj ai rj ri tj ti)).val
      ∧ (Cert.RelPos.row (Cert.RelPos.tokRow aj ai rj ri tj ti)).val ≤ 129 := by
    show 65 ≤ min (Cert.RelPos.tokRow aj ai rj ri tj ti).toInt.toNat 135
      ∧ min (Cert.RelPos.tokRow aj ai rj ri tj ti).toInt.toNat 135 ≤ 129
    omega
  have hu : 131 ≤ (Cert.RelPos.row (Cert.RelPos.chRow aj ai sj si)).val := by
    show 131 ≤ min (Cert.RelPos.chRow aj ai sj si).toInt.toNat 135
    omega
  unfold Cert.RelPos.pairVal
  rw [uitofp_bit]
  refine Cert.RelPos.sum_select_rows (fun k => W (ix2 k ch)) _ _ _ (Cert.RelPos.sameBit ej ei = 1#1) hp hq hu
    (fun k => (FloatOps.sitofp (F := Ideal) .f32
        ((hot (Cert.RelPos.resRow aj ai rj ri) (Cert.RelPos.tokRow aj ai rj ri tj ti)
          (Scalar.select (IntOp.cmpi .eq ej ei) 130#32 4294967295#32) (Cert.RelPos.chRow aj ai sj si)
          (BitVec.ofNat 32 k.val)).setWidth 32) : EReal)) (fun k => ?_)
  show (FloatOps.sitofp (F := Ideal) .f32 ((hot _ _ _ _ _).setWidth 32) : EReal) = _
  rw [sitofp_bit]
  refine if_congr ?_ rfl rfl
  unfold hot
  rw [ori_eq_one, ori_eq_one, ori_eq_one, Cert.RelPos.cmpi_eq_ofNat_iff k _ hr0 (by omega),
    Cert.RelPos.cmpi_eq_ofNat_iff k _ (by omega) (by omega), Cert.RelPos.cmpi_eq_ofNat_iff k _ (by omega) hc1]
  have hent : IntOp.cmpi .eq (BitVec.ofNat 32 k.val) (Scalar.select (IntOp.cmpi .eq ej ei) 130#32 4294967295#32) = 1#1
      ↔ (Cert.RelPos.sameBit ej ei = 1#1 ∧ k = (130 : Fin 136)) := by
    by_cases hg : IntOp.cmpi .eq ej ei = 1#1
    · rw [show Scalar.select (IntOp.cmpi .eq ej ei) 130#32 4294967295#32 = 130#32 from if_pos hg,
        Cert.RelPos.cmpi_eq_ofNat_iff k 130#32 (by decide) (by decide), Cert.RelPos.row_130]
      exact ⟨fun h => ⟨hg, h⟩, fun h => h.2⟩
    · rw [show Scalar.select (IntOp.cmpi .eq ej ei) 130#32 4294967295#32 = 4294967295#32 from if_neg hg]
      exact ⟨fun h => absurd h (Cert.RelPos.cmpi_eq_ofNat_neg_one k), fun h => absurd h.1 hg⟩
  rw [hent]

/-! ## One band as one term, and its entries -/

section VectorOpsAtIndex
variable {s : Shape} {w : Nat}
private theorem addi_at (x y : IVec s w) (i : s.Idx) : addi x y i = IntOp.addi (x i) (y i) := rfl
private theorem subi_at (x y : IVec s w) (i : s.Idx) : subi x y i = IntOp.subi (x i) (y i) := rfl
private theorem andi_at (x y : IVec s w) (i : s.Idx) : andi x y i = IntOp.andi (x i) (y i) := rfl
private theorem ori_at (x y : IVec s w) (i : s.Idx) : ori x y i = IntOp.ori (x i) (y i) := rfl
private theorem xori_at (x y : IVec s w) (i : s.Idx) : xori x y i = IntOp.xori (x i) (y i) := rfl
private theorem maxsi_at (x y : IVec s w) (i : s.Idx) : maxsi x y i = IntOp.maxsi (x i) (y i) := rfl
private theorem minsi_at (x y : IVec s w) (i : s.Idx) : minsi x y i = IntOp.minsi (x i) (y i) := rfl
private theorem cmpi_at (p : CmpIPredicate) (x y : IVec s w) (i : s.Idx) : cmpi p x y i = IntOp.cmpi p (x i) (y i) := rfl
private theorem constantI_at (b : BitVec w) (i : s.Idx) : constantI s w b i = b := rfl
end VectorOpsAtIndex

/-- The band of rows o … o+31 as one term over the row block, the column block and the table: the four selected
    words per pair, the 0/1 matrix of the bins equal to one of them, its product with the table. -/
private def bandVal (o : Nat) (h1 : S128x8.Slices ![o, 0] S32x8) (X0 : IVec S128x8 32) (X1 : IVec S8x128 32)
    (X2 : FVec Ideal S136x128 .bf16) : FVec Ideal S32x128x128 .f32 :=
  shapeCast S32x128x128
    (matmul dot_S4096x136_S136x128_S4096x128_1_0_0_1_n_n none
      (shapeCast S4096x136
        (truncf .bf16
          (sitofp .f32
            (extui 32
              (ori
                (ori
                  (cmpi .eq (iota .tc S32x128x136 32 [2] iota_S32x128x136_d2_w32)
                    (broadcastTo S32x128x136
                      (shapeCast S32x128x1
                        (select
                          (xori
                            (cmpi .eq
                              (broadcastTo S32x128 (extractStridedSlice S1x128 ![0, 0] X1 slices_S8x128_o0_0_S1x128) broadcasts_S1x128_S32x128)
                              (broadcastTo S32x128 (extractStridedSlice S32x1 ![0, 0] (extractStridedSlice S32x8 ![o, 0] X0 h1) slices_S32x8_o0_0_S32x1) broadcasts_S32x1_S32x128))
                            (constantI S32x128 1 1#1))
                          (minsi (broadcast S32x128 64#32)
                            (maxsi (broadcast S32x128 0#32)
                              (addi
                                (subi
                                  (broadcastTo S32x128 (extractStridedSlice S1x128 ![1, 0] X1 slices_S8x128_o1_0_S1x128) broadcasts_S1x128_S32x128)
                                  (broadcastTo S32x128 (extractStridedSlice S32x1 ![0, 1] (extractStridedSlice S32x8 ![o, 0] X0 h1) slices_S32x8_o0_1_S32x1) broadcasts_S32x1_S32x128))
                                (broadcast S32x128 32#32))))
                          (broadcast S32x128 64#32))
                        shapeCasts_S32x128_S32x128x1)
                      broadcasts_S32x128x1_S32x128x136))
                  (cmpi .eq (iota .tc S32x128x136 32 [2] iota_S32x128x136_d2_w32)
                    (broadcastTo S32x128x136
                      (shapeCast S32x128x1
                        (addi (broadcast S32x128 65#32)
                          (select
                            (andi
                              (xori
                                (cmpi .eq
                                  (broadcastTo S32x128 (extractStridedSlice S1x128 ![1, 0] X1 slices_S8x128_o1_0_S1x128) broadcasts_S1x128_S32x128)
                                  (broadcastTo S32x128 (extractStridedSlice S32x1 ![0, 1] (extractStridedSlice S32x8 ![o, 0] X0 h1) slices_S32x8_o0_1_S32x1) broadcasts_S32x1_S32x128))
                                (constantI S32x128 1 1#1))
                              (xori
                                (cmpi .eq
                                  (broadcastTo S32x128 (extractStridedSlice S1x128 ![0, 0] X1 slices_S8x128_o0_0_S1x128) broadcasts_S1x128_S32x128)
                                  (broadcastTo S32x128 (extractStridedSlice S32x1 ![0, 0] (extractStridedSlice S32x8 ![o, 0] X0 h1) slices_S32x8_o0_0_S32x1) broadcasts_S32x1_S32x128))
                                (constantI S32x128 1 1#1)))
                            (minsi (broadcast S32x128 64#32)
                              (maxsi (broadcast S32x128 0#32)
                                (addi
                                  (subi
                                    (broadcastTo S32x128 (extractStridedSlice S1x128 ![3, 0] X1 slices_S8x128_o3_0_S1x128) broadcasts_S1x128_S32x128)
                                    (broadcastTo S32x128 (extractStridedSlice S32x1 ![0, 3] (extractStridedSlice S32x8 ![o, 0] X0 h1) slices_S32x8_o0_3_S32x1) broadcasts_S32x1_S32x128))
                                  (broadcast S32x128 32#32))))
                            (broadcast S32x128 64#32)))
                        shapeCasts_S32x128_S32x128x1)
                      broadcasts_S32x128x1_S32x128x136)))
                (ori
                  (cmpi .eq (iota .tc S32x128x136 32 [2] iota_S32x128x136_d2_w32)
                    (broadcastTo S32x128x136
                      (shapeCast S32x128x1
                        (select
                          (cmpi .eq
                            (broadcastTo S32x128 (extractStridedSlice S1x128 ![2, 0] X1 slices_S8x128_o2_0_S1x128) broadcasts_S1x128_S32x128)
                            (broadcastTo S32x128 (extractStridedSlice S32x1 ![0, 2] (extractStridedSlice S32x8 ![o, 0] X0 h1) slices_S32x8_o0_2_S32x1) broadcasts_S32x1_S32x128))
                          (broadcast S32x128 130#32) (broadcast S32x128 4294967295#32))
                        shapeCasts_S32x128_S32x128x1)
                      broadcasts_S32x128x1_S32x128x136))
                  (cmpi .eq (iota .tc S32x128x136 32 [2] iota_S32x128x136_d2_w32)
                    (broadcastTo S32x128x136
                      (shapeCast S32x128x1
                        (addi (broadcast S32x128 131#32)
                          (select
                            (xori
                              (cmpi .eq
                                (broadcastTo S32x128 (extractStridedSlice S1x128 ![0, 0] X1 slices_S8x128_o0_0_S1x128) broadcasts_S1x128_S32x128)
                                (broadcastTo S32x128 (extractStridedSlice S32x1 ![0, 0] (extractStridedSlice S32x8 ![o, 0] X0 h1) slices_S32x8_o0_0_S32x1) broadcasts_S32x1_S32x128))
                              (constantI S32x128 1 1#1))
                            (minsi (broadcast S32x128 4#32)
                              (maxsi (broadcast S32x128 0#32)
                                (addi
                                  (subi
                                    (broadcastTo S32x128 (extractStridedSlice S1x128 ![4, 0] X1 slices_S8x128_o4_0_S1x128) broadcasts_S1x128_S32x128)
                                    (broadcastTo S32x128 (extractStridedSlice S32x1 ![0, 4] (extractStridedSlice S32x8 ![o, 0] X0 h1) slices_S32x8_o0_4_S32x1) broadcasts_S32x1_S32x128))
                                  (broadcast S32x128 2#32))))
                            (broadcast S32x128 4#32)))
                        shapeCasts_S32x128_S32x128x1)
                      broadcasts_S32x128x1_S32x128x136))))
              natLt_1_32))
          bitsLt_bf16_f32)
        shapeCasts_S32x128x136_S4096x136)
      X2 (constant S4096x128 .f32 0x00000000#32))
    shapeCasts_S4096x128_S32x128x128

/-- Entry (r, q, ch) of the band of rows o … o+31 is channel `ch` of the row sum of the pair (row token o + r, column
    token q). -/
private theorem bandVal_apply (o : Nat) (h1 : S128x8.Slices ![o, 0] S32x8) (X0 : IVec S128x8 32) (X1 : IVec S8x128 32)
    (X2 : FVec Ideal S136x128 .bf16) (r : Fin 32) (q ch : Fin 128) (P : Fin 128) (hP : P.val = o + r.val) :
    bandVal o h1 X0 X1 X2 (ix3 r q ch)
      = Cert.RelPos.pairVal X2
          (X1 (ix2 (0 : Fin 8) q)) (X0 (ix2 P (0 : Fin 8))) (X1 (ix2 (1 : Fin 8) q)) (X0 (ix2 P (1 : Fin 8)))
          (X1 (ix2 (2 : Fin 8) q)) (X0 (ix2 P (2 : Fin 8))) (X1 (ix2 (3 : Fin 8) q)) (X0 (ix2 P (3 : Fin 8)))
          (X1 (ix2 (4 : Fin 8) q)) (X0 (ix2 P (4 : Fin 8))) ch := by
  have c0 := col_read X1 0 (by decide) slices_S8x128_o0_0_S1x128 broadcasts_S1x128_S32x128 r q
  have c1 := col_read X1 1 (by decide) slices_S8x128_o1_0_S1x128 broadcasts_S1x128_S32x128 r q
  have c2 := col_read X1 2 (by decide) slices_S8x128_o2_0_S1x128 broadcasts_S1x128_S32x128 r q
  have c3 := col_read X1 3 (by decide) slices_S8x128_o3_0_S1x128 broadcasts_S1x128_S32x128 r q
  have c4 := col_read X1 4 (by decide) slices_S8x128_o4_0_S1x128 broadcasts_S1x128_S32x128 r q
  have r0 := row_read X0 o 0 (by decide) h1 slices_S32x8_o0_0_S32x1 broadcasts_S32x1_S32x128 r q P hP
  have r1 := row_read X0 o 1 (by decide) h1 slices_S32x8_o0_1_S32x1 broadcasts_S32x1_S32x128 r q P hP
  have r2 := row_read X0 o 2 (by decide) h1 slices_S32x8_o0_2_S32x1 broadcasts_S32x1_S32x128 r q P hP
  have r3 := row_read X0 o 3 (by decide) h1 slices_S32x8_o0_3_S32x1 broadcasts_S32x1_S32x128 r q P hP
  have r4 := row_read X0 o 4 (by decide) h1 slices_S32x8_o0_4_S32x1 broadcasts_S32x1_S32x128 r q P hP
  unfold bandVal
  refine (unflat_read _ _ r q ch).trans ?_
  refine (matmul_read _ X2 (flatRow r q) ch).trans ?_
  refine (Finset.sum_congr rfl fun c _ => ?_).trans (pair_sum X2 _ _ _ _ _ _ _ _ _ _ ch)
  refine congrArg (· * X2 (ix2 c ch)) ?_
  refine (flat_read _ _ r q c).trans ?_
  have hi := iota_read iota_S32x128x136_d2_w32 r q c
  simp only [truncf_apply, sitofp_apply, extui_apply, ori_at, cmpi_at, xori_at, andi_at, addi_at, subi_at, maxsi_at,
    minsi_at, select_apply, broadcast_apply, constantI_at, lift_read, hi, c0, c1, c2, c3, c4, r0, r1, r2, r3, r4]
  rfl

/-- The band at an index, with the pair's tokens named through the tile's coordinates. -/
private theorem bandVal_at (o : Nat) (h1 : S128x8.Slices ![o, 0] S32x8) (X0 : IVec S128x8 32) (X1 : IVec S8x128 32)
    (X2 : FVec Ideal S136x128 .bf16) (x : S32x128x128.Idx) (P Q C : Fin 128)
    (hP : P.val = o + (x 0).val) (hQ : Q.val = (x 1).val) (hC : C.val = (x 2).val) :
    bandVal o h1 X0 X1 X2 x
      = Cert.RelPos.pairVal X2
          (X1 (ix2 (0 : Fin 8) Q)) (X0 (ix2 P (0 : Fin 8))) (X1 (ix2 (1 : Fin 8) Q)) (X0 (ix2 P (1 : Fin 8)))
          (X1 (ix2 (2 : Fin 8) Q)) (X0 (ix2 P (2 : Fin 8))) (X1 (ix2 (3 : Fin 8) Q)) (X0 (ix2 P (3 : Fin 8)))
          (X1 (ix2 (4 : Fin 8) Q)) (X0 (ix2 P (4 : Fin 8))) C := by
  obtain rfl : Q = x 1 := Fin.ext hQ
  obtain rfl : C = x 2 := Fin.ext hC
  exact (congrArg (bandVal o h1 X0 X1 X2) (eq_ix3 x)).trans (bandVal_apply o h1 X0 X1 X2 (x 0) (x 1) (x 2) P hP)

/-- The zero offsets of a whole-buffer load. -/
private theorem hz : (![0, 0] : Fin 2 → ℕ) = fun _ => 0 := funext fun a => by fin_cases a <;> rfl

/-- The whole tile as one function of its index: entry (p, q, ch) is channel `ch` of the row sum of the pair (p, q). -/
private def tileFn (x0 : IVec S128x8 32) (x1 : IVec S8x128 32) (x2 : FVec Ideal S136x128 .bf16) :
    S128x128x128.Idx → Elt Ideal .f32 := fun y =>
  Cert.RelPos.pairVal x2
    (x1 (ix2 (0 : Fin 8) (y 1))) (x0 (ix2 (y 0) (0 : Fin 8))) (x1 (ix2 (1 : Fin 8) (y 1))) (x0 (ix2 (y 0) (1 : Fin 8)))
    (x1 (ix2 (2 : Fin 8) (y 1))) (x0 (ix2 (y 0) (2 : Fin 8))) (x1 (ix2 (3 : Fin 8) (y 1))) (x0 (ix2 (y 0) (3 : Fin 8)))
    (x1 (ix2 (4 : Fin 8) (y 1))) (x0 (ix2 (y 0) (4 : Fin 8))) (y 2)

/-- Entry (p, q, ch) of the tile is channel `ch` of the pair's row sum, the pair's ten integers read off the packed row
    block (token p's fields 0 … 4) and the packed column block (token q's fields 0 … 4). -/
theorem tileOut_apply (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec Ideal S128x8 .i32) (x1 : Vec Ideal S8x128 .i32) (x2 : Vec Ideal S136x128 .bf16) (p q ch : Fin 128) :
    tileOut (F := Ideal) c i arg2 harg2 arg3 harg3 arg4 harg4 arg5 harg5 x0 x1 x2 (ix3 p q ch)
      = Cert.RelPos.pairVal x2
          (x1 (ix2 (0 : Fin 8) q)) (x0 (ix2 p (0 : Fin 8))) (x1 (ix2 (1 : Fin 8) q)) (x0 (ix2 p (1 : Fin 8)))
          (x1 (ix2 (2 : Fin 8) q)) (x0 (ix2 p (2 : Fin 8))) (x1 (ix2 (3 : Fin 8) q)) (x0 (ix2 p (3 : Fin 8)))
          (x1 (ix2 (4 : Fin 8) q)) (x0 (ix2 p (4 : Fin 8))) ch := by
  have pieces : ∀ pc ∈ (bandRun (F := Ideal) c i arg2 harg2 arg3 harg3 arg4 harg4 arg5 harg5 x0 x1 x2).1,
      ∀ x : pc.1.shape.Idx, pc.2 x = tileFn x0 x1 x2 (pc.1.emb x) := by
    unfold bandRun
    dsimp only
    sl_unfold_words
    intro pc hpc x
    simp only [List.mem_cons, List.not_mem_nil, or_false] at hpc
    rcases hpc with rfl | rfl | rfl | rfl
    · simp only [View.readAt_eq_ld, harg2.read_unread, harg3.read_unread, harg4.read_unread,
        View.ld_unit_zero (S := S128x8) hz, View.ld_unit_zero (S := S8x128) hz, View.ld_unit_zero (S := S136x128) hz,
        shapeCast_self]
      exact bandVal_at 96 slices_S128x8_o96_0_S32x8 x0 x1 x2 x _ _ _
        (by show 96 + 1 * (x 0).val = 96 + (x 0).val; omega) (by show 0 + 1 * (x 1).val = (x 1).val; omega)
        (by show 0 + 1 * (x 2).val = (x 2).val; omega)
    · simp only [View.readAt_eq_ld, harg2.read_unread, harg3.read_unread, harg4.read_unread,
        View.ld_unit_zero (S := S128x8) hz, View.ld_unit_zero (S := S8x128) hz, View.ld_unit_zero (S := S136x128) hz,
        shapeCast_self]
      exact bandVal_at 64 slices_S128x8_o64_0_S32x8 x0 x1 x2 x _ _ _
        (by show 64 + 1 * (x 0).val = 64 + (x 0).val; omega) (by show 0 + 1 * (x 1).val = (x 1).val; omega)
        (by show 0 + 1 * (x 2).val = (x 2).val; omega)
    · simp only [View.readAt_eq_ld, harg2.read_unread, harg3.read_unread, harg4.read_unread,
        View.ld_unit_zero (S := S128x8) hz, View.ld_unit_zero (S := S8x128) hz, View.ld_unit_zero (S := S136x128) hz,
        shapeCast_self]
      exact bandVal_at 32 slices_S128x8_o32_0_S32x8 x0 x1 x2 x _ _ _
        (by show 32 + 1 * (x 0).val = 32 + (x 0).val; omega) (by show 0 + 1 * (x 1).val = (x 1).val; omega)
        (by show 0 + 1 * (x 2).val = (x 2).val; omega)
    · simp only [View.readAt_eq_ld, harg2.read_unread, harg3.read_unread, harg4.read_unread,
        View.ld_unit_zero (S := S128x8) hz, View.ld_unit_zero (S := S8x128) hz, View.ld_unit_zero (S := S136x128) hz,
        shapeCast_self]
      exact bandVal_at 0 slices_S128x8_o0_0_S32x8 x0 x1 x2 x _ _ _
        (by show 0 + 1 * (x 0).val = 0 + (x 0).val; omega) (by show 0 + 1 * (x 1).val = (x 1).val; omega)
        (by show 0 + 1 * (x 2).val = (x 2).val; omega)
  unfold tileOut
  exact View.canon_apply_of_pieces (Val := Elt Ideal) (tileFn x0 x1 x2) _ pieces (ix3 p q ch)
    (band_cover c i arg2 harg2 arg3 harg3 arg4 harg4 arg5 harg5 x0 x1 x2 (ix3 p q ch))

end Cert.KernelIdeal.Tile

end
-- ==== Proof.PackedInputs.lean ====
/-
  What the grid finds in its three input arrays.

  The host stacks the five per-token integer arrays (and three arrays of zeros) side by side: token `n`'s field `k` is
  entry (n, k) of the 1024 × 8 row array and entry (k, n) of the 8 × 1024 column array; the weight table is narrowed to a
  shorter float format, which over the extended reals changes nothing.
-/
import proofs.«430765_j18373870092380_3_alg».proof.Proof.Gen.KernelIdeal.Launch
import proofs.«430765_j18373870092380_3_alg».proof.Proof.Gen.KernelIdeal.Skeleton
import proofs.«430765_j18373870092380_3_alg».proof.Proof.Gen.KernelIdeal.Points
import proofs.«430765_j18373870092380_3_alg».proof.Proof.TileFrame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
open Idealize.ShloMosaic.ValueIdx

/-- An operation over a literal family of eight references whose function reads its eight operands one by one leaves, at
    its result, that function of the eight operands' contents. -/
private theorem nary8_result_of {Val : EltTy → Type} {x0 x1 x2 x3 x4 x5 x6 x7 y : Ref sig .tc}
    (g : x0.ty.Contents Val → x1.ty.Contents Val → x2.ty.Contents Val → x3.ty.Contents Val → x4.ty.Contents Val →
      x5.ty.Contents Val → x6.ty.Contents Val → x7.ty.Contents Val → y.ty.Contents Val) (hxs hy)
    (G : Valuation τ sig Val) :
    (StableHlo.nary (τ := τ) ![x0, x1, x2, x3, x4, x5, x6, x7] y
          (fun u => g (u 0) (u 1) (u 2) (u 3) (u 4) (u 5) (u 6) (u 7)) hxs hy).result G (no_index (Proc.devRef .tc y))
      = g (G (Proc.devRef .tc x0)) (G (Proc.devRef .tc x1)) (G (Proc.devRef .tc x2)) (G (Proc.devRef .tc x3))
          (G (Proc.devRef .tc x4)) (G (Proc.devRef .tc x5)) (G (Proc.devRef .tc x6)) (G (Proc.devRef .tc x7)) := by
  rw [StableHlo.nary_result]; rfl

section Pieces

variable {α : Type}

/-- Eight one-column pieces side by side: at `(n, k)` the array holds piece `k` at `(n, 0)`. -/
private theorem cols8_apply (u : Fin 8 → (S1024x1.Idx → α))
    (h : Shape.Concatenates [S1024x1, S1024x1, S1024x1, S1024x1, S1024x1, S1024x1, S1024x1, S1024x1] S1024x8 1)
    (n : Fin 1024) (k : Fin 8) :
    concatenate S1024x8 1 [⟨S1024x1, u 0⟩, ⟨S1024x1, u 1⟩, ⟨S1024x1, u 2⟩, ⟨S1024x1, u 3⟩, ⟨S1024x1, u 4⟩, ⟨S1024x1, u 5⟩,
        ⟨S1024x1, u 6⟩, ⟨S1024x1, u 7⟩] h (ix2 n k) = u k (ix2 n (0 : Fin 1)) := by
  refine concatenate_apply_piece (1 : Fin S1024x8.rank) [⟨S1024x1, u 0⟩, ⟨S1024x1, u 1⟩, ⟨S1024x1, u 2⟩, ⟨S1024x1, u 3⟩, ⟨S1024x1, u 4⟩,
    ⟨S1024x1, u 5⟩, ⟨S1024x1, u 6⟩, ⟨S1024x1, u 7⟩] h (ix2 n k) k.val (by exact k.isLt) S1024x1 (u k) ?_ rfl k.val ?_
    (ix2 n (0 : Fin 1)) ?_ ?_
  · fin_cases k <;> rfl
  · fin_cases k <;> rfl
  · intro b hb
    match b with
    | ⟨0, _⟩ => rfl
    | ⟨1, _⟩ => exact absurd rfl hb
  · show k.val + 0 = k.val
    rfl

/-- Eight one-row pieces stacked: at `(k, n)` the array holds piece `k` at `(0, n)`. -/
private theorem rows8_apply (u : Fin 8 → (S1x1024.Idx → α))
    (h : Shape.Concatenates [S1x1024, S1x1024, S1x1024, S1x1024, S1x1024, S1x1024, S1x1024, S1x1024] S8x1024 0)
    (n : Fin 1024) (k : Fin 8) :
    concatenate S8x1024 0 [⟨S1x1024, u 0⟩, ⟨S1x1024, u 1⟩, ⟨S1x1024, u 2⟩, ⟨S1x1024, u 3⟩, ⟨S1x1024, u 4⟩, ⟨S1x1024, u 5⟩,
        ⟨S1x1024, u 6⟩, ⟨S1x1024, u 7⟩] h (ix2 k n) = u k (ix2 (0 : Fin 1) n) := by
  refine concatenate_apply_piece (0 : Fin S8x1024.rank) [⟨S1x1024, u 0⟩, ⟨S1x1024, u 1⟩, ⟨S1x1024, u 2⟩, ⟨S1x1024, u 3⟩, ⟨S1x1024, u 4⟩,
    ⟨S1x1024, u 5⟩, ⟨S1x1024, u 6⟩, ⟨S1x1024, u 7⟩] h (ix2 k n) k.val (by exact k.isLt) S1x1024 (u k) ?_ rfl k.val ?_
    (ix2 (0 : Fin 1) n) ?_ ?_
  · fin_cases k <;> rfl
  · fin_cases k <;> rfl
  · intro b hb
    match b with
    | ⟨0, _⟩ => exact absurd rfl hb
    | ⟨1, _⟩ => rfl
  · show k.val + 0 = k.val
    rfl

/-- A vector spread down a single column, read at `(n, 0)`, is the vector at `n`. -/
private theorem bcast_col_apply (h : S1024.BroadcastsInDim S1024x1 (![0] : Fin 1 → Fin S1024x1.rank)) (x : S1024.Idx → α)
    (n : Fin 1024) : broadcastInDim S1024x1 ![0] h x (ix2 n (0 : Fin 1)) = x (ix1 n) :=
  broadcastInDim_apply ![0] h x (ix2 n (0 : Fin 1)) (ix1 n) (fun a => by
    match a with
    | ⟨0, _⟩ =>
      show n.val = if (1024 : ℕ) = 1 then 0 else n.val
      rw [if_neg (by decide)])

/-- A vector spread along a single row, read at `(0, n)`, is the vector at `n`. -/
private theorem bcast_row_apply (h : S1024.BroadcastsInDim S1x1024 (![1] : Fin 1 → Fin S1x1024.rank)) (x : S1024.Idx → α)
    (n : Fin 1024) : broadcastInDim S1x1024 ![1] h x (ix2 (0 : Fin 1) n) = x (ix1 n) :=
  broadcastInDim_apply ![1] h x (ix2 (0 : Fin 1) n) (ix1 n) (fun a => by
    match a with
    | ⟨0, _⟩ =>
      show n.val = if (1024 : ℕ) = 1 then 0 else n.val
      rw [if_neg (by decide)])

/-- A one-row array flattened and spread down a column: at `(n, 0)` it holds the row's entry `n`. -/
private theorem col_of_row (x : S1x1024.Idx → α) (n : Fin 1024) :
    broadcastInDim S1024x1 ![0] bcast_S1024_S1024x1_0 (fun i => shapeCast S1024 x shapeCasts_S1x1024_S1024 i) (ix2 n (0 : Fin 1))
      = x (ix2 (0 : Fin 1) n) := by
  rw [bcast_col_apply]
  exact shapeCast_1a_a_apply x shapeCasts_S1x1024_S1024 n

/-- A one-row array flattened and spread along a row again: at `(0, n)` it holds the row's entry `n`. -/
private theorem row_of_row (x : S1x1024.Idx → α) (n : Fin 1024) :
    broadcastInDim S1x1024 ![1] bcast_S1024_S1x1024_1 (fun i => shapeCast S1024 x shapeCasts_S1x1024_S1024 i) (ix2 (0 : Fin 1) n)
      = x (ix2 (0 : Fin 1) n) := by
  rw [bcast_row_apply]
  exact shapeCast_1a_a_apply x shapeCasts_S1x1024_S1024 n

end Pieces

section Pieces5

variable {α : Type}

/-- The first five columns of eight one-column pieces side by side. -/
private theorem cols8_apply5 (u0 u1 u2 u3 u4 u5 u6 u7 : S1024x1.Idx → α)
    (h : Shape.Concatenates [S1024x1, S1024x1, S1024x1, S1024x1, S1024x1, S1024x1, S1024x1, S1024x1] S1024x8 1) (n : Fin 1024) :
    concatenate S1024x8 1 [⟨S1024x1, u0⟩, ⟨S1024x1, u1⟩, ⟨S1024x1, u2⟩, ⟨S1024x1, u3⟩, ⟨S1024x1, u4⟩, ⟨S1024x1, u5⟩,
        ⟨S1024x1, u6⟩, ⟨S1024x1, u7⟩] h (ix2 n (0 : Fin 8)) = u0 (ix2 n (0 : Fin 1))
      ∧ concatenate S1024x8 1 [⟨S1024x1, u0⟩, ⟨S1024x1, u1⟩, ⟨S1024x1, u2⟩, ⟨S1024x1, u3⟩, ⟨S1024x1, u4⟩, ⟨S1024x1, u5⟩,
        ⟨S1024x1, u6⟩, ⟨S1024x1, u7⟩] h (ix2 n (1 : Fin 8)) = u1 (ix2 n (0 : Fin 1))
      ∧ concatenate S1024x8 1 [⟨S1024x1, u0⟩, ⟨S1024x1, u1⟩, ⟨S1024x1, u2⟩, ⟨S1024x1, u3⟩, ⟨S1024x1, u4⟩, ⟨S1024x1, u5⟩,
        ⟨S1024x1, u6⟩, ⟨S1024x1, u7⟩] h (ix2 n (2 : Fin 8)) = u2 (ix2 n (0 : Fin 1))
      ∧ concatenate S1024x8 1 [⟨S1024x1, u0⟩, ⟨S1024x1, u1⟩, ⟨S1024x1, u2⟩, ⟨S1024x1, u3⟩, ⟨S1024x1, u4⟩, ⟨S1024x1, u5⟩,
        ⟨S1024x1, u6⟩, ⟨S1024x1, u7⟩] h (ix2 n (3 : Fin 8)) = u3 (ix2 n (0 : Fin 1))
      ∧ concatenate S1024x8 1 [⟨S1024x1, u0⟩, ⟨S1024x1, u1⟩, ⟨S1024x1, u2⟩, ⟨S1024x1, u3⟩, ⟨S1024x1, u4⟩, ⟨S1024x1, u5⟩,
        ⟨S1024x1, u6⟩, ⟨S1024x1, u7⟩] h (ix2 n (4 : Fin 8)) = u4 (ix2 n (0 : Fin 1)) :=
  ⟨cols8_apply ![u0, u1, u2, u3, u4, u5, u6, u7] h n 0, cols8_apply ![u0, u1, u2, u3, u4, u5, u6, u7] h n 1,
    cols8_apply ![u0, u1, u2, u3, u4, u5, u6, u7] h n 2, cols8_apply ![u0, u1, u2, u3, u4, u5, u6, u7] h n 3,
    cols8_apply ![u0, u1, u2, u3, u4, u5, u6, u7] h n 4⟩

/-- The first five rows of eight one-row pieces stacked. -/
private theorem rows8_apply5 (u0 u1 u2 u3 u4 u5 u6 u7 : S1x1024.Idx → α)
    (h : Shape.Concatenates [S1x1024, S1x1024, S1x1024, S1x1024, S1x1024, S1x1024, S1x1024, S1x1024] S8x1024 0) (n : Fin 1024) :
    concatenate S8x1024 0 [⟨S1x1024, u0⟩, ⟨S1x1024, u1⟩, ⟨S1x1024, u2⟩, ⟨S1x1024, u3⟩, ⟨S1x1024, u4⟩, ⟨S1x1024, u5⟩,
        ⟨S1x1024, u6⟩, ⟨S1x1024, u7⟩] h (ix2 (0 : Fin 8) n) = u0 (ix2 (0 : Fin 1) n)
      ∧ concatenate S8x1024 0 [⟨S1x1024, u0⟩, ⟨S1x1024, u1⟩, ⟨S1x1024, u2⟩, ⟨S1x1024, u3⟩, ⟨S1x1024, u4⟩, ⟨S1x1024, u5⟩,
        ⟨S1x1024, u6⟩, ⟨S1x1024, u7⟩] h (ix2 (1 : Fin 8) n) = u1 (ix2 (0 : Fin 1) n)
      ∧ concatenate S8x1024 0 [⟨S1x1024, u0⟩, ⟨S1x1024, u1⟩, ⟨S1x1024, u2⟩, ⟨S1x1024, u3⟩, ⟨S1x1024, u4⟩, ⟨S1x1024, u5⟩,
        ⟨S1x1024, u6⟩, ⟨S1x1024, u7⟩] h (ix2 (2 : Fin 8) n) = u2 (ix2 (0 : Fin 1) n)
      ∧ concatenate S8x1024 0 [⟨S1x1024, u0⟩, ⟨S1x1024, u1⟩, ⟨S1x1024, u2⟩, ⟨S1x1024, u3⟩, ⟨S1x1024, u4⟩, ⟨S1x1024, u5⟩,
        ⟨S1x1024, u6⟩, ⟨S1x1024, u7⟩] h (ix2 (3 : Fin 8) n) = u3 (ix2 (0 : Fin 1) n)
      ∧ concatenate S8x1024 0 [⟨S1x1024, u0⟩, ⟨S1x1024, u1⟩, ⟨S1x1024, u2⟩, ⟨S1x1024, u3⟩, ⟨S1x1024, u4⟩, ⟨S1x1024, u5⟩,
        ⟨S1x1024, u6⟩, ⟨S1x1024, u7⟩] h (ix2 (4 : Fin 8) n) = u4 (ix2 (0 : Fin 1) n) :=
  ⟨rows8_apply ![u0, u1, u2, u3, u4, u5, u6, u7] h n 0, rows8_apply ![u0, u1, u2, u3, u4, u5, u6, u7] h n 1,
    rows8_apply ![u0, u1, u2, u3, u4, u5, u6, u7] h n 2, rows8_apply ![u0, u1, u2, u3, u4, u5, u6, u7] h n 3,
    rows8_apply ![u0, u1, u2, u3, u4, u5, u6, u7] h n 4⟩

end Pieces5

variable (m : (ℓ : Loc nD τ sig) → Buf (Elt F) ℓ)

/-- Row `n` of the packed row array holds token `n`'s five fields in its first five columns. -/
theorem V_rows (c : Dev nD) (n : Fin 1024) :
    (V m c main_v14 : S1024x8.Idx → BitVec 32) (ix2 n (0 : Fin 8)) = (m ((c : Thread nD τ).loc main_arg0) : S1x1024.Idx → BitVec 32) (ix2 (0 : Fin 1) n)
      ∧ (V m c main_v14 : S1024x8.Idx → BitVec 32) (ix2 n (1 : Fin 8)) = (m ((c : Thread nD τ).loc main_arg1) : S1x1024.Idx → BitVec 32) (ix2 (0 : Fin 1) n)
      ∧ (V m c main_v14 : S1024x8.Idx → BitVec 32) (ix2 n (2 : Fin 8)) = (m ((c : Thread nD τ).loc main_arg2) : S1x1024.Idx → BitVec 32) (ix2 (0 : Fin 1) n)
      ∧ (V m c main_v14 : S1024x8.Idx → BitVec 32) (ix2 n (3 : Fin 8)) = (m ((c : Thread nD τ).loc main_arg3) : S1x1024.Idx → BitVec 32) (ix2 (0 : Fin 1) n)
      ∧ (V m c main_v14 : S1024x8.Idx → BitVec 32) (ix2 n (4 : Fin 8)) = (m ((c : Thread nD τ).loc main_arg4) : S1x1024.Idx → BitVec 32) (ix2 (0 : Fin 1) n) := by
  dsimp only [V, V0]
  simp only [List.flatten_cons, List.flatten_nil, List.append_nil]
  simp (disch := decide) only [StableHlo.after_cons, StableHlo.after_nil, StableHlo.nullary_result', StableHlo.unary_result',
      StableHlo.reshape_result',
      (nary8_result_of (Val := Elt F) (x0 := main_v6) (x1 := main_v7) (x2 := main_v8) (x3 := main_v9) (x4 := main_v10) (x5 := main_v11) (x6 := main_v12) (x7 := main_v13) (y := main_v14)
        (fun u0 u1 u2 u3 u4 u5 u6 u7 => concatenate S1024x8 1 [⟨S1024x1, u0⟩, ⟨S1024x1, u1⟩, ⟨S1024x1, u2⟩, ⟨S1024x1, u3⟩, ⟨S1024x1, u4⟩, ⟨S1024x1, u5⟩, ⟨S1024x1, u6⟩, ⟨S1024x1, u7⟩] concatenates_S1024x1_S1024x1_S1024x1_S1024x1_S1024x1_S1024x1_S1024x1_S1024x1_S1024x8_d1)),
      StableHlo.nullary_result_ne', StableHlo.unary_result_ne', StableHlo.reshape_result_ne', StableHlo.nary_result_ne', cols8_apply5]
  refine ⟨?_, ?_, ?_, ?_, ?_⟩ <;> exact col_of_row _ n

/-- Column `n` of the packed column array holds token `n`'s five fields in its first five rows. -/
theorem V_cols (c : Dev nD) (n : Fin 1024) :
    (V m c main_v28 : S8x1024.Idx → BitVec 32) (ix2 (0 : Fin 8) n) = (m ((c : Thread nD τ).loc main_arg0) : S1x1024.Idx → BitVec 32) (ix2 (0 : Fin 1) n)
      ∧ (V m c main_v28 : S8x1024.Idx → BitVec 32) (ix2 (1 : Fin 8) n) = (m ((c : Thread nD τ).loc main_arg1) : S1x1024.Idx → BitVec 32) (ix2 (0 : Fin 1) n)
      ∧ (V m c main_v28 : S8x1024.Idx → BitVec 32) (ix2 (2 : Fin 8) n) = (m ((c : Thread nD τ).loc main_arg2) : S1x1024.Idx → BitVec 32) (ix2 (0 : Fin 1) n)
      ∧ (V m c main_v28 : S8x1024.Idx → BitVec 32) (ix2 (3 : Fin 8) n) = (m ((c : Thread nD τ).loc main_arg3) : S1x1024.Idx → BitVec 32) (ix2 (0 : Fin 1) n)
      ∧ (V m c main_v28 : S8x1024.Idx → BitVec 32) (ix2 (4 : Fin 8) n) = (m ((c : Thread nD τ).loc main_arg4) : S1x1024.Idx → BitVec 32) (ix2 (0 : Fin 1) n) := by
  dsimp only [V, V0]
  simp only [List.flatten_cons, List.flatten_nil, List.append_nil]
  simp (disch := decide) only [StableHlo.after_cons, StableHlo.after_nil, StableHlo.nullary_result', StableHlo.unary_result',
      StableHlo.reshape_result',
      (nary8_result_of (Val := Elt F) (x0 := main_v20) (x1 := main_v21) (x2 := main_v22) (x3 := main_v23) (x4 := main_v24) (x5 := main_v25) (x6 := main_v26) (x7 := main_v27) (y := main_v28)
        (fun u0 u1 u2 u3 u4 u5 u6 u7 => concatenate S8x1024 0 [⟨S1x1024, u0⟩, ⟨S1x1024, u1⟩, ⟨S1x1024, u2⟩, ⟨S1x1024, u3⟩, ⟨S1x1024, u4⟩, ⟨S1x1024, u5⟩, ⟨S1x1024, u6⟩, ⟨S1x1024, u7⟩] concatenates_S1x1024_S1x1024_S1x1024_S1x1024_S1x1024_S1x1024_S1x1024_S1x1024_S8x1024_d0)),
      StableHlo.nullary_result_ne', StableHlo.unary_result_ne', StableHlo.reshape_result_ne', StableHlo.nary_result_ne', rows8_apply5]
  refine ⟨?_, ?_, ?_, ?_, ?_⟩ <;> exact row_of_row _ n

/-- Over the extended reals the narrowed table is the table. -/
theorem V_table (m : (ℓ : Loc nD τ sig) → Buf (Elt Ideal) ℓ) (c : Dev nD) :
    (V (F := Ideal) m c main_v29 : S136x128.Idx → EReal) = (m ((c : Thread nD τ).loc main_arg5) : S136x128.Idx → EReal) := by
  dsimp only [V, V0]
  simp only [List.flatten_cons, List.flatten_nil, List.append_nil]
  simp (disch := decide) only [StableHlo.after_cons, StableHlo.after_nil, StableHlo.nullary_result', StableHlo.unary_result',
      StableHlo.reshape_result', StableHlo.nullary_result_ne', StableHlo.unary_result_ne', StableHlo.reshape_result_ne',
      StableHlo.nary_result_ne']
  funext i
  rfl

end Cert.KernelIdeal.Tile

end
-- ==== Proof.TileArray.lean ====
/-
  From tiles to the whole result.

  Grid point (a, b) writes its tile into rows 128a … 128a+127 and columns 128b … 128b+127 of the 1024 × 1024 × 128 result,
  and the 64 tiles cover it. Entry (i, j, ·) lies in the tile of point (i / 128, j / 128), at (i mod 128, j mod 128),
  and there the tile holds the row sum of the pair of tokens (i, j): the row block of that point is rows 128a … of the
  packed row array, its column block columns 128b … of the packed column array. So the result array is the pairwise row
  sum as one function of the arguments; the reshape after the grid only adds a leading axis of length one.
-/
import proofs.«430765_j18373870092380_3_alg».proof.Proof.Gen.KernelIdeal.Launch
import proofs.«430765_j18373870092380_3_alg».proof.Proof.Gen.KernelIdeal.Skeleton
import proofs.«430765_j18373870092380_3_alg».proof.Proof.Gen.KernelIdeal.Points
import proofs.«430765_j18373870092380_3_alg».proof.Proof.TileFrame
import proofs.«430765_j18373870092380_3_alg».proof.Proof.TileValue
import proofs.«430765_j18373870092380_3_alg».proof.Proof.PackedInputs
import proofs.«430765_j18373870092380_3_alg».proof.Proof.PairSpec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The windows' block indices at grid point t: the row band t / 8 and the column band t % 8. -/
private theorem band_facts : ∀ t : Fin cfg0.N,
    win0_3.index t (0 : Fin 3) = t.val / 8 ∧ win0_3.index t (1 : Fin 3) = t.val % 8 ∧ win0_3.index t (2 : Fin 3) = 0
    ∧ win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = 0 ∧ win0_2.index t (1 : Fin 2) = 0 :=
  (by decide +kernel : ∀ t : Fin grid0.N, _)

/-- An entry of the result lies in the tile of point t iff each coordinate lies in the tile's range on its axis. -/
private theorem mem_tile (t : Fin cfg0.N) (i : S1024x1024x128.Idx) :
    i ∈ ((cfg0.win 3).blk t).view.set ↔ ∀ a : Fin 3, win0_3.index t a * S128x128x128.size a ≤ (i a).val ∧ (i a).val < win0_3.index t a * S128x128x128.size a + S128x128x128.size a := by
  show i ∈ ((View.whole main_v30).slice (win0_3.rect t)).set ↔ _
  rw [View.set_slice_whole, Rect.mem_set_unit]
  exact Iff.rfl

/-- The whole result as one function of the arguments: entry (i, j, ·) is the row sum of the pair of tokens (i, j). -/
private def pairArr (c : Dev nD) : S1024x1024x128.Idx → EReal := fun y =>
  Cert.RelPos.pairSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (ix4 (0 : Fin 1) (y 0 : Fin 1024) (y 1 : Fin 1024) (y 2 : Fin 128))

/-- A tile whose row block holds, in row p, the fields of token I and whose column block holds, in column q, the fields of
    token J is, at (p, q, ·), the row sum of the pair (I, J). -/
private theorem tile_at (c : Dev nD) (i : grid0.Coords) (arg2 : Memref sig .tc .vmem S128x8 .i32) (harg2 : arg2.IsWhole) (arg3 : Memref sig .tc .vmem S8x128 .i32) (harg3 : arg3.IsWhole) (arg4 : Memref sig .tc .vmem S136x128 .bf16) (harg4 : arg4.IsWhole) (arg5 : Memref sig .tc .vmem S128x128x128 .f32) (harg5 : arg5.IsWhole)
    (x0 : Vec Ideal S128x8 .i32) (x1 : Vec Ideal S8x128 .i32) (x2 : Vec Ideal S136x128 .bf16)
    (a r e t s : S1x1024.Idx → BitVec 32) (W : S136x128.Idx → EReal) (p q ch : Fin 128) (I J : Fin 1024)
    (hr0 : x0 (ix2 p (0 : Fin 8)) = a (ix2 (0 : Fin 1) I)) (hr1 : x0 (ix2 p (1 : Fin 8)) = r (ix2 (0 : Fin 1) I))
    (hr2 : x0 (ix2 p (2 : Fin 8)) = e (ix2 (0 : Fin 1) I)) (hr3 : x0 (ix2 p (3 : Fin 8)) = t (ix2 (0 : Fin 1) I))
    (hr4 : x0 (ix2 p (4 : Fin 8)) = s (ix2 (0 : Fin 1) I))
    (hc0 : x1 (ix2 (0 : Fin 8) q) = a (ix2 (0 : Fin 1) J)) (hc1 : x1 (ix2 (1 : Fin 8) q) = r (ix2 (0 : Fin 1) J))
    (hc2 : x1 (ix2 (2 : Fin 8) q) = e (ix2 (0 : Fin 1) J)) (hc3 : x1 (ix2 (3 : Fin 8) q) = t (ix2 (0 : Fin 1) J))
    (hc4 : x1 (ix2 (4 : Fin 8) q) = s (ix2 (0 : Fin 1) J))
    (hW : x2 = W) :
    tileOut (F := Ideal) c i arg2 harg2 arg3 harg3 arg4 harg4 arg5 harg5 x0 x1 x2 (ix3 p q ch)
      = Cert.RelPos.pairSum a r e t s W (ix4 (0 : Fin 1) I J ch) := by
  rw [tileOut_apply, hr0, hr1, hr2, hr3, hr4, hc0, hc1, hc2, hc3, hc4, hW]
  rfl

/-- The row block of point t, at (p, k): row 128 (t / 8) + p of the packed row array. -/
private theorem rowBlock_apply (c : Dev nD) (t : Fin cfg0.N) (p : Fin 128) (k : Fin 8) (n : Fin 1024)
    (hn : n.val = 128 * (t.val / 8) + p.val) :
    (iblk (F := Ideal) m c 0 t : S128x8.Idx → BitVec 32) (ix2 p k) = (V m c main_v14 : S1024x8.Idx → BitVec 32) (ix2 n k) := by
  obtain ⟨-, -, -, e3, e4, -, -, -, -⟩ := band_facts t
  unfold iblk
  rw [View.read_apply]
  show (V m c main_v14 : S1024x8.Idx → BitVec 32) _ = _
  congr 1
  funext a
  apply Fin.ext
  match a with
  | ⟨0, _⟩ => show win0_0.index t (0 : Fin 2) * 128 + 1 * p.val = n.val; rw [e3, hn]; omega
  | ⟨1, _⟩ => show win0_0.index t (1 : Fin 2) * 8 + 1 * k.val = k.val; rw [e4]; omega

/-- The column block of point t, at (k, q): column 128 (t % 8) + q of the packed column array. -/
private theorem colBlock_apply (c : Dev nD) (t : Fin cfg0.N) (k : Fin 8) (q : Fin 128) (n : Fin 1024)
    (hn : n.val = 128 * (t.val % 8) + q.val) :
    (iblk (F := Ideal) m c 1 t : S8x128.Idx → BitVec 32) (ix2 k q) = (V m c main_v28 : S8x1024.Idx → BitVec 32) (ix2 k n) := by
  obtain ⟨-, -, -, -, -, e5, e6, -, -⟩ := band_facts t
  unfold iblk
  rw [View.read_apply]
  show (V m c main_v28 : S8x1024.Idx → BitVec 32) _ = _
  congr 1
  funext a
  apply Fin.ext
  match a with
  | ⟨0, _⟩ => show win0_1.index t (0 : Fin 2) * 8 + 1 * k.val = k.val; rw [e5]; omega
  | ⟨1, _⟩ => show win0_1.index t (1 : Fin 2) * 128 + 1 * q.val = n.val; rw [e6, hn]; omega

/-- The table's block at every point is the whole narrowed table. -/
private theorem tableBlock_eq (c : Dev nD) (t : Fin cfg0.N) :
    (iblk (F := Ideal) m c 2 t : S136x128.Idx → EReal) = (V (F := Ideal) m c main_v29 : S136x128.Idx → EReal) := by
  obtain ⟨-, -, -, -, -, -, -, e7, e8⟩ := band_facts t
  funext x
  unfold iblk
  rw [View.read_apply]
  show (V (F := Ideal) m c main_v29 : S136x128.Idx → EReal) _ = _
  congr 1
  funext a
  apply Fin.ext
  match a with
  | ⟨0, _⟩ => show win0_2.index t (0 : Fin 2) * 136 + 1 * (x 0).val = (x 0).val; rw [e7]; omega
  | ⟨1, _⟩ => show win0_2.index t (1 : Fin 2) * 128 + 1 * (x 1).val = (x 1).val; rw [e8]; omega

/-- The tile of point t at an entry y is the whole result at the entry z that y lands on: z's row is 128 (t / 8) + y's row,
    its column 128 (t % 8) + y's column, its channel y's. -/
private theorem tile_entry (c : Dev nD) (t : Fin cfg0.N) (y : S128x128x128.Idx) (z : S1024x1024x128.Idx)
    (h0 : (z 0).val = 128 * (t.val / 8) + (y 0).val) (h1 : (z 1).val = 128 * (t.val % 8) + (y 1).val)
    (h2 : (z 2).val = (y 2).val) :
    tileOut (F := Ideal) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t) y
      = pairArr m c z := by
  obtain ⟨p, q, ch, rfl⟩ : ∃ p q ch, y = ix3 p q ch := ⟨y 0, y 1, y 2, eq_ix3 y⟩
  obtain rfl : ch = (z 2 : Fin 128) := Fin.ext h2.symm
  have hR := V_rows (F := Ideal) m c (z 0 : Fin 1024)
  have hC := V_cols (F := Ideal) m c (z 1 : Fin 1024)
  unfold pairArr
  exact tile_at c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (iblk m c 0 t) (iblk m c 1 t) (iblk m c 2 t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    p q (z 2) (z 0) (z 1)
    ((rowBlock_apply m c t p 0 (z 0) h0).trans hR.1) ((rowBlock_apply m c t p 1 (z 0) h0).trans hR.2.1)
    ((rowBlock_apply m c t p 2 (z 0) h0).trans hR.2.2.1) ((rowBlock_apply m c t p 3 (z 0) h0).trans hR.2.2.2.1)
    ((rowBlock_apply m c t p 4 (z 0) h0).trans hR.2.2.2.2)
    ((colBlock_apply m c t 0 q (z 1) h1).trans hC.1) ((colBlock_apply m c t 1 q (z 1) h1).trans hC.2.1)
    ((colBlock_apply m c t 2 q (z 1) h1).trans hC.2.2.1) ((colBlock_apply m c t 3 q (z 1) h1).trans hC.2.2.2.1)
    ((colBlock_apply m c t 4 q (z 1) h1).trans hC.2.2.2.2)
    ((tableBlock_eq m c t).trans (V_table m c))

/-- What point t writes back is its tile of the whole result. -/
private theorem flushed_eq (c : Dev nD) (t : Fin cfg0.N) :
    (dats (F := Ideal) m 0 c).flushed 3 t = ((cfg0.win 3).blk t).view.read (Elt Ideal) (pairArr m c) := by
  show (cfg0.win 3).cut (grid0.coords t) ((dats (F := Ideal) m 0 c).after 3 t) = _
  rw [after0_3]
  obtain ⟨e0, e1, e2, -, -, -, -, -, -⟩ := band_facts t
  funext y
  refine tile_entry m c t (win0_3.xinj (grid0.coords t) y) (((cfg0.win 3).blk t).view.emb y) ?_ ?_ ?_
  · show win0_3.index t (0 : Fin 3) * 128 + 1 * (y 0).val = 128 * (t.val / 8) + (y 0).val
    rw [e0]; omega
  · show win0_3.index t (1 : Fin 3) * 128 + 1 * (y 1).val = 128 * (t.val % 8) + (y 1).val
    rw [e1]; omega
  · show win0_3.index t (2 : Fin 3) * 128 + 1 * (y 2).val = (y 2).val
    rw [e2]; omega

/-- Every entry of the result lies in the tile of the point of its row band and its column band. -/
private theorem tiles_cover (i : S1024x1024x128.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  have hi2 : (i 2).val < 128 := (i 2).isLt
  have hN : cfg0.N = 64 := N_0
  obtain ⟨t, ht⟩ : ∃ t : Fin cfg0.N, t.val = 8 * ((i 0).val / 128) + (i 1).val / 128 :=
    ⟨⟨8 * ((i 0).val / 128) + (i 1).val / 128, by rw [hN]; omega⟩, rfl⟩
  obtain ⟨e0, e1, e2, -, -, -, -, -, -⟩ := band_facts t
  refine ⟨t, flush0_3 t, ?_⟩
  rw [mem_tile]
  intro a
  match a with
  | ⟨0, _⟩ =>
    show win0_3.index t (0 : Fin 3) * 128 ≤ (i 0).val ∧ (i 0).val < win0_3.index t (0 : Fin 3) * 128 + 128
    rw [e0, ht]; omega
  | ⟨1, _⟩ =>
    show win0_3.index t (1 : Fin 3) * 128 ≤ (i 1).val ∧ (i 1).val < win0_3.index t (1 : Fin 3) * 128 + 128
    rw [e1, ht]; omega
  | ⟨2, _⟩ =>
    show win0_3.index t (2 : Fin 3) * 128 ≤ (i 2).val ∧ (i 2).val < win0_3.index t (2 : Fin 3) * 128 + 128
    rw [e2]; omega

/-- The result array after the grid is the pairwise row sum, as one function of the arguments. -/
private theorem final_arr (c : Dev nD) : (dats (F := Ideal) m 0 c).arrAt 3 cfg0.N = pairArr m c :=
  (dats (F := Ideal) m 0 c).arrAt_eq_of_cover 3 (pairArr m c) (fun t _ => flushed_eq m c t) tiles_cover

/-- The result array after the grid, entry by entry: the row sum of the pair of tokens (i, j). -/
theorem final (c : Dev nD) (i j : Fin 1024) (ch : Fin 128) :
    ((dats (F := Ideal) m 0 c).arrAt 3 cfg0.N : S1024x1024x128.Idx → EReal) (ix3 i j ch)
      = Cert.RelPos.pairSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix4 (0 : Fin 1) i j ch) :=
  congrFun (final_arr m c) (ix3 i j ch)

/-- The reshape after the grid only adds a leading axis of length one: the result buffer ends at the pairwise row sum. -/
private theorem result_tail (c : Dev nD) :
    Pipeline.afterTail₀ cfgs (dats (F := Ideal) m) 0 (V0 m) [hostOps1] c main_v31
      = Cert.RelPos.pairSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v31) = _
  after_results
  have e : Pipeline.withArrays (cfgs 0).spec c (V0 m c) (fun w => (dats (F := Ideal) m 0 c).arrAt w (cfgs 0).N) (Proc.devRef .tc main_v30) = pairArr m c :=
    (Pipeline.withArrays_arr spec0 launch0.win.arr_inj c _ _ 3).trans (final_arr m c)
  rw [e]
  funext y
  obtain ⟨u, i, j, ch, rfl⟩ : ∃ (u : Fin 1) (i j : Fin 1024) (ch : Fin 128), y = ix4 u i j ch := ⟨y 0, y 1, y 2, y 3, eq_ix4 y⟩
  refine (shapeCast_abc_1abc_apply (pairArr m c) shapeCasts_S1024x1024x128_S1x1024x1024x128 u i j ch).trans ?_
  obtain rfl : u = 0 := Subsingleton.elim _ _
  rfl

/-- THE KERNEL'S RUN over the extended reals: it terminates without a fault with its result at the pairwise row sum of its
    arguments, and its arguments unchanged. -/
theorem kernel_run : θ_run (defs (F := Ideal)) (onTc (τ := τ) (main (F := Ideal))) ⟨m, fun _ => 0, ρ⟩ (fun r => ∀ c : Dev nD,
      r.2.mem ((c.tc : Thread nD τ).loc main_v31) = Cert.RelPos.pairSum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).2 main_v31 (Pipeline.mem_restRefs_of main_v31 (by decide) (by decide))).trans (result_tail m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Tile

end
-- ==== Proof.RefStages.lean ====
/-
  The reference's computation as pure functions of the argument arrays.

  The reference forms, for every pair (i, j) of tokens, the three clipped offsets and looks the four table rows up one
  by one: each lookup `takeF` first wraps a negative index by the table's length, keeps the element only where the
  wrapped index is inside the table and puts a not-a-number elsewhere; the same-entity bit, as a number, multiplies
  row 130. `refOut` composes these stages exactly as the program does, so that the program's result is this function of
  its arguments by unfolding, and what it computes can be read index by index.
-/
import proofs.«430765_j18373870092380_3_alg».proof.ReferenceIdeal

noncomputable section

namespace Cert.ReferenceIdeal.RefValue

open Cert.ReferenceIdeal
open Idealize.ShloMosaic
open Facts₀ Facts

variable {F : FTy → Type} [FloatOps F] [Facts]

/-- A per-token array spread over the pairs by its SECOND token (`x[:, None, :]`). -/
def overJ (a : IVec S1x1024 32) : IVec S1x1024x1024 32 :=
  broadcastInDim S1x1024x1024 ![0, 1, 2] bcast_S1x1x1024_S1x1024x1024_0_1_2 (broadcastInDim S1x1x1024 ![0, 2] bcast_S1x1024_S1x1x1024_0_2 a)
/-- A per-token array spread over the pairs by its FIRST token (`x[:, :, None]`). -/
def overI (a : IVec S1x1024 32) : IVec S1x1024x1024 32 :=
  broadcastInDim S1x1024x1024 ![0, 1, 2] bcast_S1x1024x1_S1x1024x1024_0_1_2 (broadcastInDim S1x1024x1 ![0, 1] bcast_S1x1024_S1x1024x1_0_1 a)
/-- A constant over the pairs. -/
def splat (b : BitVec 32) : IVec S1x1024x1024 32 :=
  broadcastInDim S1x1024x1024 ![] bcast_S_S1x1024x1024 (constantI S_ 32 b)

/-- `clip(x, lo, hi)`: the larger of `lo` and `x`, then the smaller of `hi` and that, by the signed order. -/
def clipF (x : IVec S1x1024x1024 32) (lo hi : IVec S_ 32) : IVec S1x1024x1024 32 :=
  minsi (broadcastInDim S1x1024x1024 ![] bcast_S_S1x1024x1024 hi)
    (maxsi (broadcastInDim S1x1024x1024 ![] bcast_S_S1x1024x1024 (id lo)) x)
/-- `where(c, x, y)` with a scalar `y`. -/
def whereF (c : IVec S1x1024x1024 1) (x : IVec S1x1024x1024 32) (y : IVec S_ 32) : IVec S1x1024x1024 32 :=
  select c x (broadcastInDim S1x1024x1024 ![] bcast_S_S1x1024x1024 y)

/-- A negative index wrapped by the table's 136 rows, as a start-index array. -/
def wrapIdx (idx : IVec S1x1024x1024 32) : IVec S1x1024x1024x1 32 :=
  broadcastInDim S1x1024x1024x1 ![0, 1, 2] bcast_S1x1024x1024_S1x1024x1024x1_0_1_2
    (select (cmpi .slt idx (broadcastInDim S1x1024x1024 ![] bcast_S_S1x1024x1024 (constantI S_ 32 0#32)))
      (addi idx (broadcastInDim S1x1024x1024 ![] bcast_S_S1x1024x1024 (constantI S_ 32 136#32))) idx)
/-- Where the wrapped index is inside the table: `0 ≤ · ≤ 135`, over the one index component. -/
def inTable (i5 : IVec S1x1024x1024x1 32) : IVec S1x1024x1024 1 :=
  Host.reduce IntOp.andi
    (andi (cmpi .sge i5 (broadcastInDim S1x1024x1024x1 ![] bcast_S_S1x1024x1024x1 (constantI S_ 32 0#32)))
      (cmpi .sle i5 (broadcastInDim S1x1024x1024x1 ![0, 1, 2, 3] bcast_S1x1x1x1_S1x1024x1024x1_0_1_2_3
        (broadcastInDim S1x1x1x1 ![3] bcast_S1_S1x1x1x1_3 (constantI S1 32 135#32)))))
    (constantI S_ 1 1#1) reducesTo_S1x1024x1024x1_S1x1024x1024_d3 h_S_
/-- One table lookup per pair: the row the index names, or a not-a-number where the index is outside the table. -/
def takeF (W : FVec F S136x128 .f32) (idx : IVec S1x1024x1024 32) : FVec F S1x1024x1024x128 .f32 :=
  select (broadcastInDim S1x1024x1024x128 ![0, 1, 2] bcast_S1x1024x1024_S1x1024x1024x128_0_1_2 (inTable (wrapIdx idx)))
    (Host.gather gather_S136x128_S1x1024x1024x1_S1x1024x1024x128_3_0_n_n_0_3_1128 W (wrapIdx idx))
    (broadcastInDim S1x1024x1024x128 ![] bcast_S_S1x1024x1024x128 (constant S_ .f32 0x7FC00000#32))

/-- "The two tokens differ in chain". -/
def offChain (a0 : IVec S1x1024 32) : IVec S1x1024x1024 1 := noti (cmpi .eq (overJ a0) (overI a0))

/-- The residue, token and chain bins of every pair. -/
def resIdx (a0 a1 : IVec S1x1024 32) : IVec S1x1024x1024 32 :=
  whereF (offChain a0) (clipF (addi (subi (overJ a1) (overI a1)) (splat 32#32)) (constantI S_ 32 0#32) (constantI S_ 32 64#32)) (constantI S_ 32 64#32)
def tokIdx (a0 a1 a3 : IVec S1x1024 32) : IVec S1x1024x1024 32 :=
  whereF (andi (noti (cmpi .eq (overJ a1) (overI a1))) (offChain a0))
    (clipF (addi (subi (overJ a3) (overI a3)) (splat 32#32)) (constantI S_ 32 0#32) (constantI S_ 32 64#32)) (constantI S_ 32 64#32)
def chIdx (a0 a4 : IVec S1x1024 32) : IVec S1x1024x1024 32 :=
  whereF (offChain a0) (clipF (addi (subi (overJ a4) (overI a4)) (splat 2#32)) (constantI S_ 32 0#32) (constantI S_ 32 4#32)) (constantI S_ 32 4#32)

/-- The same-entity bit as a number, times table row 130, over all pairs and channels. -/
def entTerm (a2 : IVec S1x1024 32) (W : FVec F S136x128 .f32) : FVec F S1x1024x1024x128 .f32 :=
  mulf
    (broadcastInDim S1x1024x1024x128 ![0, 1, 2, 3] bcast_S1x1024x1024x1_S1x1024x1024x128_0_1_2_3
      (uitofp .f32 (broadcastInDim S1x1024x1024x1 ![0, 1, 2] bcast_S1x1024x1024_S1x1024x1024x1_0_1_2 (cmpi .eq (overJ a2) (overI a2)))))
    (broadcastInDim S1x1024x1024x128 ![0, 1, 2, 3] bcast_S1x1x1x128_S1x1024x1024x128_0_1_2_3
      (broadcastInDim S1x1x1x128 ![3] bcast_S128_S1x1x1x128_3
        (shapeCast S128 (extractStridedSlice S1x128 ![130, 0] W slices_S136x128_S1x128_130_0) shapeCasts_S1x128_S128)))

/-- THE REFERENCE'S RESULT as a function of its six arguments, stage by stage as the program computes it. -/
def refOut (a0 a1 a2 a3 a4 : IVec S1x1024 32) (W : FVec F S136x128 .f32) : FVec F S1x1024x1024x128 .f32 :=
  addf (addf (addf (takeF W (resIdx a0 a1)) (takeF W (addi (splat 65#32) (tokIdx a0 a1 a3)))) (entTerm a2 W))
    (takeF W (addi (splat 131#32) (chIdx a0 a4)))

end Cert.ReferenceIdeal.RefValue

end
-- ==== Proof.RefRun.lean ====
/-
  The reference program's run: it is a straight line of host operations (its outlined functions written out at their
  call sites), so every execution terminates with each buffer at the composition of the operations' results. Its last
  buffer is the function `refOut` of the arguments, and no operation writes an argument.
-/
import proofs.«430765_j18373870092380_3_alg».proof.Proof.Gen.ReferenceIdeal
import proofs.«430765_j18373870092380_3_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 160 operations in program order, each call's body written out at its call site over that call's
    buffers: `clip(x, lo, hi)` is five (the lower bound converted to its own type, its broadcast, the larger of it and
    `x`, the upper bound's broadcast, the smaller of it and that); `_where(c, x, y)` two (the scalar's broadcast, the
    select); `_take(W, idx)` twenty-three (the zero and its broadcast, the sign test, the table length and its broadcast,
    the sum, `_where_0`'s one select, the start-index array, the bounds 135 and 0 and their broadcasts, the two
    comparisons and their conjunction, the reduction over the one index component, the gather, the mask's broadcast, the
    not-a-number and its broadcast, the select). -/
abbrev ops : List (HloOp τ sig (Elt F)) :=
  [ StableHlo.unary main_arg0 main_v0 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg0 main_v1 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v0 main_v2 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v1 main_v3 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v2 main_v3 main_v4 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg1 main_v5 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg1 main_v6 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v5 main_v7 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v6 main_v8 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v7 main_v8 main_v9 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg2 main_v10 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg2 main_v11 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v10 main_v12 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v11 main_v13 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v12 main_v13 main_v14 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg1 main_v15 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg1 main_v16 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v15 main_v17 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v16 main_v18 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v17 main_v18 main_v19 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c (constantI S_ 32 32#32),
    StableHlo.unary main_c main_v20 (broadcastInDim S1x1024x1024 ![] bcast_S_S1x1024x1024 : (⟨S_, .i32⟩ : BufTy).Contents (Elt F) → (⟨S1x1024x1024, .i32⟩ : BufTy).Contents (Elt F)),
    StableHlo.binary main_v19 main_v20 main_v21 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v4 main_v22 (noti : (⟨S1x1024x1024, .i1⟩ : BufTy).Contents (Elt F) → (⟨S1x1024x1024, .i1⟩ : BufTy).Contents (Elt F)),
    StableHlo.nullary main_c_0 (constantI S_ 32 0#32),
    StableHlo.nullary main_c_1 (constantI S_ 32 64#32),
    StableHlo.TRef.unary (.of main_c_0 : TRef sig ⟨S_, .i32⟩) main_call0.v0 id,
    StableHlo.TRef.unary main_call0.v0 main_call0.v1 (broadcastInDim S1x1024x1024 ![] bcast_S_S1x1024x1024),
    StableHlo.TRef.binary main_call0.v1 (.of main_v21 : TRef sig ⟨S1x1024x1024, .i32⟩) main_call0.v2 maxsi,
    StableHlo.TRef.unary (.of main_c_1 : TRef sig ⟨S_, .i32⟩) main_call0.v3 (broadcastInDim S1x1024x1024 ![] bcast_S_S1x1024x1024),
    StableHlo.TRef.binary main_call0.v3 main_call0.v2 main_call0.v4 minsi,
    StableHlo.nullary main_c_2 (constantI S_ 32 64#32),
    StableHlo.TRef.unary (.of main_c_2 : TRef sig ⟨S_, .i32⟩) main_call1.v0 (broadcastInDim S1x1024x1024 ![] bcast_S_S1x1024x1024),
    StableHlo.TRef.ternary (.of main_v22 : TRef sig ⟨S1x1024x1024, .i1⟩) (.of main_v23 : TRef sig ⟨S1x1024x1024, .i32⟩) main_call1.v0 main_call1.v1 select,
    StableHlo.unary main_arg3 main_v25 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg3 main_v26 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v25 main_v27 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v26 main_v28 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v27 main_v28 main_v29 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_3 (constantI S_ 32 32#32),
    StableHlo.unary main_c_3 main_v30 (broadcastInDim S1x1024x1024 ![] bcast_S_S1x1024x1024 : (⟨S_, .i32⟩ : BufTy).Contents (Elt F) → (⟨S1x1024x1024, .i32⟩ : BufTy).Contents (Elt F)),
    StableHlo.binary main_v29 main_v30 main_v31 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v9 main_v32 (noti : (⟨S1x1024x1024, .i1⟩ : BufTy).Contents (Elt F) → (⟨S1x1024x1024, .i1⟩ : BufTy).Contents (Elt F)),
    StableHlo.unary main_v4 main_v33 (noti : (⟨S1x1024x1024, .i1⟩ : BufTy).Contents (Elt F) → (⟨S1x1024x1024, .i1⟩ : BufTy).Contents (Elt F)),
    StableHlo.binary main_v32 main_v33 main_v34 (andi : (⟨S1x1024x1024, .i1⟩ : BufTy).Contents (Elt F) → (⟨S1x1024x1024, .i1⟩ : BufTy).Contents (Elt F) → (⟨S1x1024x1024, .i1⟩ : BufTy).Contents (Elt F)),
    StableHlo.nullary main_c_4 (constantI S_ 32 0#32),
    StableHlo.nullary main_c_5 (constantI S_ 32 64#32),
    StableHlo.TRef.unary (.of main_c_4 : TRef sig ⟨S_, .i32⟩) main_call2.v0 id,
    StableHlo.TRef.unary main_call2.v0 main_call2.v1 (broadcastInDim S1x1024x1024 ![] bcast_S_S1x1024x1024),
    StableHlo.TRef.binary main_call2.v1 (.of main_v31 : TRef sig ⟨S1x1024x1024, .i32⟩) main_call2.v2 maxsi,
    StableHlo.TRef.unary (.of main_c_5 : TRef sig ⟨S_, .i32⟩) main_call2.v3 (broadcastInDim S1x1024x1024 ![] bcast_S_S1x1024x1024),
    StableHlo.TRef.binary main_call2.v3 main_call2.v2 main_call2.v4 minsi,
    StableHlo.nullary main_c_6 (constantI S_ 32 64#32),
    StableHlo.TRef.unary (.of main_c_6 : TRef sig ⟨S_, .i32⟩) main_call3.v0 (broadcastInDim S1x1024x1024 ![] bcast_S_S1x1024x1024),
    StableHlo.TRef.ternary (.of main_v34 : TRef sig ⟨S1x1024x1024, .i1⟩) (.of main_v35 : TRef sig ⟨S1x1024x1024, .i32⟩) main_call3.v0 main_call3.v1 select,
    StableHlo.unary main_arg4 main_v37 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg4 main_v38 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v37 main_v39 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v38 main_v40 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v39 main_v40 main_v41 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_7 (constantI S_ 32 2#32),
    StableHlo.unary main_c_7 main_v42 (broadcastInDim S1x1024x1024 ![] bcast_S_S1x1024x1024 : (⟨S_, .i32⟩ : BufTy).Contents (Elt F) → (⟨S1x1024x1024, .i32⟩ : BufTy).Contents (Elt F)),
    StableHlo.binary main_v41 main_v42 main_v43 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v4 main_v44 (noti : (⟨S1x1024x1024, .i1⟩ : BufTy).Contents (Elt F) → (⟨S1x1024x1024, .i1⟩ : BufTy).Contents (Elt F)),
    StableHlo.nullary main_c_8 (constantI S_ 32 0#32),
    StableHlo.nullary main_c_9 (constantI S_ 32 4#32),
    StableHlo.TRef.unary (.of main_c_8 : TRef sig ⟨S_, .i32⟩) main_call4.v0 id,
    StableHlo.TRef.unary main_call4.v0 main_call4.v1 (broadcastInDim S1x1024x1024 ![] bcast_S_S1x1024x1024),
    StableHlo.TRef.binary main_call4.v1 (.of main_v43 : TRef sig ⟨S1x1024x1024, .i32⟩) main_call4.v2 maxsi,
    StableHlo.TRef.unary (.of main_c_9 : TRef sig ⟨S_, .i32⟩) main_call4.v3 (broadcastInDim S1x1024x1024 ![] bcast_S_S1x1024x1024),
    StableHlo.TRef.binary main_call4.v3 main_call4.v2 main_call4.v4 minsi,
    StableHlo.nullary main_c_10 (constantI S_ 32 4#32),
    StableHlo.TRef.unary (.of main_c_10 : TRef sig ⟨S_, .i32⟩) main_call5.v0 (broadcastInDim S1x1024x1024 ![] bcast_S_S1x1024x1024),
    StableHlo.TRef.ternary (.of main_v44 : TRef sig ⟨S1x1024x1024, .i1⟩) (.of main_v45 : TRef sig ⟨S1x1024x1024, .i32⟩) main_call5.v0 main_call5.v1 select,
    StableHlo.TRef.nullary main_call6.c (constantI S_ 32 0#32),
    StableHlo.TRef.unary main_call6.c main_call6.v0 (broadcastInDim S1x1024x1024 ![] bcast_S_S1x1024x1024),
    StableHlo.TRef.binary (.of main_v24 : TRef sig ⟨S1x1024x1024, .i32⟩) main_call6.v0 main_call6.v1 (cmpi .slt),
    StableHlo.TRef.nullary main_call6.c_0 (constantI S_ 32 136#32),
    StableHlo.TRef.unary main_call6.c_0 main_call6.v2 (broadcastInDim S1x1024x1024 ![] bcast_S_S1x1024x1024),
    StableHlo.TRef.binary (.of main_v24 : TRef sig ⟨S1x1024x1024, .i32⟩) main_call6.v2 main_call6.v3 addi,
    StableHlo.TRef.ternary main_call6.v1 main_call6.v3 (.of main_v24 : TRef sig ⟨S1x1024x1024, .i32⟩) main_call6.call0.v0 select,
    StableHlo.TRef.unary main_call6.call0.v0 main_call6.v5 (broadcastInDim S1x1024x1024x1 ![0, 1, 2] bcast_S1x1024x1024_S1x1024x1024x1_0_1_2),
    StableHlo.TRef.nullary main_call6.c_1 (constantI S1 32 135#32),
    StableHlo.TRef.nullary main_call6.c_2 (constantI S_ 32 0#32),
    StableHlo.TRef.unary main_call6.c_2 main_call6.v6 (broadcastInDim S1x1024x1024x1 ![] bcast_S_S1x1024x1024x1),
    StableHlo.TRef.binary main_call6.v5 main_call6.v6 main_call6.v7 (cmpi .sge),
    StableHlo.TRef.unary main_call6.c_1 main_call6.v8 (broadcastInDim S1x1x1x1 ![3] bcast_S1_S1x1x1x1_3),
    StableHlo.TRef.unary main_call6.v8 main_call6.v9 (broadcastInDim S1x1024x1024x1 ![0, 1, 2, 3] bcast_S1x1x1x1_S1x1024x1024x1_0_1_2_3),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1x1024x1024x1_S1x1024x1024_d3 h_S_),
    StableHlo.TRef.binary (.of main_arg5 : TRef sig ⟨S136x128, .f32⟩) main_call6.v5 main_call6.v13 (fun x i => Host.gather gather_S136x128_S1x1024x1024x1_S1x1024x1024x128_3_0_n_n_0_3_1128 x i),
    StableHlo.TRef.unary main_call6.v12 main_call6.v14 (broadcastInDim S1x1024x1024x128 ![0, 1, 2] bcast_S1x1024x1024_S1x1024x1024x128_0_1_2),
    StableHlo.TRef.nullary main_call6.cst (constant S_ .f32 0x7FC00000#32),
    StableHlo.TRef.unary main_call6.cst main_call6.v15 (broadcastInDim S1x1024x1024x128 ![] bcast_S_S1x1024x1024x128),
    StableHlo.TRef.ternary main_call6.v14 main_call6.v13 main_call6.v15 main_call6.v16 select,
    StableHlo.nullary main_c_11 (constantI S_ 32 65#32),
    StableHlo.unary main_c_11 main_v48 (broadcastInDim S1x1024x1024 ![] bcast_S_S1x1024x1024 : (⟨S_, .i32⟩ : BufTy).Contents (Elt F) → (⟨S1x1024x1024, .i32⟩ : BufTy).Contents (Elt F)),
    StableHlo.binary main_v48 main_v36 main_v49 (addi : (⟨S1x1024x1024, .i32⟩ : BufTy).Contents (Elt F) → (⟨S1x1024x1024, .i32⟩ : BufTy).Contents (Elt F) → (⟨S1x1024x1024, .i32⟩ : BufTy).Contents (Elt F)),
    StableHlo.TRef.nullary main_call7.c (constantI S_ 32 0#32),
    StableHlo.TRef.unary main_call7.c main_call7.v0 (broadcastInDim S1x1024x1024 ![] bcast_S_S1x1024x1024),
    StableHlo.TRef.binary (.of main_v49 : TRef sig ⟨S1x1024x1024, .i32⟩) main_call7.v0 main_call7.v1 (cmpi .slt),
    StableHlo.TRef.nullary main_call7.c_0 (constantI S_ 32 136#32),
    StableHlo.TRef.unary main_call7.c_0 main_call7.v2 (broadcastInDim S1x1024x1024 ![] bcast_S_S1x1024x1024),
    StableHlo.TRef.binary (.of main_v49 : TRef sig ⟨S1x1024x1024, .i32⟩) main_call7.v2 main_call7.v3 addi,
    StableHlo.TRef.ternary main_call7.v1 main_call7.v3 (.of main_v49 : TRef sig ⟨S1x1024x1024, .i32⟩) main_call7.call0.v0 select,
    StableHlo.TRef.unary main_call7.call0.v0 main_call7.v5 (broadcastInDim S1x1024x1024x1 ![0, 1, 2] bcast_S1x1024x1024_S1x1024x1024x1_0_1_2),
    StableHlo.TRef.nullary main_call7.c_1 (constantI S1 32 135#32),
    StableHlo.TRef.nullary main_call7.c_2 (constantI S_ 32 0#32),
    StableHlo.TRef.unary main_call7.c_2 main_call7.v6 (broadcastInDim S1x1024x1024x1 ![] bcast_S_S1x1024x1024x1),
    StableHlo.TRef.binary main_call7.v5 main_call7.v6 main_call7.v7 (cmpi .sge),
    StableHlo.TRef.unary main_call7.c_1 main_call7.v8 (broadcastInDim S1x1x1x1 ![3] bcast_S1_S1x1x1x1_3),
    StableHlo.TRef.unary main_call7.v8 main_call7.v9 (broadcastInDim S1x1024x1024x1 ![0, 1, 2, 3] bcast_S1x1x1x1_S1x1024x1024x1_0_1_2_3),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S1x1024x1024x1_S1x1024x1024_d3 h_S_),
    StableHlo.TRef.binary (.of main_arg5 : TRef sig ⟨S136x128, .f32⟩) main_call7.v5 main_call7.v13 (fun x i => Host.gather gather_S136x128_S1x1024x1024x1_S1x1024x1024x128_3_0_n_n_0_3_1128 x i),
    StableHlo.TRef.unary main_call7.v12 main_call7.v14 (broadcastInDim S1x1024x1024x128 ![0, 1, 2] bcast_S1x1024x1024_S1x1024x1024x128_0_1_2),
    StableHlo.TRef.nullary main_call7.cst (constant S_ .f32 0x7FC00000#32),
    StableHlo.TRef.unary main_call7.cst main_call7.v15 (broadcastInDim S1x1024x1024x128 ![] bcast_S_S1x1024x1024x128),
    StableHlo.TRef.ternary main_call7.v14 main_call7.v13 main_call7.v15 main_call7.v16 select,
    StableHlo.binary main_v47 main_v50 main_v51 (addf : (⟨S1x1024x1024x128, .f32⟩ : BufTy).Contents (Elt F) → (⟨S1x1024x1024x128, .f32⟩ : BufTy).Contents (Elt F) → (⟨S1x1024x1024x128, .f32⟩ : BufTy).Contents (Elt F)),
    StableHlo.unary main_v14 main_v52 (broadcastInDim S1x1024x1024x1 ![0, 1, 2] bcast_S1x1024x1024_S1x1024x1024x1_0_1_2 : (⟨S1x1024x1024, .i1⟩ : BufTy).Contents (Elt F) → (⟨S1x1024x1024x1, .i1⟩ : BufTy).Contents (Elt F)),
    StableHlo.unary main_v52 main_v53 (uitofp .f32 : (⟨S1x1024x1024x1, .i1⟩ : BufTy).Contents (Elt F) → (⟨S1x1024x1024x1, .f32⟩ : BufTy).Contents (Elt F)),
    StableHlo.unary main_arg5 main_v54 ((extractStridedSlice S1x128 ![130, 0] · slices_S136x128_S1x128_130_0) : (⟨S136x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x1x1x128 ![3] bcast_S128_S1x1x1x128_3 : (⟨S128, .f32⟩ : BufTy).Contents (Elt F) → (⟨S1x1x1x128, .f32⟩ : BufTy).Contents (Elt F)),
    StableHlo.unary main_v53 main_v57 (broadcastInDim S1x1024x1024x128 ![0, 1, 2, 3] bcast_S1x1024x1024x1_S1x1024x1024x128_0_1_2_3 : (⟨S1x1024x1024x1, .f32⟩ : BufTy).Contents (Elt F) → (⟨S1x1024x1024x128, .f32⟩ : BufTy).Contents (Elt F)),
    StableHlo.unary main_v56 main_v58 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    StableHlo.binary main_v57 main_v58 main_v59 (mulf : (⟨S1x1024x1024x128, .f32⟩ : BufTy).Contents (Elt F) → (⟨S1x1024x1024x128, .f32⟩ : BufTy).Contents (Elt F) → (⟨S1x1024x1024x128, .f32⟩ : BufTy).Contents (Elt F)),
    StableHlo.binary main_v51 main_v59 main_v60 (addf : (⟨S1x1024x1024x128, .f32⟩ : BufTy).Contents (Elt F) → (⟨S1x1024x1024x128, .f32⟩ : BufTy).Contents (Elt F) → (⟨S1x1024x1024x128, .f32⟩ : BufTy).Contents (Elt F)),
    StableHlo.nullary main_c_12 (constantI S_ 32 131#32),
    StableHlo.unary main_c_12 main_v61 (broadcastInDim S1x1024x1024 ![] bcast_S_S1x1024x1024 : (⟨S_, .i32⟩ : BufTy).Contents (Elt F) → (⟨S1x1024x1024, .i32⟩ : BufTy).Contents (Elt F)),
    StableHlo.binary main_v61 main_v46 main_v62 (addi : (⟨S1x1024x1024, .i32⟩ : BufTy).Contents (Elt F) → (⟨S1x1024x1024, .i32⟩ : BufTy).Contents (Elt F) → (⟨S1x1024x1024, .i32⟩ : BufTy).Contents (Elt F)),
    StableHlo.TRef.nullary main_call8.c (constantI S_ 32 0#32),
    StableHlo.TRef.unary main_call8.c main_call8.v0 (broadcastInDim S1x1024x1024 ![] bcast_S_S1x1024x1024),
    StableHlo.TRef.binary (.of main_v62 : TRef sig ⟨S1x1024x1024, .i32⟩) main_call8.v0 main_call8.v1 (cmpi .slt),
    StableHlo.TRef.nullary main_call8.c_0 (constantI S_ 32 136#32),
    StableHlo.TRef.unary main_call8.c_0 main_call8.v2 (broadcastInDim S1x1024x1024 ![] bcast_S_S1x1024x1024),
    StableHlo.TRef.binary (.of main_v62 : TRef sig ⟨S1x1024x1024, .i32⟩) main_call8.v2 main_call8.v3 addi,
    StableHlo.TRef.ternary main_call8.v1 main_call8.v3 (.of main_v62 : TRef sig ⟨S1x1024x1024, .i32⟩) main_call8.call0.v0 select,
    StableHlo.TRef.unary main_call8.call0.v0 main_call8.v5 (broadcastInDim S1x1024x1024x1 ![0, 1, 2] bcast_S1x1024x1024_S1x1024x1024x1_0_1_2),
    StableHlo.TRef.nullary main_call8.c_1 (constantI S1 32 135#32),
    StableHlo.TRef.nullary main_call8.c_2 (constantI S_ 32 0#32),
    StableHlo.TRef.unary main_call8.c_2 main_call8.v6 (broadcastInDim S1x1024x1024x1 ![] bcast_S_S1x1024x1024x1),
    StableHlo.TRef.binary main_call8.v5 main_call8.v6 main_call8.v7 (cmpi .sge),
    StableHlo.TRef.unary main_call8.c_1 main_call8.v8 (broadcastInDim S1x1x1x1 ![3] bcast_S1_S1x1x1x1_3),
    StableHlo.TRef.unary main_call8.v8 main_call8.v9 (broadcastInDim S1x1024x1024x1 ![0, 1, 2, 3] bcast_S1x1x1x1_S1x1024x1024x1_0_1_2_3),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1x1024x1024x1_S1x1024x1024_d3 h_S_),
    StableHlo.TRef.binary (.of main_arg5 : TRef sig ⟨S136x128, .f32⟩) main_call8.v5 main_call8.v13 (fun x i => Host.gather gather_S136x128_S1x1024x1024x1_S1x1024x1024x128_3_0_n_n_0_3_1128 x i),
    StableHlo.TRef.unary main_call8.v12 main_call8.v14 (broadcastInDim S1x1024x1024x128 ![0, 1, 2] bcast_S1x1024x1024_S1x1024x1024x128_0_1_2),
    StableHlo.TRef.nullary main_call8.cst (constant S_ .f32 0x7FC00000#32),
    StableHlo.TRef.unary main_call8.cst main_call8.v15 (broadcastInDim S1x1024x1024x128 ![] bcast_S_S1x1024x1024x128),
    StableHlo.TRef.ternary main_call8.v14 main_call8.v13 main_call8.v15 main_call8.v16 select,
    StableHlo.binary main_v60 main_v63 main_v64 (addf : (⟨S1x1024x1024x128, .f32⟩ : BufTy).Contents (Elt F) → (⟨S1x1024x1024x128, .f32⟩ : BufTy).Contents (Elt F) → (⟨S1x1024x1024x128, .f32⟩ : BufTy).Contents (Elt F)) ]

set_option maxRecDepth 4096 in
/-- The reference is that straight line: the windows' and the functions' definitions unfolded at their calls and the
    records at their fields, both sides are one chain of steps once sequencing is reassociated. -/
theorem main_eq (c : Dev nD) : main (F := F) c = seq ops := by
  simp only [main, main_part0, main_part1, fn_clip.body, fn_where.body, fn_where_0.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., binary_bufs_sub .., nullary_bufs_sub .., unary_bufs_sub .., ternary_bufs_sub .., unary_bufs_sub .., unary_bufs_sub .., unary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., binary_bufs_sub .., nullary_bufs_sub .., unary_bufs_sub .., ternary_bufs_sub .., unary_bufs_sub .., unary_bufs_sub .., unary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., unary_bufs_sub .., reshape_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-! ### The line in seven consecutive windows

`w0`: the three pairs of bins (operations 1 … 74); `w1`: the first lookup; `w2`: the second index; `w3`: the second
lookup; `w4`: the sum of the two rows, the same-entity term added, the third index; `w5`: the third lookup; `w6`: the last
sum. Over any contents `V` each window's effect on the few buffers that cross it is a small term: a stage function of
Proof/RefStages.lean at the buffers the window reads, or `V` itself at a buffer the window does not write. -/

private abbrev w0 : List (HloOp τ sig (Elt F)) :=
  [ StableHlo.unary main_arg0 main_v0 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg0 main_v1 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v0 main_v2 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v1 main_v3 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v2 main_v3 main_v4 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg1 main_v5 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg1 main_v6 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v5 main_v7 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v6 main_v8 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v7 main_v8 main_v9 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg2 main_v10 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg2 main_v11 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v10 main_v12 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v11 main_v13 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v12 main_v13 main_v14 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_arg1 main_v15 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg1 main_v16 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v15 main_v17 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v16 main_v18 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v17 main_v18 main_v19 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c (constantI S_ 32 32#32),
    StableHlo.unary main_c main_v20 (broadcastInDim S1x1024x1024 ![] bcast_S_S1x1024x1024 : (⟨S_, .i32⟩ : BufTy).Contents (Elt F) → (⟨S1x1024x1024, .i32⟩ : BufTy).Contents (Elt F)),
    StableHlo.binary main_v19 main_v20 main_v21 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v4 main_v22 (noti : (⟨S1x1024x1024, .i1⟩ : BufTy).Contents (Elt F) → (⟨S1x1024x1024, .i1⟩ : BufTy).Contents (Elt F)),
    StableHlo.nullary main_c_0 (constantI S_ 32 0#32),
    StableHlo.nullary main_c_1 (constantI S_ 32 64#32),
    StableHlo.TRef.unary (.of main_c_0 : TRef sig ⟨S_, .i32⟩) main_call0.v0 id,
    StableHlo.TRef.unary main_call0.v0 main_call0.v1 (broadcastInDim S1x1024x1024 ![] bcast_S_S1x1024x1024),
    StableHlo.TRef.binary main_call0.v1 (.of main_v21 : TRef sig ⟨S1x1024x1024, .i32⟩) main_call0.v2 maxsi,
    StableHlo.TRef.unary (.of main_c_1 : TRef sig ⟨S_, .i32⟩) main_call0.v3 (broadcastInDim S1x1024x1024 ![] bcast_S_S1x1024x1024),
    StableHlo.TRef.binary main_call0.v3 main_call0.v2 main_call0.v4 minsi,
    StableHlo.nullary main_c_2 (constantI S_ 32 64#32),
    StableHlo.TRef.unary (.of main_c_2 : TRef sig ⟨S_, .i32⟩) main_call1.v0 (broadcastInDim S1x1024x1024 ![] bcast_S_S1x1024x1024),
    StableHlo.TRef.ternary (.of main_v22 : TRef sig ⟨S1x1024x1024, .i1⟩) (.of main_v23 : TRef sig ⟨S1x1024x1024, .i32⟩) main_call1.v0 main_call1.v1 select,
    StableHlo.unary main_arg3 main_v25 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg3 main_v26 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v25 main_v27 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v26 main_v28 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v27 main_v28 main_v29 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_3 (constantI S_ 32 32#32),
    StableHlo.unary main_c_3 main_v30 (broadcastInDim S1x1024x1024 ![] bcast_S_S1x1024x1024 : (⟨S_, .i32⟩ : BufTy).Contents (Elt F) → (⟨S1x1024x1024, .i32⟩ : BufTy).Contents (Elt F)),
    StableHlo.binary main_v29 main_v30 main_v31 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v9 main_v32 (noti : (⟨S1x1024x1024, .i1⟩ : BufTy).Contents (Elt F) → (⟨S1x1024x1024, .i1⟩ : BufTy).Contents (Elt F)),
    StableHlo.unary main_v4 main_v33 (noti : (⟨S1x1024x1024, .i1⟩ : BufTy).Contents (Elt F) → (⟨S1x1024x1024, .i1⟩ : BufTy).Contents (Elt F)),
    StableHlo.binary main_v32 main_v33 main_v34 (andi : (⟨S1x1024x1024, .i1⟩ : BufTy).Contents (Elt F) → (⟨S1x1024x1024, .i1⟩ : BufTy).Contents (Elt F) → (⟨S1x1024x1024, .i1⟩ : BufTy).Contents (Elt F)),
    StableHlo.nullary main_c_4 (constantI S_ 32 0#32),
    StableHlo.nullary main_c_5 (constantI S_ 32 64#32),
    StableHlo.TRef.unary (.of main_c_4 : TRef sig ⟨S_, .i32⟩) main_call2.v0 id,
    StableHlo.TRef.unary main_call2.v0 main_call2.v1 (broadcastInDim S1x1024x1024 ![] bcast_S_S1x1024x1024),
    StableHlo.TRef.binary main_call2.v1 (.of main_v31 : TRef sig ⟨S1x1024x1024, .i32⟩) main_call2.v2 maxsi,
    StableHlo.TRef.unary (.of main_c_5 : TRef sig ⟨S_, .i32⟩) main_call2.v3 (broadcastInDim S1x1024x1024 ![] bcast_S_S1x1024x1024),
    StableHlo.TRef.binary main_call2.v3 main_call2.v2 main_call2.v4 minsi,
    StableHlo.nullary main_c_6 (constantI S_ 32 64#32),
    StableHlo.TRef.unary (.of main_c_6 : TRef sig ⟨S_, .i32⟩) main_call3.v0 (broadcastInDim S1x1024x1024 ![] bcast_S_S1x1024x1024),
    StableHlo.TRef.ternary (.of main_v34 : TRef sig ⟨S1x1024x1024, .i1⟩) (.of main_v35 : TRef sig ⟨S1x1024x1024, .i32⟩) main_call3.v0 main_call3.v1 select,
    StableHlo.unary main_arg4 main_v37 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg4 main_v38 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_v37 main_v39 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v38 main_v40 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v39 main_v40 main_v41 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_7 (constantI S_ 32 2#32),
    StableHlo.unary main_c_7 main_v42 (broadcastInDim S1x1024x1024 ![] bcast_S_S1x1024x1024 : (⟨S_, .i32⟩ : BufTy).Contents (Elt F) → (⟨S1x1024x1024, .i32⟩ : BufTy).Contents (Elt F)),
    StableHlo.binary main_v41 main_v42 main_v43 (addi : (⟨S1x1024x1024, .i32⟩ : BufTy).Contents (Elt F) → (⟨S1x1024x1024, .i32⟩ : BufTy).Contents (Elt F) → (⟨S1x1024x1024, .i32⟩ : BufTy).Contents (Elt F)),
    StableHlo.unary main_v4 main_v44 (noti : (⟨S1x1024x1024, .i1⟩ : BufTy).Contents (Elt F) → (⟨S1x1024x1024, .i1⟩ : BufTy).Contents (Elt F)),
    StableHlo.nullary main_c_8 (constantI S_ 32 0#32),
    StableHlo.nullary main_c_9 (constantI S_ 32 4#32),
    StableHlo.TRef.unary (.of main_c_8 : TRef sig ⟨S_, .i32⟩) main_call4.v0 id,
    StableHlo.TRef.unary main_call4.v0 main_call4.v1 (broadcastInDim S1x1024x1024 ![] bcast_S_S1x1024x1024),
    StableHlo.TRef.binary main_call4.v1 (.of main_v43 : TRef sig ⟨S1x1024x1024, .i32⟩) main_call4.v2 maxsi,
    StableHlo.TRef.unary (.of main_c_9 : TRef sig ⟨S_, .i32⟩) main_call4.v3 (broadcastInDim S1x1024x1024 ![] bcast_S_S1x1024x1024),
    StableHlo.TRef.binary main_call4.v3 main_call4.v2 main_call4.v4 minsi,
    StableHlo.nullary main_c_10 (constantI S_ 32 4#32),
    StableHlo.TRef.unary (.of main_c_10 : TRef sig ⟨S_, .i32⟩) main_call5.v0 (broadcastInDim S1x1024x1024 ![] bcast_S_S1x1024x1024),
    StableHlo.TRef.ternary (.of main_v44 : TRef sig ⟨S1x1024x1024, .i1⟩) (.of main_v45 : TRef sig ⟨S1x1024x1024, .i32⟩) main_call5.v0 main_call5.v1 select ]

private abbrev w1 : List (HloOp τ sig (Elt F)) :=
  [ StableHlo.TRef.nullary main_call6.c (constantI S_ 32 0#32),
    StableHlo.TRef.unary main_call6.c main_call6.v0 (broadcastInDim S1x1024x1024 ![] bcast_S_S1x1024x1024),
    StableHlo.TRef.binary (.of main_v24 : TRef sig ⟨S1x1024x1024, .i32⟩) main_call6.v0 main_call6.v1 (cmpi .slt),
    StableHlo.TRef.nullary main_call6.c_0 (constantI S_ 32 136#32),
    StableHlo.TRef.unary main_call6.c_0 main_call6.v2 (broadcastInDim S1x1024x1024 ![] bcast_S_S1x1024x1024),
    StableHlo.TRef.binary (.of main_v24 : TRef sig ⟨S1x1024x1024, .i32⟩) main_call6.v2 main_call6.v3 addi,
    StableHlo.TRef.ternary main_call6.v1 main_call6.v3 (.of main_v24 : TRef sig ⟨S1x1024x1024, .i32⟩) main_call6.call0.v0 select,
    StableHlo.TRef.unary main_call6.call0.v0 main_call6.v5 (broadcastInDim S1x1024x1024x1 ![0, 1, 2] bcast_S1x1024x1024_S1x1024x1024x1_0_1_2),
    StableHlo.TRef.nullary main_call6.c_1 (constantI S1 32 135#32),
    StableHlo.TRef.nullary main_call6.c_2 (constantI S_ 32 0#32),
    StableHlo.TRef.unary main_call6.c_2 main_call6.v6 (broadcastInDim S1x1024x1024x1 ![] bcast_S_S1x1024x1024x1),
    StableHlo.TRef.binary main_call6.v5 main_call6.v6 main_call6.v7 (cmpi .sge),
    StableHlo.TRef.unary main_call6.c_1 main_call6.v8 (broadcastInDim S1x1x1x1 ![3] bcast_S1_S1x1x1x1_3),
    StableHlo.TRef.unary main_call6.v8 main_call6.v9 (broadcastInDim S1x1024x1024x1 ![0, 1, 2, 3] bcast_S1x1x1x1_S1x1024x1024x1_0_1_2_3),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S1x1024x1024x1_S1x1024x1024_d3 h_S_),
    StableHlo.TRef.binary (.of main_arg5 : TRef sig ⟨S136x128, .f32⟩) main_call6.v5 main_call6.v13 (fun x i => Host.gather gather_S136x128_S1x1024x1024x1_S1x1024x1024x128_3_0_n_n_0_3_1128 x i),
    StableHlo.TRef.unary main_call6.v12 main_call6.v14 (broadcastInDim S1x1024x1024x128 ![0, 1, 2] bcast_S1x1024x1024_S1x1024x1024x128_0_1_2),
    StableHlo.TRef.nullary main_call6.cst (constant S_ .f32 0x7FC00000#32),
    StableHlo.TRef.unary main_call6.cst main_call6.v15 (broadcastInDim S1x1024x1024x128 ![] bcast_S_S1x1024x1024x128),
    StableHlo.TRef.ternary main_call6.v14 main_call6.v13 main_call6.v15 main_call6.v16 select ]

private abbrev w2 : List (HloOp τ sig (Elt F)) :=
  [ StableHlo.nullary main_c_11 (constantI S_ 32 65#32),
    StableHlo.unary main_c_11 main_v48 (broadcastInDim S1x1024x1024 ![] bcast_S_S1x1024x1024 : (⟨S_, .i32⟩ : BufTy).Contents (Elt F) → (⟨S1x1024x1024, .i32⟩ : BufTy).Contents (Elt F)),
    StableHlo.binary main_v48 main_v36 main_v49 (addi : (⟨S1x1024x1024, .i32⟩ : BufTy).Contents (Elt F) → (⟨S1x1024x1024, .i32⟩ : BufTy).Contents (Elt F) → (⟨S1x1024x1024, .i32⟩ : BufTy).Contents (Elt F)) ]

private abbrev w3 : List (HloOp τ sig (Elt F)) :=
  [ StableHlo.TRef.nullary main_call7.c (constantI S_ 32 0#32),
    StableHlo.TRef.unary main_call7.c main_call7.v0 (broadcastInDim S1x1024x1024 ![] bcast_S_S1x1024x1024),
    StableHlo.TRef.binary (.of main_v49 : TRef sig ⟨S1x1024x1024, .i32⟩) main_call7.v0 main_call7.v1 (cmpi .slt),
    StableHlo.TRef.nullary main_call7.c_0 (constantI S_ 32 136#32),
    StableHlo.TRef.unary main_call7.c_0 main_call7.v2 (broadcastInDim S1x1024x1024 ![] bcast_S_S1x1024x1024),
    StableHlo.TRef.binary (.of main_v49 : TRef sig ⟨S1x1024x1024, .i32⟩) main_call7.v2 main_call7.v3 addi,
    StableHlo.TRef.ternary main_call7.v1 main_call7.v3 (.of main_v49 : TRef sig ⟨S1x1024x1024, .i32⟩) main_call7.call0.v0 select,
    StableHlo.TRef.unary main_call7.call0.v0 main_call7.v5 (broadcastInDim S1x1024x1024x1 ![0, 1, 2] bcast_S1x1024x1024_S1x1024x1024x1_0_1_2),
    StableHlo.TRef.nullary main_call7.c_1 (constantI S1 32 135#32),
    StableHlo.TRef.nullary main_call7.c_2 (constantI S_ 32 0#32),
    StableHlo.TRef.unary main_call7.c_2 main_call7.v6 (broadcastInDim S1x1024x1024x1 ![] bcast_S_S1x1024x1024x1),
    StableHlo.TRef.binary main_call7.v5 main_call7.v6 main_call7.v7 (cmpi .sge),
    StableHlo.TRef.unary main_call7.c_1 main_call7.v8 (broadcastInDim S1x1x1x1 ![3] bcast_S1_S1x1x1x1_3),
    StableHlo.TRef.unary main_call7.v8 main_call7.v9 (broadcastInDim S1x1024x1024x1 ![0, 1, 2, 3] bcast_S1x1x1x1_S1x1024x1024x1_0_1_2_3),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S1x1024x1024x1_S1x1024x1024_d3 h_S_),
    StableHlo.TRef.binary (.of main_arg5 : TRef sig ⟨S136x128, .f32⟩) main_call7.v5 main_call7.v13 (fun x i => Host.gather gather_S136x128_S1x1024x1024x1_S1x1024x1024x128_3_0_n_n_0_3_1128 x i),
    StableHlo.TRef.unary main_call7.v12 main_call7.v14 (broadcastInDim S1x1024x1024x128 ![0, 1, 2] bcast_S1x1024x1024_S1x1024x1024x128_0_1_2),
    StableHlo.TRef.nullary main_call7.cst (constant S_ .f32 0x7FC00000#32),
    StableHlo.TRef.unary main_call7.cst main_call7.v15 (broadcastInDim S1x1024x1024x128 ![] bcast_S_S1x1024x1024x128),
    StableHlo.TRef.ternary main_call7.v14 main_call7.v13 main_call7.v15 main_call7.v16 select ]

private abbrev w4 : List (HloOp τ sig (Elt F)) :=
  [ StableHlo.binary main_v47 main_v50 main_v51 (addf : (⟨S1x1024x1024x128, .f32⟩ : BufTy).Contents (Elt F) → (⟨S1x1024x1024x128, .f32⟩ : BufTy).Contents (Elt F) → (⟨S1x1024x1024x128, .f32⟩ : BufTy).Contents (Elt F)),
    StableHlo.unary main_v14 main_v52 (broadcastInDim S1x1024x1024x1 ![0, 1, 2] bcast_S1x1024x1024_S1x1024x1024x1_0_1_2 : (⟨S1x1024x1024, .i1⟩ : BufTy).Contents (Elt F) → (⟨S1x1024x1024x1, .i1⟩ : BufTy).Contents (Elt F)),
    StableHlo.unary main_v52 main_v53 (uitofp .f32 : (⟨S1x1024x1024x1, .i1⟩ : BufTy).Contents (Elt F) → (⟨S1x1024x1024x1, .f32⟩ : BufTy).Contents (Elt F)),
    StableHlo.unary main_arg5 main_v54 ((extractStridedSlice S1x128 ![130, 0] · slices_S136x128_S1x128_130_0) : (⟨S136x128, .f32⟩ : BufTy).Contents (Elt F) → (⟨S1x128, .f32⟩ : BufTy).Contents (Elt F)),
    StableHlo.reshape main_v54 main_v55 rfl shapeCasts_S1x128_S128,
    StableHlo.unary main_v55 main_v56 (broadcastInDim S1x1x1x128 ![3] bcast_S128_S1x1x1x128_3 : (⟨S128, .f32⟩ : BufTy).Contents (Elt F) → (⟨S1x1x1x128, .f32⟩ : BufTy).Contents (Elt F)),
    StableHlo.unary main_v53 main_v57 (broadcastInDim S1x1024x1024x128 ![0, 1, 2, 3] bcast_S1x1024x1024x1_S1x1024x1024x128_0_1_2_3 : (⟨S1x1024x1024x1, .f32⟩ : BufTy).Contents (Elt F) → (⟨S1x1024x1024x128, .f32⟩ : BufTy).Contents (Elt F)),
    StableHlo.unary main_v56 main_v58 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    StableHlo.binary main_v57 main_v58 main_v59 (mulf : (⟨S1x1024x1024x128, .f32⟩ : BufTy).Contents (Elt F) → (⟨S1x1024x1024x128, .f32⟩ : BufTy).Contents (Elt F) → (⟨S1x1024x1024x128, .f32⟩ : BufTy).Contents (Elt F)),
    StableHlo.binary main_v51 main_v59 main_v60 (addf : (⟨S1x1024x1024x128, .f32⟩ : BufTy).Contents (Elt F) → (⟨S1x1024x1024x128, .f32⟩ : BufTy).Contents (Elt F) → (⟨S1x1024x1024x128, .f32⟩ : BufTy).Contents (Elt F)),
    StableHlo.nullary main_c_12 (constantI S_ 32 131#32),
    StableHlo.unary main_c_12 main_v61 (broadcastInDim S1x1024x1024 ![] bcast_S_S1x1024x1024 : (⟨S_, .i32⟩ : BufTy).Contents (Elt F) → (⟨S1x1024x1024, .i32⟩ : BufTy).Contents (Elt F)),
    StableHlo.binary main_v61 main_v46 main_v62 (addi : (⟨S1x1024x1024, .i32⟩ : BufTy).Contents (Elt F) → (⟨S1x1024x1024, .i32⟩ : BufTy).Contents (Elt F) → (⟨S1x1024x1024, .i32⟩ : BufTy).Contents (Elt F)) ]

private abbrev w5 : List (HloOp τ sig (Elt F)) :=
  [ StableHlo.TRef.nullary main_call8.c (constantI S_ 32 0#32),
    StableHlo.TRef.unary main_call8.c main_call8.v0 (broadcastInDim S1x1024x1024 ![] bcast_S_S1x1024x1024),
    StableHlo.TRef.binary (.of main_v62 : TRef sig ⟨S1x1024x1024, .i32⟩) main_call8.v0 main_call8.v1 (cmpi .slt),
    StableHlo.TRef.nullary main_call8.c_0 (constantI S_ 32 136#32),
    StableHlo.TRef.unary main_call8.c_0 main_call8.v2 (broadcastInDim S1x1024x1024 ![] bcast_S_S1x1024x1024),
    StableHlo.TRef.binary (.of main_v62 : TRef sig ⟨S1x1024x1024, .i32⟩) main_call8.v2 main_call8.v3 addi,
    StableHlo.TRef.ternary main_call8.v1 main_call8.v3 (.of main_v62 : TRef sig ⟨S1x1024x1024, .i32⟩) main_call8.call0.v0 select,
    StableHlo.TRef.unary main_call8.call0.v0 main_call8.v5 (broadcastInDim S1x1024x1024x1 ![0, 1, 2] bcast_S1x1024x1024_S1x1024x1024x1_0_1_2),
    StableHlo.TRef.nullary main_call8.c_1 (constantI S1 32 135#32),
    StableHlo.TRef.nullary main_call8.c_2 (constantI S_ 32 0#32),
    StableHlo.TRef.unary main_call8.c_2 main_call8.v6 (broadcastInDim S1x1024x1024x1 ![] bcast_S_S1x1024x1024x1),
    StableHlo.TRef.binary main_call8.v5 main_call8.v6 main_call8.v7 (cmpi .sge),
    StableHlo.TRef.unary main_call8.c_1 main_call8.v8 (broadcastInDim S1x1x1x1 ![3] bcast_S1_S1x1x1x1_3),
    StableHlo.TRef.unary main_call8.v8 main_call8.v9 (broadcastInDim S1x1024x1024x1 ![0, 1, 2, 3] bcast_S1x1x1x1_S1x1024x1024x1_0_1_2_3),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S1x1024x1024x1_S1x1024x1024_d3 h_S_),
    StableHlo.TRef.binary (.of main_arg5 : TRef sig ⟨S136x128, .f32⟩) main_call8.v5 main_call8.v13 (fun x i => Host.gather gather_S136x128_S1x1024x1024x1_S1x1024x1024x128_3_0_n_n_0_3_1128 x i),
    StableHlo.TRef.unary main_call8.v12 main_call8.v14 (broadcastInDim S1x1024x1024x128 ![0, 1, 2] bcast_S1x1024x1024_S1x1024x1024x128_0_1_2),
    StableHlo.TRef.nullary main_call8.cst (constant S_ .f32 0x7FC00000#32),
    StableHlo.TRef.unary main_call8.cst main_call8.v15 (broadcastInDim S1x1024x1024x128 ![] bcast_S_S1x1024x1024x128),
    StableHlo.TRef.ternary main_call8.v14 main_call8.v13 main_call8.v15 main_call8.v16 select ]

private abbrev w6 : List (HloOp τ sig (Elt F)) :=
  [ StableHlo.binary main_v60 main_v63 main_v64 (addf : (⟨S1x1024x1024x128, .f32⟩ : BufTy).Contents (Elt F) → (⟨S1x1024x1024x128, .f32⟩ : BufTy).Contents (Elt F) → (⟨S1x1024x1024x128, .f32⟩ : BufTy).Contents (Elt F)) ]

/-- The contents after two lines run one after the other: the second's from the first's. -/
private theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The line is its seven windows in order. -/
private theorem ops_split :
    (ops : List (HloOp τ sig (Elt F))) = w0 ++ (w1 ++ (w2 ++ (w3 ++ (w4 ++ (w5 ++ w6))))) := rfl

/-- Contents moved to a typed reference's buffer and back are themselves. -/
private theorem ofBuf_toBuf {T : BufTy} (x : TRef sig T) (v : T.Contents (Elt F)) : x.ofBuf (x.toBuf v) = v := by
  obtain ⟨r, h, _, _⟩ := x
  subst h
  rfl

set_option maxRecDepth 4096

private theorem w0_v24 (V : Valuation τ sig (Elt F)) :
    after w0 V (Proc.devRef (τ := τ) .tc main_v24)
      = RefValue.resIdx (V (Proc.devRef (τ := τ) .tc main_arg0)) (V (Proc.devRef (τ := τ) .tc main_arg1)) := by
  after_results_simp
  rfl

private theorem w0_v36 (V : Valuation τ sig (Elt F)) :
    after w0 V (Proc.devRef (τ := τ) .tc main_v36)
      = RefValue.tokIdx (V (Proc.devRef (τ := τ) .tc main_arg0)) (V (Proc.devRef (τ := τ) .tc main_arg1)) (V (Proc.devRef (τ := τ) .tc main_arg3)) := by
  after_results_simp
  rfl

private theorem w0_v46 (V : Valuation τ sig (Elt F)) :
    after w0 V (Proc.devRef (τ := τ) .tc main_v46)
      = RefValue.chIdx (V (Proc.devRef (τ := τ) .tc main_arg0)) (V (Proc.devRef (τ := τ) .tc main_arg4)) := by
  after_results_simp
  rfl

private theorem w0_v14 (V : Valuation τ sig (Elt F)) :
    after w0 V (Proc.devRef (τ := τ) .tc main_v14)
      = cmpi .eq (RefValue.overJ (V (Proc.devRef (τ := τ) .tc main_arg2))) (RefValue.overI (V (Proc.devRef (τ := τ) .tc main_arg2))) := by
  after_results_simp
  rfl

private theorem w0_arg5 (V : Valuation τ sig (Elt F)) :
    after w0 V (Proc.devRef (τ := τ) .tc main_arg5)
      = V (Proc.devRef (τ := τ) .tc main_arg5) := by
  after_results_simp

attribute [local irreducible] Host.reduce Host.gather in
private theorem w1_v47 (V : Valuation τ sig (Elt F)) :
    after w1 V (Proc.devRef (τ := τ) .tc main_v47)
      = RefValue.takeF (V (Proc.devRef (τ := τ) .tc main_arg5)) (V (Proc.devRef (τ := τ) .tc main_v24)) := by
  after_results_simp
  simp only [ofBuf_toBuf]
  unfold RefValue.takeF RefValue.inTable RefValue.wrapIdx
  rfl

private theorem w1_arg5 (V : Valuation τ sig (Elt F)) :
    after w1 V (Proc.devRef (τ := τ) .tc main_arg5)
      = V (Proc.devRef (τ := τ) .tc main_arg5) := by
  after_results_simp

private theorem w1_v14 (V : Valuation τ sig (Elt F)) :
    after w1 V (Proc.devRef (τ := τ) .tc main_v14)
      = V (Proc.devRef (τ := τ) .tc main_v14) := by
  after_results_simp

private theorem w1_v46 (V : Valuation τ sig (Elt F)) :
    after w1 V (Proc.devRef (τ := τ) .tc main_v46)
      = V (Proc.devRef (τ := τ) .tc main_v46) := by
  after_results_simp

private theorem w1_v36 (V : Valuation τ sig (Elt F)) :
    after w1 V (Proc.devRef (τ := τ) .tc main_v36)
      = V (Proc.devRef (τ := τ) .tc main_v36) := by
  after_results_simp

private theorem w2_v49 (V : Valuation τ sig (Elt F)) :
    after w2 V (Proc.devRef (τ := τ) .tc main_v49)
      = addi (RefValue.splat 65#32) (V (Proc.devRef (τ := τ) .tc main_v36)) := by
  after_results_simp
  rfl

private theorem w2_arg5 (V : Valuation τ sig (Elt F)) :
    after w2 V (Proc.devRef (τ := τ) .tc main_arg5)
      = V (Proc.devRef (τ := τ) .tc main_arg5) := by
  after_results_simp

private theorem w2_v47 (V : Valuation τ sig (Elt F)) :
    after w2 V (Proc.devRef (τ := τ) .tc main_v47)
      = V (Proc.devRef (τ := τ) .tc main_v47) := by
  after_results_simp

private theorem w2_v14 (V : Valuation τ sig (Elt F)) :
    after w2 V (Proc.devRef (τ := τ) .tc main_v14)
      = V (Proc.devRef (τ := τ) .tc main_v14) := by
  after_results_simp

private theorem w2_v46 (V : Valuation τ sig (Elt F)) :
    after w2 V (Proc.devRef (τ := τ) .tc main_v46)
      = V (Proc.devRef (τ := τ) .tc main_v46) := by
  after_results_simp

attribute [local irreducible] Host.reduce Host.gather in
private theorem w3_v50 (V : Valuation τ sig (Elt F)) :
    after w3 V (Proc.devRef (τ := τ) .tc main_v50)
      = RefValue.takeF (V (Proc.devRef (τ := τ) .tc main_arg5)) (V (Proc.devRef (τ := τ) .tc main_v49)) := by
  after_results_simp
  simp only [ofBuf_toBuf]
  unfold RefValue.takeF RefValue.inTable RefValue.wrapIdx
  rfl

private theorem w3_arg5 (V : Valuation τ sig (Elt F)) :
    after w3 V (Proc.devRef (τ := τ) .tc main_arg5)
      = V (Proc.devRef (τ := τ) .tc main_arg5) := by
  after_results_simp

private theorem w3_v47 (V : Valuation τ sig (Elt F)) :
    after w3 V (Proc.devRef (τ := τ) .tc main_v47)
      = V (Proc.devRef (τ := τ) .tc main_v47) := by
  after_results_simp

private theorem w3_v14 (V : Valuation τ sig (Elt F)) :
    after w3 V (Proc.devRef (τ := τ) .tc main_v14)
      = V (Proc.devRef (τ := τ) .tc main_v14) := by
  after_results_simp

private theorem w3_v46 (V : Valuation τ sig (Elt F)) :
    after w3 V (Proc.devRef (τ := τ) .tc main_v46)
      = V (Proc.devRef (τ := τ) .tc main_v46) := by
  after_results_simp

private theorem w4_v60 (V : Valuation τ sig (Elt F)) :
    after w4 V (Proc.devRef (τ := τ) .tc main_v60)
      = addf (addf (V (Proc.devRef (τ := τ) .tc main_v47)) (V (Proc.devRef (τ := τ) .tc main_v50)))
      (mulf
        (broadcastInDim S1x1024x1024x128 ![0, 1, 2, 3] bcast_S1x1024x1024x1_S1x1024x1024x128_0_1_2_3
          (uitofp .f32 (broadcastInDim S1x1024x1024x1 ![0, 1, 2] bcast_S1x1024x1024_S1x1024x1024x1_0_1_2 (V (Proc.devRef (τ := τ) .tc main_v14)))))
        (broadcastInDim S1x1024x1024x128 ![0, 1, 2, 3] bcast_S1x1x1x128_S1x1024x1024x128_0_1_2_3
          (broadcastInDim S1x1x1x128 ![3] bcast_S128_S1x1x1x128_3
            (shapeCast S128 (extractStridedSlice S1x128 ![130, 0] (V (Proc.devRef (τ := τ) .tc main_arg5)) slices_S136x128_S1x128_130_0) shapeCasts_S1x128_S128)))) := by
  after_results_simp
  rfl

private theorem w4_v62 (V : Valuation τ sig (Elt F)) :
    after w4 V (Proc.devRef (τ := τ) .tc main_v62)
      = addi (RefValue.splat 131#32) (V (Proc.devRef (τ := τ) .tc main_v46)) := by
  after_results_simp
  rfl

private theorem w4_arg5 (V : Valuation τ sig (Elt F)) :
    after w4 V (Proc.devRef (τ := τ) .tc main_arg5)
      = V (Proc.devRef (τ := τ) .tc main_arg5) := by
  after_results_simp

attribute [local irreducible] Host.reduce Host.gather in
private theorem w5_v63 (V : Valuation τ sig (Elt F)) :
    after w5 V (Proc.devRef (τ := τ) .tc main_v63)
      = RefValue.takeF (V (Proc.devRef (τ := τ) .tc main_arg5)) (V (Proc.devRef (τ := τ) .tc main_v62)) := by
  after_results_simp
  simp only [ofBuf_toBuf]
  unfold RefValue.takeF RefValue.inTable RefValue.wrapIdx
  rfl

private theorem w5_v60 (V : Valuation τ sig (Elt F)) :
    after w5 V (Proc.devRef (τ := τ) .tc main_v60)
      = V (Proc.devRef (τ := τ) .tc main_v60) := by
  after_results_simp

private theorem w6_v64 (V : Valuation τ sig (Elt F)) :
    after w6 V (Proc.devRef (τ := τ) .tc main_v64)
      = addf (V (Proc.devRef (τ := τ) .tc main_v60)) (V (Proc.devRef (τ := τ) .tc main_v63)) := by
  after_results_simp

/-- The last buffer after the whole line is `refOut` of the arguments: window by window from the last, each buffer read
    replaced by its window's term or carried back unchanged, down to the arguments. -/
private theorem out_eq (V : Valuation τ sig (Elt F)) :
    after ops V (Proc.devRef (τ := τ) .tc main_v64)
      = RefValue.refOut (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) := by
  rw [ops_split]
  simp only [after_append]
  rw [w6_v64, w5_v63, w5_v60, w4_v60, w4_v62, w4_arg5, w3_v50, w3_arg5, w3_v47, w3_v14, w3_v46, w2_v49, w2_arg5, w2_v47,
    w2_v14, w2_v46, w1_v47, w1_arg5, w1_v14, w1_v46, w1_v36, w0_v24, w0_v36, w0_v46, w0_v14, w0_arg5]
  rfl

set_option maxRecDepth 8192 in
set_option maxHeartbeats 4000000 in
/-- No operation writes `main_arg0`. -/
private theorem arg0_eq (V : Valuation τ sig (Elt F)) :
    after ops V (Proc.devRef (τ := τ) .tc main_arg0) = V (Proc.devRef (τ := τ) .tc main_arg0) := by
  after_results_simp

set_option maxRecDepth 8192 in
set_option maxHeartbeats 4000000 in
/-- No operation writes `main_arg1`. -/
private theorem arg1_eq (V : Valuation τ sig (Elt F)) :
    after ops V (Proc.devRef (τ := τ) .tc main_arg1) = V (Proc.devRef (τ := τ) .tc main_arg1) := by
  after_results_simp

set_option maxRecDepth 8192 in
set_option maxHeartbeats 4000000 in
/-- No operation writes `main_arg2`. -/
private theorem arg2_eq (V : Valuation τ sig (Elt F)) :
    after ops V (Proc.devRef (τ := τ) .tc main_arg2) = V (Proc.devRef (τ := τ) .tc main_arg2) := by
  after_results_simp

set_option maxRecDepth 8192 in
set_option maxHeartbeats 4000000 in
/-- No operation writes `main_arg3`. -/
private theorem arg3_eq (V : Valuation τ sig (Elt F)) :
    after ops V (Proc.devRef (τ := τ) .tc main_arg3) = V (Proc.devRef (τ := τ) .tc main_arg3) := by
  after_results_simp

set_option maxRecDepth 8192 in
set_option maxHeartbeats 4000000 in
/-- No operation writes `main_arg4`. -/
private theorem arg4_eq (V : Valuation τ sig (Elt F)) :
    after ops V (Proc.devRef (τ := τ) .tc main_arg4) = V (Proc.devRef (τ := τ) .tc main_arg4) := by
  after_results_simp

set_option maxRecDepth 8192 in
set_option maxHeartbeats 4000000 in
/-- No operation writes `main_arg5`. -/
private theorem arg5_eq (V : Valuation τ sig (Elt F)) :
    after ops V (Proc.devRef (τ := τ) .tc main_arg5) = V (Proc.devRef (τ := τ) .tc main_arg5) := by
  after_results_simp

/-- On every device, from any memory with zero counters: every weakly fair execution of the reference terminates with
    its result at `refOut` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = RefValue.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v64).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/-
  What the reference computes, index by index.

  At the pair (i, j) the three bins are clipped into [0, 64], [0, 64] and [0, 4], so the three looked-up indices lie in
  [0, 64], [65, 129] and [131, 135]: none is negative, none is outside the table, every lookup keeps its row and the
  not-a-number is never selected. The same-entity bit as a number times row 130 is the third term. So the reference's
  result is the pairwise row sum.
-/
import proofs.«430765_j18373870092380_3_alg».proof.Proof.RefStages
import proofs.«430765_j18373870092380_3_alg».proof.Proof.PairSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal
open Idealize.ShloMosaic Idealize.ShloMosaic.ValueIdx
open Facts₀ Facts

variable [Facts]

/-- On one bit, the complement is the exclusive or with one. -/
private theorem not_eq_xor_one (b : BitVec 1) : ~~~b = IntOp.xori b 1#1 := by
  revert b; decide

/-- Spread by the second token, a per-token array reads token `j` at the pair `(i, j)`. -/
private theorem overJ_apply (a : IVec S1x1024 32) (i j : Fin 1024) :
    overJ a (ix3 (0 : Fin 1) i j) = Cert.RelPos.tokAt a j := by
  unfold overJ
  refine (broadcastInDim_apply _ _ _ _ (ix3 (0 : Fin 1) (0 : Fin 1) j) ?_).trans ?_
  · intro c
    match c with
    | ⟨0, _⟩ => rfl
    | ⟨1, _⟩ => rfl
    | ⟨2, _⟩ => rfl
  · refine (broadcastInDim_apply _ _ _ _ (ix2 (0 : Fin 1) j) ?_).trans rfl
    intro c
    match c with
    | ⟨0, _⟩ => rfl
    | ⟨1, _⟩ => rfl

/-- Spread by the first token, a per-token array reads token `i` at the pair `(i, j)`. -/
private theorem overI_apply (a : IVec S1x1024 32) (i j : Fin 1024) :
    overI a (ix3 (0 : Fin 1) i j) = Cert.RelPos.tokAt a i := by
  unfold overI
  refine (broadcastInDim_apply _ _ _ _ (ix3 (0 : Fin 1) i (0 : Fin 1)) ?_).trans ?_
  · intro c
    match c with
    | ⟨0, _⟩ => rfl
    | ⟨1, _⟩ => rfl
    | ⟨2, _⟩ => rfl
  · refine (broadcastInDim_apply _ _ _ _ (ix2 (0 : Fin 1) i) ?_).trans rfl
    intro c
    match c with
    | ⟨0, _⟩ => rfl
    | ⟨1, _⟩ => rfl

/-- The residue bin of the pair `(i, j)`. -/
private theorem resIdx_apply (a0 a1 : IVec S1x1024 32) (i j : Fin 1024) :
    resIdx a0 a1 (ix3 (0 : Fin 1) i j)
      = Cert.RelPos.resRow (Cert.RelPos.tokAt a0 j) (Cert.RelPos.tokAt a0 i) (Cert.RelPos.tokAt a1 j) (Cert.RelPos.tokAt a1 i) := by
  show Scalar.select (~~~(IntOp.cmpi .eq (overJ a0 (ix3 (0 : Fin 1) i j)) (overI a0 (ix3 (0 : Fin 1) i j))))
      (IntOp.minsi 64#32 (IntOp.maxsi 0#32 (IntOp.addi (IntOp.subi (overJ a1 (ix3 (0 : Fin 1) i j)) (overI a1 (ix3 (0 : Fin 1) i j))) 32#32)))
      64#32 = _
  rw [overJ_apply, overI_apply, overJ_apply, overI_apply, not_eq_xor_one]
  rfl

/-- A word whose signed reading lies in `[0, 135]` passes both tests of the table's bounds. -/
private theorem inside_bit (b : BitVec 32) (h0 : 0 ≤ b.toInt) (h1 : b.toInt ≤ 135) :
    IntOp.andi (IntOp.cmpi .sge b 0#32) (IntOp.cmpi .sle b 135#32) = 1#1 := by
  have e0 : (0#32 : BitVec 32).toInt = 0 := by decide
  have e1 : (135#32 : BitVec 32).toInt = 135 := by decide
  have c0 : (0#32 : BitVec 32).sle b = true := by
    unfold BitVec.sle; rw [e0]; exact decide_eq_true h0
  have c1 : b.sle 135#32 = true := by
    unfold BitVec.sle; rw [e1]; exact decide_eq_true h1
  show BitVec.ofBool ((0#32 : BitVec 32).sle b) &&& BitVec.ofBool (b.sle 135#32) = 1#1
  rw [c0, c1]; rfl

/-- A word whose signed reading is not negative fails the test "below zero". -/
private theorem not_neg_bit (b : BitVec 32) (h0 : 0 ≤ b.toInt) : IntOp.cmpi .slt b 0#32 = 0#1 := by
  have e0 : (0#32 : BitVec 32).toInt = 0 := by decide
  have c0 : b.slt 0#32 = false := by
    unfold BitVec.slt; rw [e0]; exact decide_eq_false (by omega)
  show BitVec.ofBool (b.slt 0#32) = 0#1
  rw [c0]; rfl

/-- A left fold by "and" from one over words that are all one is one. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- An index that is nowhere negative is not wrapped. -/
private theorem wrapIdx_apply (idx : IVec S1x1024x1024 32) (h0 : ∀ y, 0 ≤ (idx y).toInt) (i j : Fin 1024) (u : Fin 1) :
    wrapIdx idx (ix4 (0 : Fin 1) i j u) = idx (ix3 (0 : Fin 1) i j) := by
  unfold wrapIdx
  refine (broadcastInDim_apply _ _ _ _ (ix3 (0 : Fin 1) i j) ?_).trans ?_
  · intro c
    match c with
    | ⟨0, _⟩ => rfl
    | ⟨1, _⟩ => rfl
    | ⟨2, _⟩ => rfl
  · show Scalar.select (IntOp.cmpi .slt (idx (ix3 (0 : Fin 1) i j)) 0#32) _ (idx (ix3 (0 : Fin 1) i j)) = _
    rw [not_neg_bit _ (h0 _), select_zero]

/-- Indices that all lie in `[0, 135]` are everywhere inside the table. -/
private theorem inTable_wrapIdx (idx : IVec S1x1024x1024 32) (hr : ∀ y, 0 ≤ (idx y).toInt ∧ (idx y).toInt ≤ 135)
    (y : S1x1024x1024.Idx) : inTable (wrapIdx idx) y = 1#1 := by
  unfold inTable
  rw [Host.reduce_eq_foldl]
  refine foldl_andi_one _ (fun k => ?_) _
  obtain ⟨k0, i, j, u, rfl⟩ : ∃ (k0 : Fin 1) (i j : Fin 1024) (u : Fin 1), k = ix4 k0 i j u :=
    ⟨k 0, k 1, k 2, k 3, eq_ix4 k⟩
  obtain rfl : k0 = 0 := Subsingleton.elim _ _
  show IntOp.andi (IntOp.cmpi .sge (wrapIdx idx (ix4 (0 : Fin 1) i j u)) 0#32)
    (IntOp.cmpi .sle (wrapIdx idx (ix4 (0 : Fin 1) i j u)) 135#32) = 1#1
  rw [wrapIdx_apply idx (fun y => (hr y).1)]
  exact inside_bit _ (hr _).1 (hr _).2

local notation "tableGather" => gather_S136x128_S1x1024x1024x1_S1x1024x1024x128_3_0_n_n_0_3_1128

/-- The table's gather at `(0, i, j, ch)`: the row the start index names, read signed and clamped, at channel `ch`. -/
private theorem gather_apply (W : FVec Ideal S136x128 .f32) (idx5 : IVec S1x1024x1024x1 32) (i j : Fin 1024) (ch : Fin 128) :
    Host.gather tableGather W idx5 (ix4 (0 : Fin 1) i j ch)
      = W (ix2 (Cert.RelPos.row (idx5 (ix4 (0 : Fin 1) i j (0 : Fin 1)))) ch) := by
  unfold Host.gather
  congr 1
  funext a
  refine Fin.ext ?_
  match a with
  | ⟨0, _⟩ =>
    -- the collapsed axis: the clamped start index, no batch and no offset coordinate
    show GatherDims.start tableGather (ix4 (0 : Fin 1) i j ch) idx5 0
        + GatherDims.batchCoord tableGather (ix4 (0 : Fin 1) i j ch) 0
        + GatherDims.offCoord tableGather (ix4 (0 : Fin 1) i j ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableGather).startIndexMap from List.mem_singleton.mpr rfl)]
    have hsi : (tableGather).siIdx (ix4 (0 : Fin 1) i j ch) ⟨List.idxOf (0 : Fin 2) (tableGather).startIndexMap,
        List.idxOf_lt_length_iff.2 (List.mem_singleton.mpr rfl)⟩ = ix4 (0 : Fin 1) i j (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    -- the offset axis: no start index, no batch coordinate, the result's last coordinate
    show GatherDims.start tableGather (ix4 (0 : Fin 1) i j ch) idx5 1
        + GatherDims.batchCoord tableGather (ix4 (0 : Fin 1) i j ch) 1
        + GatherDims.offCoord tableGather (ix4 (0 : Fin 1) i j ch) 1 = _
    have hs : GatherDims.start tableGather (ix4 (0 : Fin 1) i j ch) idx5 1 = 0 := by
      unfold GatherDims.start
      rw [dif_neg (show (1 : Fin 2) ∉ (tableGather).startIndexMap from
        fun h => absurd (List.mem_singleton.mp h) (by decide))]
    have hk : (1 : Fin 2) ∈ (tableGather).sKept :=
      (GatherDims.mem_sKept _ _).mpr ⟨fun h => absurd (List.mem_singleton.mp h) (by decide), List.not_mem_nil⟩
    rw [hs, GatherDims.batchCoord_eq_zero _ _ _ List.not_mem_nil, Nat.add_zero, Nat.zero_add]
    unfold GatherDims.offCoord
    rw [dif_pos hk]
    rfl

/-- One lookup at `(0, i, j, ch)`, for indices that all lie inside the table: the row the index names, at channel `ch`. -/
private theorem takeF_apply (W : FVec Ideal S136x128 .f32) (idx : IVec S1x1024x1024 32)
    (hr : ∀ y, 0 ≤ (idx y).toInt ∧ (idx y).toInt ≤ 135) (i j : Fin 1024) (ch : Fin 128) :
    takeF (F := Ideal) W idx (ix4 (0 : Fin 1) i j ch)
      = W (ix2 (Cert.RelPos.row (idx (ix3 (0 : Fin 1) i j))) ch) := by
  unfold takeF
  rw [select_apply]
  have hc : broadcastInDim S1x1024x1024x128 ![0, 1, 2] bcast_S1x1024x1024_S1x1024x1024x128_0_1_2
      (inTable (wrapIdx idx)) (ix4 (0 : Fin 1) i j ch) = 1#1 := by
    refine (broadcastInDim_apply _ _ _ _ (ix3 (0 : Fin 1) i j) ?_).trans (inTable_wrapIdx idx hr _)
    intro c
    match c with
    | ⟨0, _⟩ => rfl
    | ⟨1, _⟩ => rfl
    | ⟨2, _⟩ => rfl
  rw [hc, select_one, gather_apply, wrapIdx_apply idx (fun y => (hr y).1)]

/-- The token row of the pair `(i, j)`. -/
private theorem tokIdx_apply (a0 a1 a3 : IVec S1x1024 32) (i j : Fin 1024) :
    addi (splat 65#32) (tokIdx a0 a1 a3) (ix3 (0 : Fin 1) i j)
      = Cert.RelPos.tokRow (Cert.RelPos.tokAt a0 j) (Cert.RelPos.tokAt a0 i) (Cert.RelPos.tokAt a1 j) (Cert.RelPos.tokAt a1 i)
          (Cert.RelPos.tokAt a3 j) (Cert.RelPos.tokAt a3 i) := by
  show IntOp.addi 65#32 (Scalar.select
      (IntOp.andi (~~~(IntOp.cmpi .eq (overJ a1 (ix3 (0 : Fin 1) i j)) (overI a1 (ix3 (0 : Fin 1) i j))))
        (~~~(IntOp.cmpi .eq (overJ a0 (ix3 (0 : Fin 1) i j)) (overI a0 (ix3 (0 : Fin 1) i j)))))
      (IntOp.minsi 64#32 (IntOp.maxsi 0#32 (IntOp.addi (IntOp.subi (overJ a3 (ix3 (0 : Fin 1) i j)) (overI a3 (ix3 (0 : Fin 1) i j))) 32#32)))
      64#32) = _
  rw [overJ_apply, overI_apply, overJ_apply, overI_apply, overJ_apply, overI_apply, not_eq_xor_one, not_eq_xor_one]
  rfl

/-- The chain row of the pair `(i, j)`. -/
private theorem chIdx_apply (a0 a4 : IVec S1x1024 32) (i j : Fin 1024) :
    addi (splat 131#32) (chIdx a0 a4) (ix3 (0 : Fin 1) i j)
      = Cert.RelPos.chRow (Cert.RelPos.tokAt a0 j) (Cert.RelPos.tokAt a0 i) (Cert.RelPos.tokAt a4 j) (Cert.RelPos.tokAt a4 i) := by
  show IntOp.addi 131#32 (Scalar.select
      (~~~(IntOp.cmpi .eq (overJ a0 (ix3 (0 : Fin 1) i j)) (overI a0 (ix3 (0 : Fin 1) i j))))
      (IntOp.minsi 4#32 (IntOp.maxsi 0#32 (IntOp.addi (IntOp.subi (overJ a4 (ix3 (0 : Fin 1) i j)) (overI a4 (ix3 (0 : Fin 1) i j))) 2#32)))
      4#32) = _
  rw [overJ_apply, overI_apply, overJ_apply, overI_apply, not_eq_xor_one]
  rfl

/-- Every index of the pairs is `(0, i, j)`. -/
private theorem pairIdx_cases (P : S1x1024x1024.Idx → Prop) (h : ∀ i j : Fin 1024, P (ix3 (0 : Fin 1) i j)) (y : S1x1024x1024.Idx) :
    P y := by
  obtain ⟨y0, i, j, rfl⟩ : ∃ (y0 : Fin 1) (i j : Fin 1024), y = ix3 y0 i j := ⟨y 0, y 1, y 2, eq_ix3 y⟩
  obtain rfl : y0 = 0 := Subsingleton.elim _ _
  exact h i j

/-- The same-entity term at `(0, i, j, ch)`: the bit as a number times row 130 at channel `ch`. -/
private theorem entTerm_apply (a2 : IVec S1x1024 32) (W : FVec Ideal S136x128 .f32) (i j : Fin 1024) (ch : Fin 128) :
    entTerm (F := Ideal) a2 W (ix4 (0 : Fin 1) i j ch)
      = (FloatOps.uitofp (F := Ideal) .f32 (Cert.RelPos.sameBit (Cert.RelPos.tokAt a2 j) (Cert.RelPos.tokAt a2 i)) : EReal)
          * W (ix2 (130 : Fin 136) ch) := by
  unfold entTerm
  rw [mulf_apply]
  congr 1
  · refine (broadcastInDim_apply _ _ _ _ (ix4 (0 : Fin 1) i j (0 : Fin 1)) ?_).trans ?_
    · intro c
      match c with
      | ⟨0, _⟩ => rfl
      | ⟨1, _⟩ => rfl
      | ⟨2, _⟩ => rfl
      | ⟨3, _⟩ => rfl
    · show FloatOps.uitofp (F := Ideal) .f32 (broadcastInDim S1x1024x1024x1 ![0, 1, 2] bcast_S1x1024x1024_S1x1024x1024x1_0_1_2
          (cmpi .eq (overJ a2) (overI a2)) (ix4 (0 : Fin 1) i j (0 : Fin 1))) = _
      congr 1
      refine (broadcastInDim_apply _ _ _ _ (ix3 (0 : Fin 1) i j) ?_).trans ?_
      · intro c
        match c with
        | ⟨0, _⟩ => rfl
        | ⟨1, _⟩ => rfl
        | ⟨2, _⟩ => rfl
      · show IntOp.cmpi .eq (overJ a2 (ix3 (0 : Fin 1) i j)) (overI a2 (ix3 (0 : Fin 1) i j)) = _
        rw [overJ_apply, overI_apply]
        rfl
  · refine (broadcastInDim_apply _ _ _ _ (ix4 (0 : Fin 1) (0 : Fin 1) (0 : Fin 1) ch) ?_).trans ?_
    · intro c
      match c with
      | ⟨0, _⟩ => rfl
      | ⟨1, _⟩ => rfl
      | ⟨2, _⟩ => rfl
      | ⟨3, _⟩ => rfl
    · refine (broadcastInDim_apply _ _ _ _ (ix1 ch) ?_).trans ?_
      · intro c
        match c with
        | ⟨0, _⟩ => rfl
      · rw [shapeCast_1a_a_apply]
        refine extractStridedSlice_apply _ _ _ _ (ix2 (130 : Fin 136) ch) ?_
        intro c
        match c with
        | ⟨0, _⟩ => rfl
        | ⟨1, _⟩ =>
          show ch.val = 0 + ch.val
          rw [Nat.zero_add]

/-- The reference's result is the pairwise row sum of its arguments. -/
theorem refOut_eq (a0 a1 a2 a3 a4 : IVec S1x1024 32) (W : FVec Ideal S136x128 .f32) :
    refOut (F := Ideal) a0 a1 a2 a3 a4 W = Cert.RelPos.pairSum a0 a1 a2 a3 a4 W := by
  funext y
  obtain ⟨y0, i, j, ch, rfl⟩ : ∃ (y0 : Fin 1) (i j : Fin 1024) (ch : Fin 128), y = ix4 y0 i j ch :=
    ⟨y 0, y 1, y 2, y 3, eq_ix4 y⟩
  obtain rfl : y0 = 0 := Subsingleton.elim _ _
  -- the three looked-up indices lie inside the table at every pair
  have hres : ∀ y, 0 ≤ (resIdx a0 a1 y).toInt ∧ (resIdx a0 a1 y).toInt ≤ 135 :=
    pairIdx_cases _ fun i j => by
      rw [resIdx_apply]
      have := Cert.RelPos.resRow_range (Cert.RelPos.tokAt a0 j) (Cert.RelPos.tokAt a0 i) (Cert.RelPos.tokAt a1 j) (Cert.RelPos.tokAt a1 i)
      omega
  have htok : ∀ y, 0 ≤ (addi (splat 65#32) (tokIdx a0 a1 a3) y).toInt ∧ (addi (splat 65#32) (tokIdx a0 a1 a3) y).toInt ≤ 135 :=
    pairIdx_cases _ fun i j => by
      rw [tokIdx_apply]
      have := Cert.RelPos.tokRow_range (Cert.RelPos.tokAt a0 j) (Cert.RelPos.tokAt a0 i) (Cert.RelPos.tokAt a1 j) (Cert.RelPos.tokAt a1 i)
        (Cert.RelPos.tokAt a3 j) (Cert.RelPos.tokAt a3 i)
      omega
  have hch : ∀ y, 0 ≤ (addi (splat 131#32) (chIdx a0 a4) y).toInt ∧ (addi (splat 131#32) (chIdx a0 a4) y).toInt ≤ 135 :=
    pairIdx_cases _ fun i j => by
      rw [chIdx_apply]
      have := Cert.RelPos.chRow_range (Cert.RelPos.tokAt a0 j) (Cert.RelPos.tokAt a0 i) (Cert.RelPos.tokAt a4 j) (Cert.RelPos.tokAt a4 i)
      omega
  unfold refOut
  rw [addf_apply, addf_apply, addf_apply, takeF_apply W _ hres, takeF_apply W _ htok, takeF_apply W _ hch, entTerm_apply,
    resIdx_apply, tokIdx_apply, chIdx_apply]
  rfl

end Cert.ReferenceIdeal.RefValue

end
-- ==== Proof.lean ====
/-
  The pairwise relative-position kernel against its reference.

  Both programs compute, for every pair (i, j) of the 1024 tokens and every one of the 128 channels, the sum of four rows
  of the 136-row weight table: the row of the clipped residue offset, the row (shifted by 65) of the clipped token
  offset, row 130 when the two tokens have the same entity, and the row (shifted by 131) of the clipped chain offset.
  The reference looks the rows up one at a time; the kernel selects them with a vector of 136 zeros and ones and one
  matrix product per band of a 128 × 128 tile. The clips keep the four rows in the disjoint ranges [0, 64], [65, 129],
  {130} and [131, 135], whatever the integer inputs are, so the two are the same sum over the extended reals
  (`Cert.RelPos.pairSum`): the reference never leaves the table, and the kernel's 0/1 vector has exactly those ones.

  Frames: each program runs to the end without a fault and leaves its six arguments unchanged. The idealization
  rewrote nothing, so `preserves` has nothing to state.
-/
import proofs.«430765_j18373870092380_3_alg».proof.Defs
import proofs.«430765_j18373870092380_3_alg».proof.Proof.Gen.Kernel
import proofs.«430765_j18373870092380_3_alg».proof.Proof.Gen.KernelIdeal
import proofs.«430765_j18373870092380_3_alg».proof.Proof.Gen.ReferenceIdeal
import proofs.«430765_j18373870092380_3_alg».proof.Proof.Gen.Pre_finite_inputs
import proofs.«430765_j18373870092380_3_alg».proof.Proof.WordTileFrame
import proofs.«430765_j18373870092380_3_alg».proof.Proof.TileFrame
import proofs.«430765_j18373870092380_3_alg».proof.Proof.TileArray
import proofs.«430765_j18373870092380_3_alg».proof.Proof.RefRun
import proofs.«430765_j18373870092380_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Tile.frame m ρ

/-- So does the kernel read over the extended reals. -/
theorem frame_kernelIdeal : Cert.frame_KernelIdeal := fun m ρ _ => Cert.KernelIdeal.Tile.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the arguments both programs end at the pairwise row sum of those arguments. -/
theorem algebraic : Cert.algebraic_KernelIdeal_ReferenceIdeal := by
  intro m ρ m' ρ' _ hagree
  refine ⟨_, Cert.KernelIdeal.Tile.kernel_run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refOut_eq, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
